-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S2x512x2048 : Shape := ⟨3, ![2, 512, 2048]⟩
abbrev S8192x1024 : Shape := ⟨2, ![8192, 1024]⟩
abbrev S2x512x1024 : Shape := ⟨3, ![2, 512, 1024]⟩
abbrev S2 : Shape := ⟨1, ![2]⟩
abbrev S16 : Shape := ⟨1, ![16]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S512x1024 : Shape := ⟨2, ![512, 1024]⟩
abbrev S1x512x1024 : Shape := ⟨3, ![1, 512, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x2048, .f32⟩
  | .hbm, ⟨1, _⟩ => ⟨S16384x1024, .bf16⟩
  | .local _ .vmem, ⟨0, _⟩ => ⟨S2x512x2048, .f32⟩
  | .local _ .vmem, ⟨1, _⟩ => ⟨S8192x1024, .bf16⟩
  | .local _ .vmem, ⟨2, _⟩ => ⟨S2x512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_29 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v38 : BitVec 32 := Scalar.muli v5 c8192_i32
  let v39 : BitVec 32 := Scalar.addi v38 c0_i32_29
  let c0_i32_36 : BitVec 32 := 0#32
  ![v39.toNat, 0]
def k0_dev2 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v40 : BitVec 32 := Scalar.muli v2 c8_i32_32
  let v41 : BitVec 32 := Scalar.addi c0_i32_33 v40
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_34 : BitVec 32 := 4#32
  let v42 : BitVec 32 := Scalar.muli v9 c4_i32_34
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v44 : BitVec 32 := Scalar.muli v8 c1_i32_35
  let v45 : BitVec 32 := Scalar.addi v43 v44
  v45.toNat
def k0_dev3 (d0 : Dev nD) : Nat :=
  let c0_i32_66 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_65 : BitVec 32 := 8#32
  let v77 : BitVec 32 := Scalar.muli v2 c8_i32_65
  let v78 : BitVec 32 := Scalar.addi c0_i32_66 v77
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_67 : BitVec 32 := 4#32
  let v79 : BitVec 32 := Scalar.muli v9 c4_i32_67
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v81 : BitVec 32 := Scalar.muli v8 c1_i32_68
  let v82 : BitVec 32 := Scalar.addi v80 v81
  v82.toNat
def k0_dev4 (d0 : Dev nD) : Nat :=
  let c0_i32_106 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_105 : BitVec 32 := 8#32
  let v121 : BitVec 32 := Scalar.muli v2 c8_i32_105
  let v122 : BitVec 32 := Scalar.addi c0_i32_106 v121
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_107 : BitVec 32 := 4#32
  let v123 : BitVec 32 := Scalar.muli v9 c4_i32_107
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v125 : BitVec 32 := Scalar.muli v8 c1_i32_108
  let v126 : BitVec 32 := Scalar.addi v124 v125
  v126.toNat
def k0_dev5 (d0 : Dev nD) : Nat :=
  let c0_i32_145 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_144 : BitVec 32 := 8#32
  let v165 : BitVec 32 := Scalar.muli v2 c8_i32_144
  let v166 : BitVec 32 := Scalar.addi c0_i32_145 v165
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_146 : BitVec 32 := 4#32
  let v167 : BitVec 32 := Scalar.muli v9 c4_i32_146
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v169 : BitVec 32 := Scalar.muli v8 c1_i32_147
  let v170 : BitVec 32 := Scalar.addi v168 v169
  v170.toNat
def k0_dev6 (d0 : Dev nD) : Nat :=
  let c0_i32_185 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_184 : BitVec 32 := 8#32
  let v209 : BitVec 32 := Scalar.muli v2 c8_i32_184
  let v210 : BitVec 32 := Scalar.addi c0_i32_185 v209
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_186 : BitVec 32 := 4#32
  let v211 : BitVec 32 := Scalar.muli v9 c4_i32_186
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v213 : BitVec 32 := Scalar.muli v8 c1_i32_187
  let v214 : BitVec 32 := Scalar.addi v212 v213
  v214.toNat
def k0_dev7 (d0 : Dev nD) : Nat :=
  let c0_i32_224 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_223 : BitVec 32 := 8#32
  let v253 : BitVec 32 := Scalar.muli v2 c8_i32_223
  let v254 : BitVec 32 := Scalar.addi c0_i32_224 v253
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_225 : BitVec 32 := 4#32
  let v255 : BitVec 32 := Scalar.muli v9 c4_i32_225
  let v256 : BitVec 32 := Scalar.addi v254 v255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v257 : BitVec 32 := Scalar.muli v8 c1_i32_226
  let v258 : BitVec 32 := Scalar.addi v256 v257
  v258.toNat
def k0_dev8 (d0 : Dev nD) : Nat :=
  let c0_i32_263 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_262 : BitVec 32 := 8#32
  let v297 : BitVec 32 := Scalar.muli v2 c8_i32_262
  let v298 : BitVec 32 := Scalar.addi c0_i32_263 v297
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_264 : BitVec 32 := 4#32
  let v299 : BitVec 32 := Scalar.muli v9 c4_i32_264
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_265 : BitVec 32 := 1#32
  let v301 : BitVec 32 := Scalar.muli v8 c1_i32_265
  let v302 : BitVec 32 := Scalar.addi v300 v301
  v302.toNat
def k0_dev9 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v341 : BitVec 32 := Scalar.muli v2 c8_i32_301
  let v342 : BitVec 32 := Scalar.addi c0_i32_302 v341
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_303 : BitVec 32 := 4#32
  let v343 : BitVec 32 := Scalar.muli v9 c4_i32_303
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v345 : BitVec 32 := Scalar.muli v8 c1_i32_304
  let v346 : BitVec 32 := Scalar.addi v344 v345
  v346.toNat
def k0_dev10 (d0 : Dev nD) : Nat :=
  let c0_i32_342 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_341 : BitVec 32 := 8#32
  let v385 : BitVec 32 := Scalar.muli v2 c8_i32_341
  let v386 : BitVec 32 := Scalar.addi c0_i32_342 v385
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_343 : BitVec 32 := 4#32
  let v387 : BitVec 32 := Scalar.muli v9 c4_i32_343
  let v388 : BitVec 32 := Scalar.addi v386 v387
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v389 : BitVec 32 := Scalar.muli v8 c1_i32_344
  let v390 : BitVec 32 := Scalar.addi v388 v389
  v390.toNat
def k0_dev11 (d0 : Dev nD) : Nat :=
  let c0_i32_381 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_380 : BitVec 32 := 8#32
  let v429 : BitVec 32 := Scalar.muli v2 c8_i32_380
  let v430 : BitVec 32 := Scalar.addi c0_i32_381 v429
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_382 : BitVec 32 := 4#32
  let v431 : BitVec 32 := Scalar.muli v9 c4_i32_382
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v433 : BitVec 32 := Scalar.muli v8 c1_i32_383
  let v434 : BitVec 32 := Scalar.addi v432 v433
  v434.toNat
def k0_dev12 (d0 : Dev nD) : Nat :=
  let c0_i32_420 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_419 : BitVec 32 := 8#32
  let v473 : BitVec 32 := Scalar.muli v2 c8_i32_419
  let v474 : BitVec 32 := Scalar.addi c0_i32_420 v473
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_421 : BitVec 32 := 4#32
  let v475 : BitVec 32 := Scalar.muli v9 c4_i32_421
  let v476 : BitVec 32 := Scalar.addi v474 v475
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_422 : BitVec 32 := 1#32
  let v477 : BitVec 32 := Scalar.muli v8 c1_i32_422
  let v478 : BitVec 32 := Scalar.addi v476 v477
  v478.toNat
def k0_dev13 (d0 : Dev nD) : Nat :=
  let c0_i32_459 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_458 : BitVec 32 := 8#32
  let v517 : BitVec 32 := Scalar.muli v2 c8_i32_458
  let v518 : BitVec 32 := Scalar.addi c0_i32_459 v517
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_460 : BitVec 32 := 4#32
  let v519 : BitVec 32 := Scalar.muli v9 c4_i32_460
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_461 : BitVec 32 := 1#32
  let v521 : BitVec 32 := Scalar.muli v8 c1_i32_461
  let v522 : BitVec 32 := Scalar.addi v520 v521
  v522.toNat
def k0_dev14 (d0 : Dev nD) : Nat :=
  let c0_i32_498 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_497 : BitVec 32 := 8#32
  let v561 : BitVec 32 := Scalar.muli v2 c8_i32_497
  let v562 : BitVec 32 := Scalar.addi c0_i32_498 v561
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_499 : BitVec 32 := 4#32
  let v563 : BitVec 32 := Scalar.muli v9 c4_i32_499
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_500 : BitVec 32 := 1#32
  let v565 : BitVec 32 := Scalar.muli v8 c1_i32_500
  let v566 : BitVec 32 := Scalar.addi v564 v565
  v566.toNat
def k0_dev15 (d0 : Dev nD) : Nat :=
  let c0_i32_537 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_536 : BitVec 32 := 8#32
  let v605 : BitVec 32 := Scalar.muli v2 c8_i32_536
  let v606 : BitVec 32 := Scalar.addi c0_i32_537 v605
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_538 : BitVec 32 := 4#32
  let v607 : BitVec 32 := Scalar.muli v9 c4_i32_538
  let v608 : BitVec 32 := Scalar.addi v606 v607
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_539 : BitVec 32 := 1#32
  let v609 : BitVec 32 := Scalar.muli v8 c1_i32_539
  let v610 : BitVec 32 := Scalar.addi v608 v609
  v610.toNat
def k0_dev16 (d0 : Dev nD) : Nat :=
  let c0_i32_576 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_575 : BitVec 32 := 8#32
  let v649 : BitVec 32 := Scalar.muli v2 c8_i32_575
  let v650 : BitVec 32 := Scalar.addi c0_i32_576 v649
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_577 : BitVec 32 := 4#32
  let v651 : BitVec 32 := Scalar.muli v9 c4_i32_577
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_578 : BitVec 32 := 1#32
  let v653 : BitVec 32 := Scalar.muli v8 c1_i32_578
  let v654 : BitVec 32 := Scalar.addi v652 v653
  v654.toNat
def k0_dev17 (d0 : Dev nD) : Nat :=
  let c0_i32_610 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_609 : BitVec 32 := 8#32
  let v688 : BitVec 32 := Scalar.muli v2 c8_i32_609
  let v689 : BitVec 32 := Scalar.addi c0_i32_610 v688
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_611 : BitVec 32 := 4#32
  let v690 : BitVec 32 := Scalar.muli v9 c4_i32_611
  let v691 : BitVec 32 := Scalar.addi v689 v690
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_612 : BitVec 32 := 1#32
  let v692 : BitVec 32 := Scalar.muli v8 c1_i32_612
  let v693 : BitVec 32 := Scalar.addi v691 v692
  v693.toNat

class Facts₀ : Prop where
  hamt_1 : (1#32 : BitVec 32).msb = false
  inb_S2_S1_0 : ∀ a, (![0] : Fin 1 → Nat) a + S1.size a ≤ S2.size a
  squeezes_S1_S_ : S1.Squeezes S_
  inb_S2x512x2048_S1x512x2048_0_0_0 : ∀ a, (![0, 0, 0] : Fin 3 → Nat) a + S1x512x2048.size a ≤ S2x512x2048.size a
  squeezes_S1x512x2048_S512x2048 : S1x512x2048.Squeezes S512x2048
  inb_S8192x2048_S512x2048_0_0 : ∀ a, (![0, 0] : Fin 2 → Nat) a + S512x2048.size a ≤ S8192x2048.size a
  inb_S2_S1_1 : ∀ a, (![1] : Fin 1 → Nat) a + S1.size a ≤ S2.size a
  inb_S2x512x2048_S1x512x2048_1_0_0 : ∀ a, (![1, 0, 0] : Fin 3 → Nat) a + S1x512x2048.size a ≤ S2x512x2048.size a
  inb_S8192x2048_S512x2048_512_0 : ∀ a, (![512, 0] : Fin 2 → Nat) a + S512x2048.size a ≤ S8192x2048.size a
  h_S1x512x2048 : 0 < S1x512x2048.numel
  shapeCasts_S1x512x2048_S512x2048 : S1x512x2048.ShapeCasts S512x2048
  slices_S512x2048_o0_1024_S512x1024 : S512x2048.Slices ![0, 1024] S512x1024
  bitsLt_bf16_f32 : FTy.bits .bf16 < FTy.bits .f32
  inb_S8192x1024_S512x1024_0_0 : ∀ a, (![0, 0] : Fin 2 → Nat) a + S512x1024.size a ≤ S8192x1024.size a
  h_S512x1024 : 0 < S512x1024.numel
  shapeCasts_S512x1024_S512x1024 : S512x1024.ShapeCasts S512x1024
  packedbf16_S8192x1024_S512x1024_0_0 : (Rect.unit (s := S8192x1024) ![0, 0] S512x1024.size inb_S8192x1024_S512x1024_0_0).PackedRows (EltTy.packing .bf16)
  slices_S512x2048_o0_0_S512x1024 : S512x2048.Slices ![0, 0] S512x1024
  inb_S2x512x1024_S1x512x1024_0_0_0 : ∀ a, (![0, 0, 0] : Fin 3 → Nat) a + S1x512x1024.size a ≤ S2x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S2x512x1024_S1x512x1024_0_0_0 : (Rect.unit (s := S2x512x1024) ![0, 0, 0] S1x512x1024.size inb_S2x512x1024_S1x512x1024_0_0_0).PackedRows (EltTy.packing .bf16)
  inb_S16_S1_0 : ∀ a, (![0] : Fin 1 → Nat) a + S1.size a ≤ S16.size a
  wordsbf16_S8192x1024_S512x1024_0_0 : (Rect.unit (s := S8192x1024) ![0, 0] S512x1024.size inb_S8192x1024_S512x1024_0_0).WholeWords (EltTy.packing .bf16)
  squeezes_S1x512x1024_S512x1024 : S1x512x1024.Squeezes S512x1024
  wordsbf16_S2x512x1024_S1x512x1024_0_0_0 : (Rect.unit (s := S2x512x1024) ![0, 0, 0] S1x512x1024.size inb_S2x512x1024_S1x512x1024_0_0_0).WholeWords (EltTy.packing .bf16)
  inb_S8192x2048_S512x2048_1024_0 : ∀ a, (![1024, 0] : Fin 2 → Nat) a + S512x2048.size a ≤ S8192x2048.size a
  inb_S8192x1024_S512x1024_512_0 : ∀ a, (![512, 0] : Fin 2 → Nat) a + S512x1024.size a ≤ S8192x1024.size a
  packedbf16_S8192x1024_S512x1024_512_0 : (Rect.unit (s := S8192x1024) ![512, 0] S512x1024.size inb_S8192x1024_S512x1024_512_0).PackedRows (EltTy.packing .bf16)
  inb_S2x512x1024_S1x512x1024_1_0_0 : ∀ a, (![1, 0, 0] : Fin 3 → Nat) a + S1x512x1024.size a ≤ S2x512x1024.size a
  packedbf16_S2x512x1024_S1x512x1024_1_0_0 : (Rect.unit (s := S2x512x1024) ![1, 0, 0] S1x512x1024.size inb_S2x512x1024_S1x512x1024_1_0_0).PackedRows (EltTy.packing .bf16)
  inb_S16_S1_1 : ∀ a, (![1] : Fin 1 → Nat) a + S1.size a ≤ S16.size a
  wordsbf16_S8192x1024_S512x1024_512_0 : (Rect.unit (s := S8192x1024) ![512, 0] S512x1024.size inb_S8192x1024_S512x1024_512_0).WholeWords (EltTy.packing .bf16)
  wordsbf16_S2x512x1024_S1x512x1024_1_0_0 : (Rect.unit (s := S2x512x1024) ![1, 0, 0] S1x512x1024.size inb_S2x512x1024_S1x512x1024_1_0_0).WholeWords (EltTy.packing .bf16)
  inb_S8192x2048_S512x2048_1536_0 : ∀ a, (![1536, 0] : Fin 2 → Nat) a + S512x2048.size a ≤ S8192x2048.size a
  inb_S8192x1024_S512x1024_1024_0 : ∀ a, (![1024, 0] : Fin 2 → Nat) a + S512x1024.size a ≤ S8192x1024.size a
  packedbf16_S8192x1024_S512x1024_1024_0 : (Rect.unit (s := S8192x1024) ![1024, 0] S512x1024.size inb_S8192x1024_S512x1024_1024_0).PackedRows (EltTy.packing .bf16)
  inb_S16_S1_2 : ∀ a, (![2] : Fin 1 → Nat) a + S1.size a ≤ S16.size a
  wordsbf16_S8192x1024_S512x1024_1024_0 : (Rect.unit (s := S8192x1024) ![1024, 0] S512x1024.size inb_S8192x1024_S512x1024_1024_0).WholeWords (EltTy.packing .bf16)
  inb_S8192x2048_S512x2048_2048_0 : ∀ a, (![2048, 0] : Fin 2 → Nat) a + S512x2048.size a ≤ S8192x2048.size a
  inb_S8192x1024_S512x1024_1536_0 : ∀ a, (![1536, 0] : Fin 2 → Nat) a + S512x1024.size a ≤ S8192x1024.size a
  packedbf16_S8192x1024_S512x1024_1536_0 : (Rect.unit (s := S8192x1024) ![1536, 0] S512x1024.size inb_S8192x1024_S512x1024_1536_0).PackedRows (EltTy.packing .bf16)
  inb_S16_S1_3 : ∀ a, (![3] : Fin 1 → Nat) a + S1.size a ≤ S16.size a
  wordsbf16_S8192x1024_S512x1024_1536_0 : (Rect.unit (s := S8192x1024) ![1536, 0] S512x1024.size inb_S8192x1024_S512x1024_1536_0).WholeWords (EltTy.packing .bf16)
  inb_S8192x2048_S512x2048_2560_0 : ∀ a, (![2560, 0] : Fin 2 → Nat) a + S512x2048.size a ≤ S8192x2048.size a
  inb_S8192x1024_S512x1024_2048_0 : ∀ a, (![2048, 0] : Fin 2 → Nat) a + S512x1024.size a ≤ S8192x1024.size a
  packedbf16_S8192x1024_S512x1024_2048_0 : (Rect.unit (s := S8192x1024) ![2048, 0] S512x1024.size inb_S8192x1024_S512x1024_2048_0).PackedRows (EltTy.packing .bf16)
  inb_S16_S1_4 : ∀ a, (![4] : Fin 1 → Nat) a + S1.size a ≤ S16.size a
  wordsbf16_S8192x1024_S512x1024_2048_0 : (Rect.unit (s := S8192x1024) ![2048, 0] S512x1024.size inb_S8192x1024_S512x1024_2048_0).WholeWords (EltTy.packing .bf16)
  inb_S8192x2048_S512x2048_3072_0 : ∀ a, (![3072, 0] : Fin 2 → Nat) a + S512x2048.size a ≤ S8192x2048.size a
  inb_S8192x1024_S512x1024_2560_0 : ∀ a, (![2560, 0] : Fin 2 → Nat) a + S512x1024.size a ≤ S8192x1024.size a
  packedbf16_S8192x1024_S512x1024_2560_0 : (Rect.unit (s := S8192x1024) ![2560, 0] S512x1024.size inb_S8192x1024_S512x1024_2560_0).PackedRows (EltTy.packing .bf16)
  inb_S16_S1_5 : ∀ a, (![5] : Fin 1 → Nat) a + S1.size a ≤ S16.size a
  wordsbf16_S8192x1024_S512x1024_2560_0 : (Rect.unit (s := S8192x1024) ![2560, 0] S512x1024.size inb_S8192x1024_S512x1024_2560_0).WholeWords (EltTy.packing .bf16)
  inb_S8192x2048_S512x2048_3584_0 : ∀ a, (![3584, 0] : Fin 2 → Nat) a + S512x2048.size a ≤ S8192x2048.size a
  inb_S8192x1024_S512x1024_3072_0 : ∀ a, (![3072, 0] : Fin 2 → Nat) a + S512x1024.size a ≤ S8192x1024.size a
  packedbf16_S8192x1024_S512x1024_3072_0 : (Rect.unit (s := S8192x1024) ![3072, 0] S512x1024.size inb_S8192x1024_S512x1024_3072_0).PackedRows (EltTy.packing .bf16)
  inb_S16_S1_6 : ∀ a, (![6] : Fin 1 → Nat) a + S1.size a ≤ S16.size a
  wordsbf16_S8192x1024_S512x1024_3072_0 : (Rect.unit (s := S8192x1024) ![3072, 0] S512x1024.size inb_S8192x1024_S512x1024_3072_0).WholeWords (EltTy.packing .bf16)
  inb_S8192x2048_S512x2048_4096_0 : ∀ a, (![4096, 0] : Fin 2 → Nat) a + S512x2048.size a ≤ S8192x2048.size a
  inb_S8192x1024_S512x1024_3584_0 : ∀ a, (![3584, 0] : Fin 2 → Nat) a + S512x1024.size a ≤ S8192x1024.size a
  packedbf16_S8192x1024_S512x1024_3584_0 : (Rect.unit (s := S8192x1024) ![3584, 0] S512x1024.size inb_S8192x1024_S512x1024_3584_0).PackedRows (EltTy.packing .bf16)
  inb_S16_S1_7 : ∀ a, (![7] : Fin 1 → Nat) a + S1.size a ≤ S16.size a
  wordsbf16_S8192x1024_S512x1024_3584_0 : (Rect.unit (s := S8192x1024) ![3584, 0] S512x1024.size inb_S8192x1024_S512x1024_3584_0).WholeWords (EltTy.packing .bf16)
  inb_S8192x2048_S512x2048_4608_0 : ∀ a, (![4608, 0] : Fin 2 → Nat) a + S512x2048.size a ≤ S8192x2048.size a
  inb_S8192x1024_S512x1024_4096_0 : ∀ a, (![4096, 0] : Fin 2 → Nat) a + S512x1024.size a ≤ S8192x1024.size a
  packedbf16_S8192x1024_S512x1024_4096_0 : (Rect.unit (s := S8192x1024) ![4096, 0] S512x1024.size inb_S8192x1024_S512x1024_4096_0).PackedRows (EltTy.packing .bf16)
  inb_S16_S1_8 : ∀ a, (![8] : Fin 1 → Nat) a + S1.size a ≤ S16.size a
  wordsbf16_S8192x1024_S512x1024_4096_0 : (Rect.unit (s := S8192x1024) ![4096, 0] S512x1024.size inb_S8192x1024_S512x1024_4096_0).WholeWords (EltTy.packing .bf16)
  inb_S8192x2048_S512x2048_5120_0 : ∀ a, (![5120, 0] : Fin 2 → Nat) a + S512x2048.size a ≤ S8192x2048.size a
  inb_S8192x1024_S512x1024_4608_0 : ∀ a, (![4608, 0] : Fin 2 → Nat) a + S512x1024.size a ≤ S8192x1024.size a
  packedbf16_S8192x1024_S512x1024_4608_0 : (Rect.unit (s := S8192x1024) ![4608, 0] S512x1024.size inb_S8192x1024_S512x1024_4608_0).PackedRows (EltTy.packing .bf16)
  inb_S16_S1_9 : ∀ a, (![9] : Fin 1 → Nat) a + S1.size a ≤ S16.size a
  wordsbf16_S8192x1024_S512x1024_4608_0 : (Rect.unit (s := S8192x1024) ![4608, 0] S512x1024.size inb_S8192x1024_S512x1024_4608_0).WholeWords (EltTy.packing .bf16)
  inb_S8192x2048_S512x2048_5632_0 : ∀ a, (![5632, 0] : Fin 2 → Nat) a + S512x2048.size a ≤ S8192x2048.size a
  inb_S8192x1024_S512x1024_5120_0 : ∀ a, (![5120, 0] : Fin 2 → Nat) a + S512x1024.size a ≤ S8192x1024.size a
  packedbf16_S8192x1024_S512x1024_5120_0 : (Rect.unit (s := S8192x1024) ![5120, 0] S512x1024.size inb_S8192x1024_S512x1024_5120_0).PackedRows (EltTy.packing .bf16)
  inb_S16_S1_10 : ∀ a, (![10] : Fin 1 → Nat) a + S1.size a ≤ S16.size a
  wordsbf16_S8192x1024_S512x1024_5120_0 : (Rect.unit (s := S8192x1024) ![5120, 0] S512x1024.size inb_S8192x1024_S512x1024_5120_0).WholeWords (EltTy.packing .bf16)
  inb_S8192x2048_S512x2048_6144_0 : ∀ a, (![6144, 0] : Fin 2 → Nat) a + S512x2048.size a ≤ S8192x2048.size a
  inb_S8192x1024_S512x1024_5632_0 : ∀ a, (![5632, 0] : Fin 2 → Nat) a + S512x1024.size a ≤ S8192x1024.size a
  packedbf16_S8192x1024_S512x1024_5632_0 : (Rect.unit (s := S8192x1024) ![5632, 0] S512x1024.size inb_S8192x1024_S512x1024_5632_0).PackedRows (EltTy.packing .bf16)
  inb_S16_S1_11 : ∀ a, (![11] : Fin 1 → Nat) a + S1.size a ≤ S16.size a
  wordsbf16_S8192x1024_S512x1024_5632_0 : (Rect.unit (s := S8192x1024) ![5632, 0] S512x1024.size inb_S8192x1024_S512x1024_5632_0).WholeWords (EltTy.packing .bf16)
  inb_S8192x2048_S512x2048_6656_0 : ∀ a, (![6656, 0] : Fin 2 → Nat) a + S512x2048.size a ≤ S8192x2048.size a
  inb_S8192x1024_S512x1024_6144_0 : ∀ a, (![6144, 0] : Fin 2 → Nat) a + S512x1024.size a ≤ S8192x1024.size a
  packedbf16_S8192x1024_S512x1024_6144_0 : (Rect.unit (s := S8192x1024) ![6144, 0] S512x1024.size inb_S8192x1024_S512x1024_6144_0).PackedRows (EltTy.packing .bf16)
  inb_S16_S1_12 : ∀ a, (![12] : Fin 1 → Nat) a + S1.size a ≤ S16.size a
  wordsbf16_S8192x1024_S512x1024_6144_0 : (Rect.unit (s := S8192x1024) ![6144, 0] S512x1024.size inb_S8192x1024_S512x1024_6144_0).WholeWords (EltTy.packing .bf16)
  inb_S8192x2048_S512x2048_7168_0 : ∀ a, (![7168, 0] : Fin 2 → Nat) a + S512x2048.size a ≤ S8192x2048.size a
  inb_S8192x1024_S512x1024_6656_0 : ∀ a, (![6656, 0] : Fin 2 → Nat) a + S512x1024.size a ≤ S8192x1024.size a
  packedbf16_S8192x1024_S512x1024_6656_0 : (Rect.unit (s := S8192x1024) ![6656, 0] S512x1024.size inb_S8192x1024_S512x1024_6656_0).PackedRows (EltTy.packing .bf16)
  inb_S16_S1_13 : ∀ a, (![13] : Fin 1 → Nat) a + S1.size a ≤ S16.size a
  wordsbf16_S8192x1024_S512x1024_6656_0 : (Rect.unit (s := S8192x1024) ![6656, 0] S512x1024.size inb_S8192x1024_S512x1024_6656_0).WholeWords (EltTy.packing .bf16)
  inb_S8192x2048_S512x2048_7680_0 : ∀ a, (![7680, 0] : Fin 2 → Nat) a + S512x2048.size a ≤ S8192x2048.size a
  inb_S8192x1024_S512x1024_7168_0 : ∀ a, (![7168, 0] : Fin 2 → Nat) a + S512x1024.size a ≤ S8192x1024.size a
  packedbf16_S8192x1024_S512x1024_7168_0 : (Rect.unit (s := S8192x1024) ![7168, 0] S512x1024.size inb_S8192x1024_S512x1024_7168_0).PackedRows (EltTy.packing .bf16)
  inb_S16_S1_14 : ∀ a, (![14] : Fin 1 → Nat) a + S1.size a ≤ S16.size a
  wordsbf16_S8192x1024_S512x1024_7168_0 : (Rect.unit (s := S8192x1024) ![7168, 0] S512x1024.size inb_S8192x1024_S512x1024_7168_0).WholeWords (EltTy.packing .bf16)
  inb_S8192x1024_S512x1024_7680_0 : ∀ a, (![7680, 0] : Fin 2 → Nat) a + S512x1024.size a ≤ S8192x1024.size a
  packedbf16_S8192x1024_S512x1024_7680_0 : (Rect.unit (s := S8192x1024) ![7680, 0] S512x1024.size inb_S8192x1024_S512x1024_7680_0).PackedRows (EltTy.packing .bf16)
  inb_S16_S1_15 : ∀ a, (![15] : Fin 1 → Nat) a + S1.size a ≤ S16.size a
  wordsbf16_S8192x1024_S512x1024_7680_0 : (Rect.unit (s := S8192x1024) ![7680, 0] S512x1024.size inb_S8192x1024_S512x1024_7680_0).WholeWords (EltTy.packing .bf16)
  hcc0_scratch3 : 0 + S2.numel ≤ 36
  hcc0_scratch4 : 2 + S16.numel ≤ 36
  hcc0_scratch5 : 18 + S16.numel ≤ 36
  hcc0_scratch6 : 34 + S2.numel ≤ 36
  k0_dev1_lt : ∀ d0 : Dev nD, (k0_dev1 d0) < nD
  k0_off1_inb : ∀ d0 : Dev nD, ∀ (r : Fin 16), ∀ a, (k0_off1 d0 (BitVec.ofNat 32 (512 * r.val))) a + S512x1024.size a ≤ S16384x1024.size a
  k0_off1_wordsbf16 : ∀ d0 : Dev nD, ∀ (r : Fin 16), (Rect.unit (s := S16384x1024) (k0_off1 d0 (BitVec.ofNat 32 (512 * r.val))) S512x1024.size (k0_off1_inb d0 r)).WholeWords (EltTy.packing .bf16)
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD

variable [Facts₀]

abbrev cc0_scratch3 : DmaSems sig S2 := SemArray.consecutive 0 S2 hcc0_scratch3
abbrev cc0_scratch4 : DmaSems sig S16 := SemArray.consecutive 2 S16 hcc0_scratch4
abbrev cc0_scratch5 : DmaSems sig S16 := SemArray.consecutive 18 S16 hcc0_scratch5
abbrev cc0_scratch6 : DmaSems sig S2 := SemArray.consecutive 34 S2 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 2
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.KI.Spec.lean ====
/-
  What the exchange leaves on each device, as one function of the input blocks.

  The sixteen devices sit on a 2 × 2 × 4 mesh; the exchange runs along the middle axis only, between a device at
  coordinate `y` and the one at `1 - y` with the other two coordinates equal. A device holds an 8192 × 2048 block of
  the input (rows `8192·y …` of the whole array) and ends with a 16384 × 1024 result: columns `1024·y …` of EVERY row
  of the whole array. Rows `8192·y …` of that come from its own block, rows `8192·(1-y) …` from its partner's, each
  entry narrowed to the result's element type.
-/
import proofs.«900642_g7700000000000643_dist_a2a_v7x_xyz2x2x4_y_m8192_n1024_bf16_1_alg».proof.KernelIdeal
import Idealize.ShloMosaic.Lib.ValueIdx

noncomputable section

namespace Cert.KernelIdeal.A2A

open Idealize.ShloMosaic Idealize.ShloMosaic.TcCoe Idealize.ShloMosaic.ValueIdx Cert.KernelIdeal

variable {F : FTy → Type} [FloatOps F]

/-- A device's coordinate on the mesh axis the exchange runs along (devices are numbered row-major over 2 × 2 × 4). -/
def yOf (c : Dev nD) : Fin 2 := ⟨(c.val / 4) % 2, Nat.mod_lt _ (by decide)⟩

/-- The device at the other coordinate of that axis, the other two coordinates kept. -/
def pr (c : Dev nD) : Dev nD :=
  ⟨(8 * (c.val / 8) + (c.val % 4) + 4) - 4 * ((c.val / 4) % 2), by
    have h : c.val < 16 := c.isLt
    show _ < 16
    omega⟩

theorem pr_pr (c : Dev nD) : pr (pr c) = c := by revert c; decide
theorem pr_ne (c : Dev nD) : pr c ≠ c := by revert c; decide
theorem yOf_pr (c : Dev nD) : (yOf (pr c)).val = 1 - (yOf c).val := by revert c; decide
theorem yOf_cases (c : Dev nD) : (yOf c).val = 0 ∨ (yOf c).val = 1 := by revert c; decide

/-- The result on a device at coordinate `y` whose own input block is `Xs` and whose partner's is `Xp`: entry
    `(i, j)` is entry `(i mod 8192, 1024·y + j)` of the block that holds row `i` of the whole array — the device's
    own when `i / 8192 = y`, else its partner's — narrowed. -/
def outOf (y : Fin 2) (Xs Xp : FVec F S8192x2048 .f32) : FVec F S16384x1024 .bf16 := fun i =>
  FloatOps.truncf .bf16 (by decide)
    ((if (i 0).val / 8192 = y.val then Xs else Xp)
      (ix2 (⟨(i 0).val % 8192, Nat.mod_lt _ (by decide)⟩ : Fin 8192)
           (⟨1024 * y.val + (i 1).val, by
              have hy : y.val < 2 := y.isLt
              have hj : (i 1).val < 1024 := (i 1).isLt
              omega⟩ : Fin 2048)))

variable (m : (ℓ : Loc nD τ sig) → Buf (Elt F) ℓ)

/-- Device `c`'s result buffer after the exchange, from the input blocks as launched. -/
def outFinal (c : Dev nD) : Buf (Elt F) ((c : Thread nD τ).loc main_v1) :=
  outOf (yOf c) (m ((c : Thread nD τ).loc main_arg0)) (m ((pr c : Thread nD τ).loc main_arg0))

end Cert.KernelIdeal.A2A

end
-- ==== Proof.KI.Proto.lean ====
/-
  The exchange's protocol on the sixteen devices, under the rounds discipline.

  Every device `c` talks to one peer only, `pr c` (the other coordinate of the middle mesh axis). Per device there are
  33 cells of one round each, one duty a round:
  * its barrier cell: one unit, paid by its peer's entry signal; the payload is the half of the PEER's result buffer that
    this device fills (rows `8192·y …`, as sixteen blocks of 512 rows), at whatever it holds;
  * its sixteen receive cells, one per block `r`: the credit of a 512 × 1024 block, paid by the peer's `r`-th transfer;
    the payload is that block of the device's OWN result buffer holding its final contents;
  * its sixteen send cells: the same credit, paid by its own `r`-th transfer once the source is read; the payload is
    block `r` of its send buffer back.
  A device owes, at entry, its peer's barrier cell one unit and its peer's sixteen receive cells a block's credit each;
  receive cells lie above barrier cells, these above every other cell, so each wait is below what the waiter still owes.
-/
import proofs.«900642_g7700000000000643_dist_a2a_v7x_xyz2x2x4_y_m8192_n1024_bf16_1_alg».proof.Proof.KI.Spec
import proofs.«900642_g7700000000000643_dist_a2a_v7x_xyz2x2x4_y_m8192_n1024_bf16_1_alg».proof.Proof.Gen.KernelIdeal
import proofs.«900642_g7700000000000643_dist_a2a_v7x_xyz2x2x4_y_m8192_n1024_bf16_1_alg».proof.Proof.Gen.KernelIdeal.Skeleton
import proofs.«900642_g7700000000000643_dist_a2a_v7x_xyz2x2x4_y_m8192_n1024_bf16_1_alg».proof.Proof.Gen.KernelIdeal.Launch
import proofs.«900642_g7700000000000643_dist_a2a_v7x_xyz2x2x4_y_m8192_n1024_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.Transfers

noncomputable section

namespace Cert.KernelIdeal.A2A

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging library's copy, the exchange's copy (one duty a round), the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-! ## The peer, as the kernel computes it -/

theorem dev1_eq (c : Dev nD) : (⟨k0_dev1 c, k0_dev1_lt c⟩ : Dev nD) = pr c := Fin.ext (k0_dev1_eq c)
theorem dev2_eq (c : Dev nD) : (⟨k0_dev2 c, k0_dev2_lt c⟩ : Dev nD) = pr c := Fin.ext (k0_dev2_eq c)
theorem dev3_eq (c : Dev nD) : (⟨k0_dev3 c, k0_dev3_lt c⟩ : Dev nD) = pr c := Fin.ext (k0_dev3_eq c)
theorem dev4_eq (c : Dev nD) : (⟨k0_dev4 c, k0_dev4_lt c⟩ : Dev nD) = pr c := Fin.ext (k0_dev4_eq c)
theorem dev5_eq (c : Dev nD) : (⟨k0_dev5 c, k0_dev5_lt c⟩ : Dev nD) = pr c := Fin.ext (k0_dev5_eq c)
theorem dev6_eq (c : Dev nD) : (⟨k0_dev6 c, k0_dev6_lt c⟩ : Dev nD) = pr c := Fin.ext (k0_dev6_eq c)
theorem dev7_eq (c : Dev nD) : (⟨k0_dev7 c, k0_dev7_lt c⟩ : Dev nD) = pr c := Fin.ext (k0_dev7_eq c)
theorem dev8_eq (c : Dev nD) : (⟨k0_dev8 c, k0_dev8_lt c⟩ : Dev nD) = pr c := Fin.ext (k0_dev8_eq c)
theorem dev9_eq (c : Dev nD) : (⟨k0_dev9 c, k0_dev9_lt c⟩ : Dev nD) = pr c := Fin.ext (k0_dev9_eq c)
theorem dev10_eq (c : Dev nD) : (⟨k0_dev10 c, k0_dev10_lt c⟩ : Dev nD) = pr c := Fin.ext (k0_dev10_eq c)
theorem dev11_eq (c : Dev nD) : (⟨k0_dev11 c, k0_dev11_lt c⟩ : Dev nD) = pr c := Fin.ext (k0_dev11_eq c)
theorem dev12_eq (c : Dev nD) : (⟨k0_dev12 c, k0_dev12_lt c⟩ : Dev nD) = pr c := Fin.ext (k0_dev12_eq c)
theorem dev13_eq (c : Dev nD) : (⟨k0_dev13 c, k0_dev13_lt c⟩ : Dev nD) = pr c := Fin.ext (k0_dev13_eq c)
theorem dev14_eq (c : Dev nD) : (⟨k0_dev14 c, k0_dev14_lt c⟩ : Dev nD) = pr c := Fin.ext (k0_dev14_eq c)
theorem dev15_eq (c : Dev nD) : (⟨k0_dev15 c, k0_dev15_lt c⟩ : Dev nD) = pr c := Fin.ext (k0_dev15_eq c)
theorem dev16_eq (c : Dev nD) : (⟨k0_dev16 c, k0_dev16_lt c⟩ : Dev nD) = pr c := Fin.ext (k0_dev16_eq c)
theorem dev17_eq (c : Dev nD) : (⟨k0_dev17 c, k0_dev17_lt c⟩ : Dev nD) = pr c := Fin.ext (k0_dev17_eq c)

def peer : Dev nD ≃ Dev nD := ⟨pr, pr, pr_pr, pr_pr⟩

/-! ## The cells -/

/-- The runtime's barrier semaphore; the send and receive DMA semaphores of block `r`. -/
abbrev barS : Sem sig := (SemArray.scalar (sig.barrier 0 rfl) : Sems sig S_).sem
def sendS (r : Fin 16) : DmaSem sig := ⟨2 + r.val, by have := r.isLt; show _ < 36; omega⟩
def recvS (r : Fin 16) : DmaSem sig := ⟨18 + r.val, by have := r.isLt; show _ < 36; omega⟩

abbrev barCell (c : Dev nD) : GSem nD τ sig := ((c : Thread nD τ), .reg barS)
abbrev sendCell (c : Dev nD) (r : Fin 16) : GSem nD τ sig := ((c : Thread nD τ), .dma (sendS r))
abbrev recvCell (c : Dev nD) (r : Fin 16) : GSem nD τ sig := ((c : Thread nD τ), .dma (recvS r))

/-- What a cell is for. -/
inductive CK where
  | bar | send (r : Fin 16) | recv (r : Fin 16) | other
deriving DecidableEq

def ck : SemLoc sig → CK
  | .reg _ => .bar
  | .dma q =>
    if h : 2 ≤ q.val ∧ q.val < 18 then .send ⟨q.val - 2, by omega⟩
    else if h' : 18 ≤ q.val ∧ q.val < 34 then .recv ⟨q.val - 18, by omega⟩
    else .other

theorem ck_bar : ck (.reg barS) = .bar := rfl
theorem ck_send (r : Fin 16) : ck (.dma (sendS r)) = .send r := by
  have hr := r.isLt
  have h : 2 ≤ (sendS r).val ∧ (sendS r).val < 18 := ⟨by show 2 ≤ 2 + r.val; omega, by show 2 + r.val < 18; omega⟩
  unfold ck
  dsimp only
  rw [dif_pos h]
  exact congrArg CK.send (Fin.ext (by show 2 + r.val - 2 = r.val; omega))
theorem ck_recv (r : Fin 16) : ck (.dma (recvS r)) = .recv r := by
  have hr := r.isLt
  have h0 : ¬ (2 ≤ (recvS r).val ∧ (recvS r).val < 18) := fun h => by have : 18 + r.val < 18 := h.2; omega
  have h : 18 ≤ (recvS r).val ∧ (recvS r).val < 34 := ⟨by show 18 ≤ 18 + r.val; omega, by show 18 + r.val < 34; omega⟩
  unfold ck
  dsimp only
  rw [dif_neg h0, dif_pos h]
  exact congrArg CK.recv (Fin.ext (by show 18 + r.val - 18 = r.val; omega))

/-! ## The memrefs -/

abbrev xM : Memref sig .tc .hbm S8192x2048 .f32 := Memref.whole main_arg0
abbrev outM : Memref sig .tc .hbm S16384x1024 .bf16 := Memref.whole main_v1
abbrev vinM : Memref sig .tc .vmem S2x512x2048 .f32 := Memref.whole cc0_scratch0
abbrev vsendM : Memref sig .tc .vmem S8192x1024 .bf16 := Memref.whole cc0_scratch1
abbrev vlocM : Memref sig .tc .vmem S2x512x1024 .bf16 := Memref.whole cc0_scratch2

theorem sendRect_inb (r : Fin 16) : ∀ a, (![512 * r.val, 0] : Fin 2 → Nat) a + S512x1024.size a ≤ S8192x1024.size a := by
  have := r.isLt
  intro a; fin_cases a
  · show 512 * r.val + 512 ≤ 8192; omega
  · show 0 + 1024 ≤ 1024; omega

/-- Block `r` of the send buffer. -/
def sendM (r : Fin 16) : Memref sig .tc .vmem S512x1024 .bf16 :=
  vsendM.slice (Rect.unit (s := S8192x1024) ![512 * r.val, 0] S512x1024.size (sendRect_inb r)) (fun _ => rfl)

/-- Block `r` of the rows of a result buffer that device `a` fills — on itself by its local copies, on its peer by
    its transfers —, at the offsets the kernel computes. -/
def outBlk (a : Dev nD) (r : Fin 16) : Memref sig .tc .hbm S512x1024 .bf16 :=
  outM.slice (Rect.unit (s := S16384x1024) (k0_off1 a (BitVec.ofNat 32 (512 * r.val))) S512x1024.size (k0_off1_inb a r)) (fun _ => rfl)

abbrev N : ℕ := (sendM 0).view.dmaCredit

/-- A memref's own elements on device `d`, held outright at contents `f`. -/
def pts {sp : Space} {s : Shape} {e : EltTy} (M : Memref sig .tc sp s e) (d : Dev nD) (f : Buf (Elt F) (M.view.loc (d : Thread nD τ))) : sProp 𝕄 :=
  M.view.loc (d : Thread nD τ) ↦[M.view.set]{fullShare} f

instance pts_storable {sp : Space} {s : Shape} {e : EltTy} (M : Memref sig .tc sp s e) (d : Dev nD) (f : Buf (Elt F) (M.view.loc (d : Thread nD τ))) :
    BI.Storable (upEmb : UEmb _ 𝕄) (pts (F := F) M d f) := by unfold pts; infer_instance

/-! ## Contents -/

/-- What device `c`'s send buffer holds once every block is stored: the half of its input block its peer keeps —
    columns `1024·(1 - y) …` —, narrowed. -/
def vsendFull (c : Dev nD) : Buf (Elt F) ((c : Thread nD τ).loc cc0_scratch1) := fun i =>
  FloatOps.truncf .bf16 (by decide)
    ((m ((c : Thread nD τ).loc main_arg0) : FVec F S8192x2048 .f32)
      (ix2 (⟨(i 0).val, (i 0).isLt⟩ : Fin 8192)
           (⟨1024 * (1 - (yOf c).val) + (i 1).val, by
              have hj : (i 1).val < 1024 := (i 1).isLt
              omega⟩ : Fin 2048)))

/-! ## The schedule -/

def barPay (d : Dev nD) : sProp 𝕄 :=
  bigSep Finset.univ fun r : Fin 16 => iprop(∃ f, pts (outBlk d r) (pr d) f)
def sendPay (c : Dev nD) (r : Fin 16) : sProp 𝕄 := pts (sendM r) c (vsendFull m c)
def recvPay (d : Dev nD) (r : Fin 16) : sProp 𝕄 := pts (outBlk (pr d) r) d (outFinal m d)

def sched : Rounds.Schedule (GSem nD τ sig) Unit 𝕄 where
  duties g r := if r = 0 ∧ g.1.2 = .tc ∧ ck g.2 ≠ .other then {()} else ∅
  unitless _ := False
  amount g _ _ := if ck g.2 = .bar then 1 else N
  payload g _ _ :=
    match ck g.2 with
    | .bar => barPay g.1.1
    | .send r => sendPay m g.1.1 r
    | .recv r => recvPay m g.1.1 r
    | .other => iprop(emp)
  amount_pos g _ _ _ := by
    by_cases h : ck g.2 = .bar
    · rw [if_pos h]; exact Nat.one_pos
    · rw [if_neg h]; exact View.dmaCredit_pos _ (by decide)

instance sched_payload_storable (g : GSem nD τ sig) (r : ℕ) (d : Unit) :
    BI.Storable (upEmb : UEmb _ 𝕄) ((sched (F := F) m).payload g r d) := by
  show BI.Storable upEmb (match ck g.2 with
    | .bar => barPay g.1.1
    | .send r => sendPay m g.1.1 r
    | .recv r => recvPay m g.1.1 r
    | .other => iprop(emp))
  unfold barPay sendPay recvPay
  split
  · infer_instance
  · exact pts_storable _ _ _
  · exact pts_storable _ _ _
  · infer_instance

section Sched
variable (c : Dev nD) (r : Fin 16)

theorem send_ne_bar : (CK.send r) ≠ CK.bar := fun h => by cases h
theorem recv_ne_bar : (CK.recv r) ≠ CK.bar := fun h => by cases h

theorem duties_bar : (sched (F := F) m).duties (barCell c) 0 = {()} := by
  dsimp only [sched]; exact if_pos ⟨rfl, rfl, fun h => by cases h⟩
theorem duties_send : (sched (F := F) m).duties (sendCell c r) 0 = {()} := by
  dsimp only [sched]; exact if_pos ⟨rfl, rfl, by rw [ck_send]; exact fun h => by cases h⟩
theorem duties_recv : (sched (F := F) m).duties (recvCell c r) 0 = {()} := by
  dsimp only [sched]; exact if_pos ⟨rfl, rfl, by rw [ck_recv]; exact fun h => by cases h⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c r) 0 d = N := by
  dsimp only [sched]; rw [ck_send]; exact if_neg (send_ne_bar r)
theorem amount_recv (d : Unit) : (sched (F := F) m).amount (recvCell c r) 0 d = N := by
  dsimp only [sched]; rw [ck_recv]; exact if_neg (recv_ne_bar r)

theorem expect_bar : (sched (F := F) m).expect (barCell c) 0 = 1 := by
  unfold Schedule.expect Schedule.amountOf; rw [duties_bar, Finset.sum_singleton, amount_bar]
theorem expect_send : (sched (F := F) m).expect (sendCell c r) 0 = N := by
  unfold Schedule.expect Schedule.amountOf; rw [duties_send, Finset.sum_singleton, amount_send]
theorem expect_recv : (sched (F := F) m).expect (recvCell c r) 0 = N := by
  unfold Schedule.expect Schedule.amountOf; rw [duties_recv, Finset.sum_singleton, amount_recv]

theorem payload_bar (d : Unit) : (sched (F := F) m).payload (barCell c) 0 d = barPay c := rfl
theorem payload_send (d : Unit) : (sched (F := F) m).payload (sendCell c r) 0 d = sendPay m c r := by
  show (match ck (SemLoc.dma (sendS r)) with
    | .bar => barPay c | .send r' => sendPay m c r' | .recv r' => recvPay m c r' | .other => iprop(emp)) = _
  rw [ck_send]
theorem payload_recv (d : Unit) : (sched (F := F) m).payload (recvCell c r) 0 d = recvPay m c r := by
  show (match ck (SemLoc.dma (recvS r)) with
    | .bar => barPay c | .send r' => sendPay m c r' | .recv r' => recvPay m c r' | .other => iprop(emp)) = _
  rw [ck_recv]

theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c r) 0 \ ∅) (fun d => (sched (F := F) m).payload (sendCell c r) 0 d) = sendPay m c r := by
  rw [Finset.sdiff_empty, duties_send, bigSep_singleton, payload_send]
theorem rest_recv : bigSep ((sched (F := F) m).duties (recvCell c r) 0 \ ∅) (fun d => (sched (F := F) m).payload (recvCell c r) 0 d) = recvPay m c r := by
  rw [Finset.sdiff_empty, duties_recv, bigSep_singleton, payload_recv]

end Sched

/-! ## What each device owes at launch; the levels -/

/-- The receive credit device `c` still owes its peer once blocks `0 … k-1` are on their way. -/
def owedFrom (c : Dev nD) (k : ℕ) : CellTallies nD τ sig Unit :=
  if h : k < 16 then owedFrom c (k + 1) + tallyAt (recvCell (pr c) ⟨k, h⟩) () N else 0
termination_by 16 - k

/-- At launch: every block's receive credit, and the peer's barrier unit (paid first). -/
def O₀ (c : Dev nD) : CellTallies nD τ sig Unit := owedFrom c 0 + tallyAt (barCell (pr c)) () 1

theorem owedFrom_step (c : Dev nD) (r : Fin 16) :
    owedFrom c r.val = owedFrom c (r.val + 1) + tallyAt (recvCell (pr c) r) () N := by
  rw [owedFrom, dif_pos r.isLt]
theorem owedFrom_16 (c : Dev nD) : owedFrom c 16 = 0 := by rw [owedFrom, dif_neg (by decide)]

theorem owedFrom_pos (c : Dev nD) : ∀ (n k : ℕ), 16 - k = n → ∀ (g : GSem nD τ sig) (u : Unit), 0 < owedFrom c k g u → ∃ r : Fin 16, g = recvCell (pr c) r
  | 0, k, hk, g, u, h => by
      rw [owedFrom, dif_neg (by omega)] at h
      exact absurd h (Nat.lt_irrefl 0)
  | n + 1, k, hk, g, u, h => by
      have hk' : k < 16 := by omega
      rw [owedFrom, dif_pos hk'] at h
      rcases Pipeline.add_pos_cases h with h | h
      · exact owedFrom_pos c n (k + 1) (by omega) g u h
      · exact ⟨⟨k, hk'⟩, (Pipeline.tallyAt_pos h).1⟩

def L (g : GSem nD τ sig) : Finset Unit := if g.1.2 = .tc then {()} else ∅
/-- Receive cells at 2, barrier cells at 1, every other cell (send, local transfers) at 0. -/
def lv (g : GSem nD τ sig) (_ : Unit) : ℕ :=
  match ck g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_recv (d : Dev nD) (r : Fin 16) : lv (recvCell d r) () = 2 := by
  show (match ck (SemLoc.dma (recvS r)) with | .bar => 1 | .recv _ => 2 | _ => 0) = 2
  rw [ck_recv]

theorem lv_le_one (c : Dev nD) (s : SemLoc sig) (hs : ∀ r, ck s ≠ .recv r) : lv ((c : Thread nD τ), s) () ≤ 1 := by
  show (match ck s with | .bar => 1 | .recv _ => 2 | _ => 0) ≤ 1
  cases hck : ck s with
  | bar => exact Nat.le_refl _
  | send r => exact Nat.zero_le _
  | recv r => exact absurd hck (hs r)
  | other => exact Nat.zero_le _

/-- A wait on any cell of the device's own that is no receive cell, while it owes only receive credit. -/
theorem mayWait_owed (c : Dev nD) (s : SemLoc sig) (hs : ∀ r, ck s ≠ .recv r) (k : ℕ) :
    (levAts L lv : sProp 𝕄) ⊢ MayWait (c : Thread nD τ) s () (owedFrom c k) :=
  Pipeline.mayWait_of_levAts (by rw [L_tc]; exact Finset.mem_singleton_self _) (fun g i hg => by
    obtain ⟨r, rfl⟩ := owedFrom_pos c _ k rfl g i hg
    refine ⟨by rw [L_tc]; exact Finset.mem_singleton_self _, ?_⟩
    cases i
    rw [lv_recv]
    exact Nat.lt_of_le_of_lt (lv_le_one c s hs) (by decide))

end Cert.KernelIdeal.A2A

end
-- ==== Proof.KI.Inv.lean ====
/-
  What a device holds when its body starts and what it must hold when the body ends: the contract between the body's
  proof and the launch.
-/
import proofs.«900642_g7700000000000643_dist_a2a_v7x_xyz2x2x4_y_m8192_n1024_bf16_1_alg».proof.Proof.KI.Proto

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, numbered: barrier, the sixteen send cells, the sixteen receive cells -/

def kB : Fin 33 := ⟨0, by decide⟩
def kS (r : Fin 16) : Fin 33 := ⟨1 + r.val, by have := r.isLt; omega⟩
def kR (r : Fin 16) : Fin 33 := ⟨17 + r.val, by have := r.isLt; omega⟩

def csem (k : Fin 33) : SemLoc sig :=
  if h : k.val = 0 then .reg barS
  else if h' : k.val < 17 then .dma (sendS ⟨k.val - 1, by omega⟩)
  else .dma (recvS ⟨k.val - 17, by have := k.isLt; omega⟩)

abbrev kcell (ck : Dev nD × Fin 33) : GSem nD τ sig := ((ck.1 : Thread nD τ), csem ck.2)

theorem csem_kB : csem kB = .reg barS := rfl
theorem csem_kS (r : Fin 16) : csem (kS r) = .dma (sendS r) := by
  have := r.isLt
  unfold csem kS
  rw [dif_neg (by show ¬ (1 + r.val = 0); omega), dif_pos (by show 1 + r.val < 17; omega)]
  exact congrArg (fun x => SemLoc.dma (sendS x)) (Fin.ext (by show 1 + r.val - 1 = r.val; omega))
theorem csem_kR (r : Fin 16) : csem (kR r) = .dma (recvS r) := by
  have := r.isLt
  unfold csem kR
  rw [dif_neg (by show ¬ (17 + r.val = 0); omega), dif_neg (by show ¬ (17 + r.val < 17); omega)]
  exact congrArg (fun x => SemLoc.dma (recvS x)) (Fin.ext (by show 17 + r.val - 17 = r.val; omega))

/-! ## The semaphores of the device's local transfers, as the body names them -/

abbrev inS0 : DmaSem sig := ((cc0_scratch3.slice (Rect.unit (s := S2) ![0] S1.size inb_S2_S1_0)).squeeze S_ squeezes_S1_S_).sem
abbrev inS1 : DmaSem sig := ((cc0_scratch3.slice (Rect.unit (s := S2) ![1] S1.size inb_S2_S1_1)).squeeze S_ squeezes_S1_S_).sem
abbrev locS0 : DmaSem sig := ((cc0_scratch6.slice (Rect.unit (s := S2) ![0] S1.size inb_S2_S1_0)).squeeze S_ squeezes_S1_S_).sem
abbrev locS1 : DmaSem sig := ((cc0_scratch6.slice (Rect.unit (s := S2) ![1] S1.size inb_S2_S1_1)).squeeze S_ squeezes_S1_S_).sem

/-- The four local-transfer semaphores' counters at zero. -/
def localSems (c : Dev nD) : sProp 𝕄 :=
  iprop(semVal ((c : Thread nD τ), .dma inS0) 0 ∗ semVal ((c : Thread nD τ), .dma inS1) 0
    ∗ semVal ((c : Thread nD τ), .dma locS0) 0 ∗ semVal ((c : Thread nD τ), .dma locS1) 0)

/-! ## The ghost state -/

/-- The invariants device `c`'s body opens, at the names `K` the launch allocated them under: its own 33 cells', its
    peer's barrier cell's (its signal) and its peer's receive cells' (its transfers). Persistent. -/
def invs (K : Dev nD × Fin 33 → ℕ) (c : Dev nD) : sProp 𝕄 :=
  iprop(cellInv ER (sched m) (K (c, kB)) (barCell c)
    ∗ (bigSep Finset.univ fun r : Fin 16 => cellInv ER (sched m) (K (c, kS r)) (sendCell c r))
    ∗ (bigSep Finset.univ fun r : Fin 16 => cellInv ER (sched m) (K (c, kR r)) (recvCell c r))
    ∗ cellInv ER (sched m) (K (pr c, kB)) (barCell (pr c))
    ∗ (bigSep Finset.univ fun r : Fin 16 => cellInv ER (sched m) (K (pr c, kR r)) (recvCell (pr c) r)))

instance invs_persistent (K : Dev nD × Fin 33 → ℕ) (c : Dev nD) : BI.Persistent (invs m K c) := by unfold invs; infer_instance

/-- Round 0 reached, of every cell the device pays or waits on. Persistent. -/
def marks (c : Dev nD) : sProp 𝕄 :=
  iprop(reached ER (barCell (pr c)) 0
    ∗ (bigSep Finset.univ fun r : Fin 16 => reached ER (recvCell (pr c) r) 0)
    ∗ (bigSep Finset.univ fun r : Fin 16 => reached ER (sendCell c r) 0))

instance marks_persistent (c : Dev nD) : BI.Persistent (marks (F := F) c) := by unfold marks; infer_instance

/-- The device's positions at round 0 of its own cells, and the tokens of the duties IT pays: its peer's barrier duty,
    its peer's sixteen receive duties, its own sixteen send duties. -/
def linear (c : Dev nD) : sProp 𝕄 :=
  iprop(atPos ER (barCell c) 0 ∅ 0
    ∗ (bigSep Finset.univ fun r : Fin 16 => atPos ER (sendCell c r) 0 ∅ 0)
    ∗ (bigSep Finset.univ fun r : Fin 16 => atPos ER (recvCell c r) 0 ∅ 0)
    ∗ dutyTok ER (barCell (pr c)) 0 ()
    ∗ (bigSep Finset.univ fun r : Fin 16 => dutyTok ER (recvCell (pr c) r) 0 ())
    ∗ (bigSep Finset.univ fun r : Fin 16 => dutyTok ER (sendCell c r) 0 ()))

def ghost (K : Dev nD × Fin 33 → ℕ) (c : Dev nD) : sProp 𝕄 := iprop(invs m K c ∗ marks c ∗ linear c)

/-- The credit dealt at launch: one unit on the barrier cell, a block's credit on every receive cell. -/
def creds (c : Dev nD) : sProp 𝕄 :=
  iprop(cred (tallyAt (barCell c) () 1) ∗ bigSep Finset.univ fun r : Fin 16 => cred (tallyAt (recvCell c r) () N))

/-- What device `c`'s body starts from beside its buffers. -/
def start (c : Dev nD) : sProp 𝕄 :=
  iprop((∃ K, ghost m K c) ∗ creds c ∗ levAts L lv ∗ localSems c)

/-- The three scratch buffers, at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The input block as launched. -/
def xPts (c : Dev nD) : sProp 𝕄 := ((c : Thread nD τ).loc main_arg0) ↦{fullShare} m ((c : Thread nD τ).loc main_arg0)

/-- Before the body: the ghost state, the scratch buffers, the input block and the result buffer as launched. -/
def Φ₀ (c : Dev nD) : sProp 𝕄 :=
  iprop(start m c ∗ scratch c ∗ xPts m c ∗ (((c : Thread nD τ).loc main_v1) ↦{fullShare} m ((c : Thread nD τ).loc main_v1)))

/-- The kernel's own 36 semaphores back at zero. -/
def semsBack (c : Dev nD) : sProp 𝕄 :=
  iprop(localSems c ∗ (bigSep Finset.univ fun r : Fin 16 => semVal (sendCell c r) 0)
    ∗ (bigSep Finset.univ fun r : Fin 16 => semVal (recvCell c r) 0))

/-- After the body: the scratch buffers, the input block unchanged, the result buffer at its final contents, the own
    semaphores at zero. -/
def Φ₁ (c : Dev nD) : sProp 𝕄 :=
  iprop(scratch c ∗ xPts m c ∗ (((c : Thread nD τ).loc main_v1) ↦{fullShare} outFinal m c) ∗ semsBack c)

/-! ## The proof data (no staged window: the kernel routes every buffer itself) -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- What the body is proved from: the ghost state opened at its names, and what the device owes. -/
def bodyPre (K : Dev nD × Fin 33 → ℕ) (c : Dev nD) : sProp 𝕄 :=
  iprop(ghost m K c ∗ creds c ∗ levAts L lv ∗ localSems c ∗ scratch c ∗ xPts m c
    ∗ (((c : Thread nD τ).loc main_v1) ↦{fullShare} m ((c : Thread nD τ).loc main_v1))
    ∗ (dats m 0 c).owesAt () t0_0.castSucc)

def bodyPost (c : Dev nD) : sProp 𝕄 := iprop(Φ₁ m c ∗ (dats m 0 c).owesAt () t0_0.succ)

end Cert.KernelIdeal.A2A

end
-- ==== Proof.KI.Launch.lean ====
/-
  The launch: from "each device's body is proved" to the run of the whole program on the sixteen devices, with every
  device's result buffer at its final contents and its input block unchanged.
-/
import proofs.«900642_g7700000000000643_dist_a2a_v7x_xyz2x2x4_y_m8192_n1024_bf16_1_alg».proof.Proof.KI.Inv

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What every final state satisfies: each device's result buffer at its final contents, its input block as launched. -/
def QC : PUnit × MemSt nD τ sig (Elt F) → Prop := fun r => ∀ c : Dev nD,
  r.2.mem ((c.tc : Thread nD τ).loc main_v1) = outFinal m c
    ∧ r.2.mem ((c.tc : Thread nD τ).loc main_arg0) = m ((c.tc : Thread nD τ).loc main_arg0)

/-- The library's body obligation on device `c`, from the body proved at the opened ghost state. -/
theorem body_obligation_of
    (hs : ∀ (K : Dev nD × Fin 33 → ℕ) (c : Dev nD) (Kt : PUnit → sProp 𝕄),
      iprop(bodyPre m K c ∗ (bodyPost m c -∗ Kt ⟨⟩))
        ⊢ wp frame (wpE (defs₀ (F := F)) 𝒱₀ c none) Set.univ (bodyAt0 (F := F) t0_0) Kt)
    (c : Dev nD) : BodyObligation (dats (F := F) m 0 c) (defs₀ (F := F)) 𝒱₀ () Set.univ := by
  intro t
  have ht := fin_N0 t
  subst ht
  have hW (Ψ : Fin cfg0.W → sProp 𝕄) : bigSep Finset.univ Ψ = iprop(emp) := by
    rw [Finset.univ_eq_empty]; exact bigSep_empty
  rw [hW, hW]
  show iprop(Φ₀ m c ∗ (dats m 0 c).owesAt () t0_0.castSucc ∗ emp)
    ⊢ wp frame (wpE (defs₀ (F := F)) 𝒱₀ c none) Set.univ (bodyAt0 (F := F) t0_0)
        (fun _ => iprop(Φ₁ m c ∗ (dats m 0 c).owesAt () t0_0.succ ∗ emp))
  unfold Φ₀ start
  iintro ⟨⟨⟨⟨%K, Hg⟩, Hcr, Hlev, Hloc⟩, Hscr, Hx, Hout⟩, Ho, -⟩
  iapply (hs K c fun _ => iprop(Φ₁ m c ∗ (dats m 0 c).owesAt () t0_0.succ ∗ emp))
  unfold bodyPre bodyPost
  isplitr []
  · isplitl [Hg]; · iexact Hg
    isplitl [Hcr]; · iexact Hcr
    isplitl [Hlev]; · iexact Hlev
    isplitl [Hloc]; · iexact Hloc
    isplitl [Hscr]; · iexact Hscr
    isplitl [Hx]; · iexact Hx
    isplitl [Hout]; · iexact Hout
    iexact Ho
  · iintro ⟨H1, H2⟩
    isplitl [H1]; · iexact H1
    isplitl [H2]; · iexact H2
    iempintro

/-! ## The thirty-three cells of a device, listed: barrier, send, receive -/

/-- The numbering of a device's cells is a bijection from: the barrier cell, the sixteen send cells, the sixteen receive cells. -/
def e33 : Unit ⊕ (Fin 16 ⊕ Fin 16) ≃ Fin 33 :=
  Equiv.ofBijective (Sum.elim (fun _ => kB) (Sum.elim kS kR)) (by decide)

theorem bigSep_fin33 (Ψ : Fin 33 → sProp 𝕄) :
    bigSep Finset.univ Ψ = iprop(Ψ kB ∗ (bigSep Finset.univ fun r : Fin 16 => Ψ (kS r)) ∗ (bigSep Finset.univ fun r : Fin 16 => Ψ (kR r))) := by
  rw [bigSep_univ_equiv e33 Ψ, bigSep_univ_sum, bigSep_univ_sum, bigSep_univ_of_subsingleton ()]
  rfl

theorem kcell_kB (c : Dev nD) : kcell (c, kB) = barCell c := rfl
theorem kcell_kS (c : Dev nD) (r : Fin 16) : kcell (c, kS r) = sendCell c r := congrArg (Prod.mk (c : Thread nD τ)) (csem_kS r)
theorem kcell_kR (c : Dev nD) (r : Fin 16) : kcell (c, kR r) = recvCell c r := congrArg (Prod.mk (c : Thread nD τ)) (csem_kR r)

/-- A family over a device's cells, cell by cell. -/
theorem bigSep_cells (c : Dev nD) (Ψ : GSem nD τ sig → sProp 𝕄) :
    (bigSep Finset.univ fun k : Fin 33 => Ψ (kcell (c, k)))
      = iprop(Ψ (barCell c) ∗ (bigSep Finset.univ fun r : Fin 16 => Ψ (sendCell c r)) ∗ (bigSep Finset.univ fun r : Fin 16 => Ψ (recvCell c r))) := by
  rw [bigSep_fin33, kcell_kB, bigSep_congr (s := Finset.univ) (fun (r : Fin 16) _ => congrArg Ψ (kcell_kS c r)),
    bigSep_congr (s := Finset.univ) (fun (r : Fin 16) _ => congrArg Ψ (kcell_kR c r))]

theorem csem_injective : Function.Injective (csem : Fin 33 → SemLoc sig) := by decide

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

theorem tok_injective : Function.Injective (fun ck : Dev nD × Fin 33 => ((kcell ck, 0, ()) : GSem nD τ sig × ℕ × Unit)) :=
  fun a b h => kcell_injective (congrArg (fun x : GSem nD τ sig × ℕ × Unit => x.1) h)

def ringCells : Finset (GSem nD τ sig) := Finset.univ.map ⟨kcell, kcell_injective⟩
def ringToks : Finset (GSem nD τ sig × ℕ × Unit) := Finset.univ.map ⟨fun ck : Dev nD × Fin 33 => (kcell ck, 0, ()), tok_injective⟩

/-! ## The kernel's own semaphores: the four of its local transfers, the sixteen send and the sixteen receive semaphores -/

abbrev locSem : Fin 4 → DmaSem sig := fun | 0 => inS0 | 1 => inS1 | 2 => locS0 | 3 => locS1

abbrev osem : Fin 4 ⊕ (Fin 16 ⊕ Fin 16) → SemLoc sig :=
  Sum.elim (fun j => .dma (locSem j)) (Sum.elim (fun r => .dma (sendS r)) (fun r => .dma (recvS r)))

theorem ownSemFacts : Pipeline.OwnSemFacts cfg0.spec osem := by decide

/-! ## The launch element and what it funds -/

def u₀ : UU :=
  (initOf (Pipeline.cells cfgs cellOf_inj) (Pipeline.launchToks cfgs cellOf_inj), (initOf ringCells ringToks, (1 : Counters)))

/-- The duty tokens of device `c`'s own cells. -/
def toks (c : Dev nD) : sProp 𝕄 := bigSep Finset.univ fun k : Fin 33 => dutyTok ER (kcell (c, k)) 0 ()

/-- What the launch element deals device `c`: its cells' round states, its positions and reached-marks, its cells' tokens. -/
def G (c : Dev nD) : sProp 𝕄 :=
  iprop((bigSep Finset.univ fun k : Fin 33 => roundState ER (sched m) (kcell (c, k)) 0)
    ∗ (bigSep Finset.univ fun k : Fin 33 => iprop(atPos ER (kcell (c, k)) 0 ∅ 0 ∗ reached ER (kcell (c, k)) 0)) ∗ toks c)

/-- What the global step makes of it: the ghost state at some names, and the four local-transfer counters untouched. -/
def G' (c : Dev nD) : sProp 𝕄 := iprop((∃ K, ghost m K c) ∗ localSems c)

theorem fund_ring : BI.own (ER (initOf ringCells ringToks)) ⊢ (|==> bigSep Finset.univ (G m) : sProp 𝕄) := by
  have hX (Ψ : GSem nD τ sig → sProp 𝕄) : bigSep ringCells Ψ = bigSep Finset.univ fun c : Dev nD => bigSep Finset.univ fun k : Fin 33 => Ψ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, regrouped -/

/-- The kernel's own thirty-six semaphores at zero: the four local ones, the send and the receive cells'. -/
theorem ownSems0_eq (c : Dev nD) : (Pipeline.ownSems0 (Ix := Unit) (Name := ℕ) (U := UU) (Lvl := ℕ) (Val := Elt F) (τ := τ) osem c : sProp 𝕄)
    = semsBack c := by
  unfold Pipeline.ownSems0 semsBack
  rw [bigSep_univ_sum, bigSep_univ_sum, bigSep_univ_eq_bigSepL [0, 1, 2, 3] (by decide) (by decide)]
  rfl

/-- The runtime's barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 33 => semVal (kcell (c, k)) 0) ∗ localSems c) : sProp 𝕄) := by
  rw [ownSems0_eq, unscopedSems0_eq, bigSep_cells c (fun g => (semVal g 0 : sProp 𝕄))]
  unfold semsBack
  iintro ⟨⟨HL, HS, HV⟩, HB⟩
  isplitr [HL]
  · isplitl [HB]; · iexact HB
    isplitl [HS] <;> iassumption
  · iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (sched m) κ (kcell (c, k))))
          ∗ (bigSep Finset.univ fun k : Fin 33 => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : Fin 33 => semVal (kcell (c, k)) 0) ∗ bigSep Finset.univ fun k : Fin 33 => roundState ER (sched m) (kcell (c, k)) 0)
      ⊢ (|={Set.univ}=> bigSep Finset.univ fun k : Fin 33 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-! ## The ghost state dealt to the devices -/

def records (K : Dev nD × Fin 33 → ℕ) : sProp 𝕄 :=
  iprop((bigSep Finset.univ fun ck : Dev nD × Fin 33 => cellInv ER (sched m) (K ck) (kcell ck))
    ∗ bigSep Finset.univ fun ck : Dev nD × Fin 33 => reached ER (kcell ck) 0)

instance records_persistent (K : Dev nD × Fin 33 → ℕ) : BI.Persistent (records m K) := by unfold records; infer_instance

theorem inv_at (K : Dev nD × Fin 33 → ℕ) (ck : Dev nD × Fin 33) :
    (bigSep Finset.univ fun ck : Dev nD × Fin 33 => (cellInv ER (sched m) (K ck) (kcell ck) : sProp 𝕄)) ⊢ cellInv ER (sched m) (K ck) (kcell ck) :=
  bigSep_elim (Finset.mem_univ ck)
theorem invS_at (K : Dev nD × Fin 33 → ℕ) (c : Dev nD) :
    (bigSep Finset.univ fun ck : Dev nD × Fin 33 => (cellInv ER (sched m) (K ck) (kcell ck) : sProp 𝕄))
      ⊢ bigSep Finset.univ fun r : Fin 16 => cellInv ER (sched m) (K (c, kS r)) (sendCell c r) :=
  bigSep_intro_persistent fun r _ => (inv_at m K (c, kS r)).trans (Entails.of_eq (congrArg (cellInv ER (sched m) (K (c, kS r))) (kcell_kS c r)))
theorem invR_at (K : Dev nD × Fin 33 → ℕ) (c : Dev nD) :
    (bigSep Finset.univ fun ck : Dev nD × Fin 33 => (cellInv ER (sched m) (K ck) (kcell ck) : sProp 𝕄))
      ⊢ bigSep Finset.univ fun r : Fin 16 => cellInv ER (sched m) (K (c, kR r)) (recvCell c r) :=
  bigSep_intro_persistent fun r _ => (inv_at m K (c, kR r)).trans (Entails.of_eq (congrArg (cellInv ER (sched m) (K (c, kR r))) (kcell_kR c r)))

theorem reached_at (ck : Dev nD × Fin 33) :
    (bigSep Finset.univ fun ck : Dev nD × Fin 33 => (reached ER (kcell ck) 0 : sProp 𝕄)) ⊢ reached ER (kcell ck) 0 :=
  bigSep_elim (Finset.mem_univ ck)
theorem reachedS_at (c : Dev nD) :
    (bigSep Finset.univ fun ck : Dev nD × Fin 33 => (reached ER (kcell ck) 0 : sProp 𝕄)) ⊢ bigSep Finset.univ fun r : Fin 16 => reached ER (sendCell c r) 0 :=
  bigSep_intro_persistent fun r _ => (reached_at (F := F) (c, kS r)).trans (Entails.of_eq (congrArg (fun g => (reached ER g 0 : sProp 𝕄)) (kcell_kS c r)))
theorem reachedR_at (c : Dev nD) :
    (bigSep Finset.univ fun ck : Dev nD × Fin 33 => (reached ER (kcell ck) 0 : sProp 𝕄)) ⊢ bigSep Finset.univ fun r : Fin 16 => reached ER (recvCell c r) 0 :=
  bigSep_intro_persistent fun r _ => (reached_at (F := F) (c, kR r)).trans (Entails.of_eq (congrArg (fun g => (reached ER g 0 : sProp 𝕄)) (kcell_kR c r)))

/-- The tokens of the duties device `c` pays: its peer's barrier duty, its peer's receive duties, its own send duties. -/
def payToks (c : Dev nD) : sProp 𝕄 :=
  iprop(dutyTok ER (barCell (pr c)) 0 () ∗ (bigSep Finset.univ fun r : Fin 16 => dutyTok ER (recvCell (pr c) r) 0 ())
    ∗ (bigSep Finset.univ fun r : Fin 16 => dutyTok ER (sendCell c r) 0 ()))

/-- What stays with device `c`: its positions, the tokens it pays with, its four local-transfer counters. -/
def dealt (c : Dev nD) : sProp 𝕄 :=
  iprop((bigSep Finset.univ fun k : Fin 33 => atPos ER (kcell (c, k)) 0 ∅ 0) ∗ payToks c ∗ localSems c)

theorem ghost_intro (K : Dev nD × Fin 33 → ℕ) (c : Dev nD) : iprop(records m K ∗ dealt c) ⊢ G' m c := by
  unfold records dealt payToks G' ghost invs marks linear
  rw [bigSep_cells c (fun g => (atPos ER g 0 ∅ 0 : sProp 𝕄))]
  iintro ⟨⟨#HI, #HR⟩, ⟨HaB, HaS, HaV⟩, ⟨HtB, HtV, HtS⟩, HL⟩
  isplitr [HL]
  · iexists K
    isplitr
    · isplitr; · iapply (inv_at m K (c, kB)); iexact HI
      isplitr; · iapply (invS_at m K c); iexact HI
      isplitr; · iapply (invR_at m K c); iexact HI
      isplitr; · iapply (inv_at m K (pr c, kB)); iexact HI
      iapply (invR_at m K (pr c)); iexact HI
    isplitr
    · isplitr; · iapply (reached_at (F := F) (pr c, kB)); iexact HR
      isplitr; · iapply (reachedR_at (F := F) (pr c)); iexact HR
      iapply (reachedS_at (F := F) c); iexact HR
    · isplitl [HaB]; · iexact HaB
      isplitl [HaS]; · iexact HaS
      isplitl [HaV]; · iexact HaV
      isplitl [HtB]; · iexact HtB
      isplitl [HtV]; · iexact HtV
      iexact HtS
  · iexact HL

/-- The tokens dealt across the pairs: a device's barrier token and its receive tokens go to its peer. -/
theorem toks_around : (bigSep Finset.univ fun c : Dev nD => (toks c : sProp 𝕄)) ⊢ bigSep Finset.univ fun c : Dev nD => payToks c := by
  refine (Entails.of_eq (bigSep_congr (s := Finset.univ) fun (c : Dev nD) _ =>
    show (toks c : sProp 𝕄) = _ from bigSep_cells c (fun g => (dutyTok ER g 0 () : sProp 𝕄)))).trans ?_
  unfold payToks
  rw [bigSep_sep', bigSep_sep', bigSep_sep', bigSep_sep',
    bigSep_univ_equiv peer (fun c : Dev nD => (dutyTok ER (barCell c) 0 () : sProp 𝕄)),
    bigSep_univ_equiv peer (fun c : Dev nD => (bigSep Finset.univ fun r : Fin 16 => dutyTok ER (recvCell c r) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Ψ Ψ' : I → sProp 𝕄}
    (h : ∀ i ∈ S, iprop(R ∗ Ψ i) ⊢ Ψ' i) : iprop(R ∗ bigSep S Ψ) ⊢ bigSep S Ψ' :=
  (sep_mono_left (BI.bigSep_of_persistent S R)).trans (by rw [← bigSep_sep']; exact bigSep_mono h)

theorem regroup :
    (bigSep Finset.univ fun c : Dev nD => iprop((bigSep Finset.univ fun k : Fin 33 => iprop(∃ κ : ℕ, cellInv ER (sched m) κ (kcell (c, k))))
          ∗ (bigSep Finset.univ fun k : Fin 33 => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 33 => iprop(∃ κ : ℕ, cellInv ER (sched m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok, HL⟩
  ihave HK := (BI.bigSep_exists_pi Finset.univ (fun (ck : Dev nD × Fin 33) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (show (bigSep Finset.univ fun c : Dev nD => (dealt c : sProp 𝕄))
        = iprop((bigSep Finset.univ fun c : Dev nD => bigSep Finset.univ fun k : Fin 33 => (atPos ER (kcell (c, k)) 0 ∅ 0 : sProp 𝕄))
            ∗ (bigSep Finset.univ fun c : Dev nD => (payToks c : sProp 𝕄)) ∗ (bigSep Finset.univ fun c : Dev nD => (localSems c : sProp 𝕄))) from by
      unfold dealt; rw [bigSep_sep', bigSep_sep']).symm)
    isplitl [Hat]; · iexact Hat
    isplitl [Htk]; · iexact Htk
    iexact HL

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The receive credit owed from block `k` on, as a sum over the blocks. -/
theorem owedFrom_sum (d : Dev nD) : ∀ (n k : ℕ), 16 - k = n →
    owedFrom d k = ∑ r ∈ Finset.univ.filter (fun r : Fin 16 => k ≤ r.val), (tallyAt (recvCell (pr d) r) () N : CellTallies nD τ sig Unit)
  | 0, k, hk => by
      rw [owedFrom, dif_neg (by omega), Finset.filter_false_of_mem (fun r _ => by have := r.isLt; omega), Finset.sum_empty]
  | n + 1, k, hk => by
      have hk' : k < 16 := by omega
      have hins : Finset.univ.filter (fun r : Fin 16 => k ≤ r.val)
          = insert (⟨k, hk'⟩ : Fin 16) (Finset.univ.filter (fun r : Fin 16 => k + 1 ≤ r.val)) := by
        ext r
        simp only [Finset.mem_filter, Finset.mem_univ, true_and, Finset.mem_insert, Fin.ext_iff]
        omega
      have hnot : (⟨k, hk'⟩ : Fin 16) ∉ Finset.univ.filter (fun r : Fin 16 => k + 1 ≤ r.val) := by
        simp only [Finset.mem_filter, Finset.mem_univ, true_and]
        omega
      rw [owedFrom, dif_pos hk', owedFrom_sum d n (k + 1) (by omega), hins, Finset.sum_insert hnot, add_comm]

/-- What the devices owe at launch, spelt out: every block's receive credit and one barrier unit, all to the peer. -/
theorem O₀_eq : (O₀ : Dev nD → CellTallies nD τ sig Unit)
    = fun d => (∑ r ∈ (Finset.univ : Finset (Fin 16)), (tallyAt (recvCell (pr d) r) () N : CellTallies nD τ sig Unit)) + tallyAt (barCell (pr d)) () 1 := by
  funext d
  unfold O₀
  rw [owedFrom_sum d 16 0 rfl, Finset.filter_true_of_mem (fun r _ => Nat.zero_le _)]

/-- The launch deals device `c` what its peer owes it: one barrier unit and every block's receive credit. -/
theorem creds_intro (c : Dev nD) : (Pipeline.launchCred O₀ c : sProp 𝕄) ⊢ creds c := by
  rw [O₀_eq, Pipeline.launchCred_add (fun d : Dev nD => ∑ r ∈ (Finset.univ : Finset (Fin 16)), (tallyAt (recvCell (pr d) r) () N : CellTallies nD τ sig Unit))
      (fun d : Dev nD => (tallyAt (barCell (pr d)) () 1 : CellTallies nD τ sig Unit)) c,
    Pipeline.launchCred_sum Finset.univ (fun (r : Fin 16) (d : Dev nD) => (tallyAt (recvCell (pr d) r) () N : CellTallies nD τ sig Unit)) c]
  unfold creds
  iintro ⟨HR, HB⟩
  isplitl [HB]
  · iapply (Pipeline.launchCred_tallyAt (SemLoc.reg barS) pr pr pr_pr pr_pr () 1 c); iexact HB
  · have hR : (bigSep Finset.univ fun r : Fin 16 => (Pipeline.launchCred (fun d : Dev nD => (tallyAt (recvCell (pr d) r) () N : CellTallies nD τ sig Unit)) c : sProp 𝕄))
        ⊢ bigSep Finset.univ fun r : Fin 16 => (cred (tallyAt (recvCell c r) () N) : sProp 𝕄) :=
      bigSep_mono fun r _ => Pipeline.launchCred_tallyAt (SemLoc.dma (recvS r)) pr pr pr_pr pr_pr () N c
    iapply hR; iexact HR

/-! ## The theorem's side conditions -/

/-- What a device carries into its body beside the scratch buffers: the ghost state, the input block and the result buffer as launched. -/
def X (c : Dev nD) : sProp 𝕄 :=
  iprop(start m c ∗ xPts m c ∗ (((c : Thread nD τ).loc main_v1) ↦{fullShare} m ((c : Thread nD τ).loc main_v1)))

/-- What it brings back: the input block unchanged, the result buffer at its final contents. -/
def Y (c : Dev nD) : sProp 𝕄 :=
  iprop(xPts m c ∗ (((c : Thread nD τ).loc main_v1) ↦{fullShare} outFinal m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Ho⟩, Hlev, Hcr, -, ⟨HG, HL⟩⟩
  ihave Hc := (creds_intro (F := F) c) $$ Hcr
  imodintro
  unfold X start xPts
  isplitl
  · isplitl [HG Hc Hlev HL]
    · isplitl [HG]; · iexact HG
      isplitl [Hc]; · iexact Hc
      isplitl [Hlev]; · iexact Hlev
      iexact HL
    isplitl [Hx]; · iexact Hx
    iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X scratch
  iintro ⟨⟨Hs, Hx, Ho⟩, -, Hscr⟩
  isplitl [Hs]; · iexact Hs
  isplitl [Hscr]; · iexact Hscr
  isplitl [Hx]; · iexact Hx
  iexact Ho

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y scratch
  iintro ⟨Hscr, Hx, Ho, Hsem⟩
  isplitl [Hx Ho]
  · isplitl [Hx] <;> iassumption
  isplitl [Hsem]; · iexact Hsem
  iexact Hscr

/-- At the compiled mesh, for any float values, from any memory with zero counters: every weakly fair execution of the
    program terminates, nothing faulting, in a state satisfying `QC`. -/
theorem run_main (hbody : ∀ c : Dev nD, BodyObligation (dats (F := F) m 0 c) (defs₀ (F := F)) 𝒱₀ () Set.univ) :
    θ_run defs (onTc (τ := τ) (main (F := F))) (s₀ m ρ) (QC m) := by
  exact Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne)
    (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HB, -⟩
      imod (fund_ring m) $$ HB with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c.tc : Thread nD τ).loc main_v1) = outFinal m c
      ∧ s.mem ((c.tc : Thread nD τ).loc main_arg0) = m ((c.tc : Thread nD τ).loc main_arg0))
    (hY := fun c s' => by
      unfold Y xPts
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => (h c).2.2)

/-- info: 'Cert.KernelIdeal.A2A.body_obligation_of' depends on axioms: [propext, Classical.choice, Quot.sound] -/
#guard_msgs in #print axioms body_obligation_of

/-- info: 'Cert.KernelIdeal.A2A.run_main' depends on axioms: [propext, Classical.choice, Quot.sound] -/
#guard_msgs in #print axioms run_main

end Cert.KernelIdeal.A2A

end
-- ==== Proof.KI.Blocks.lean ====
/-
  The result buffer as 32 blocks of 512 rows and the send buffer as 16, and what a block holds after a copy lands in it.

  A device's result buffer has 16384 rows: rows `8192·y + 512·r …` (block `r` of its own half) it fills by local copies
  from its local staging buffer, rows `8192·(1-y) + 512·r …` (block `r` of the other half) its peer fills by transfers
  from the peer's send buffer. Both halves end at the same whole-array function, `outFinal`.
-/
import proofs.«900642_g7700000000000643_dist_a2a_v7x_xyz2x2x4_y_m8192_n1024_bf16_1_alg».proof.Proof.KI.Proto
import Idealize.ShloMosaic.Lib.Pipeline.Value
import Idealize.ShloMosaic.Lib.ValueLayout

noncomputable section

namespace Cert.KernelIdeal.A2A

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

theorem slot_inb (s : Fin 2) : ∀ a, (![s.val, 0, 0] : Fin 3 → Nat) a + S1x512x1024.size a ≤ S2x512x1024.size a := by
  have := s.isLt
  intro a; fin_cases a
  · show s.val + 1 ≤ 2; omega
  · show 0 + 512 ≤ 512; omega
  · show 0 + 1024 ≤ 1024; omega

/-- Slot `s` of the local staging buffer, as the local copies read it. -/
def vlocSlot (s : Fin 2) : Memref sig .tc .vmem S512x1024 .bf16 :=
  (vlocM.slice (Rect.unit (s := S2x512x1024) ![s.val, 0, 0] S1x512x1024.size (slot_inb s)) (fun _ => rfl)).squeeze S512x1024 squeezes_S1x512x1024_S512x1024

theorem vslot_inb (s : Fin 2) : ∀ a, (![s.val, 0, 0] : Fin 3 → Nat) a + S1x512x2048.size a ≤ S2x512x2048.size a := by
  have := s.isLt
  intro a; fin_cases a
  · show s.val + 1 ≤ 2; omega
  · show 0 + 512 ≤ 512; omega
  · show 0 + 2048 ≤ 2048; omega

/-- Slot `s` of the input staging buffer, as the input copies write it. -/
def vinSlot (s : Fin 2) : Memref sig .tc .vmem S512x2048 .f32 :=
  (vinM.slice (Rect.unit (s := S2x512x2048) ![s.val, 0, 0] S1x512x2048.size (vslot_inb s)) (fun _ => rfl)).squeeze S512x2048 squeezes_S1x512x2048_S512x2048

theorem xblk_inb (r : Fin 16) : ∀ a, (![512 * r.val, 0] : Fin 2 → Nat) a + S512x2048.size a ≤ S8192x2048.size a := by
  have := r.isLt
  intro a; fin_cases a
  · show 512 * r.val + 512 ≤ 8192; omega
  · show 0 + 2048 ≤ 2048; omega

/-- Block `r` (rows `512·r …`) of the input block, as the input copies read it. -/
def xBlk (r : Fin 16) : Memref sig .tc .hbm S512x2048 .f32 :=
  xM.slice (Rect.unit (s := S8192x2048) ![512 * r.val, 0] S512x2048.size (xblk_inb r)) (fun _ => rfl)

/-- What the local staging buffer's slots hold once block `r` is stored: the half of rows `512·r …` of the device's
    input block that it keeps — columns `1024·y …` —, narrowed (the same in either slot). -/
def vlocVal (c : Dev nD) (r : Fin 16) : Buf (Elt F) ((c : Thread nD τ).loc cc0_scratch2) := fun i =>
  FloatOps.truncf .bf16 (by decide)
    ((m ((c : Thread nD τ).loc main_arg0) : FVec F S8192x2048 .f32)
      (ix2 (⟨512 * r.val + (i 1).val, by
              have hr := r.isLt
              have hj : (i 1).val < 512 := (i 1).isLt
              omega⟩ : Fin 8192)
           (⟨1024 * (yOf c).val + (i 2).val, by
              have hy := (yOf c).isLt
              have hj : (i 2).val < 1024 := (i 2).isLt
              omega⟩ : Fin 2048)))

/-! ### Where a block's entries lie

  A block's coordinate is always its offset plus the coordinate inside the block. -/

/-- Entry `(p, q)` of send block `r` is entry `(512·r + p, q)` of the send buffer. -/
theorem sendM_emb (r : Fin 16) (p : Fin 512) (q : Fin 1024) :
    (sendM r).view.emb (ix2 p q)
      = (ix2 (⟨512 * r.val + p.val, by have := r.isLt; have := p.isLt; omega⟩ : Fin 8192) (⟨q.val, q.isLt⟩ : Fin 1024) : S8192x1024.Idx) := by
  funext a
  apply Fin.ext
  match a with
  | ⟨0, _⟩ => show 512 * r.val + 1 * p.val = 512 * r.val + p.val; omega
  | ⟨1, _⟩ => show 0 + 1 * q.val = q.val; omega

/-- Entry `(p, q)` of block `r` of the rows device `a` fills is entry `(8192·y_a + 512·r + p, q)` of the result buffer. -/
theorem outBlk_emb (a : Dev nD) (r : Fin 16) (p : Fin 512) (q : Fin 1024) :
    (outBlk a r).view.emb (ix2 p q)
      = (ix2 (⟨8192 * (yOf a).val + 512 * r.val + p.val, by have := r.isLt; have := p.isLt; have := (yOf a).isLt; omega⟩ : Fin 16384)
             (⟨q.val, q.isLt⟩ : Fin 1024) : S16384x1024.Idx) := by
  funext b
  apply Fin.ext
  have e := k0_off1_eq a r
  match b with
  | ⟨0, _⟩ =>
    show (k0_off1 a (BitVec.ofNat 32 (512 * r.val))) 0 + 1 * p.val = 8192 * (yOf a).val + 512 * r.val + p.val
    rw [e]
    show 8192 * ((a.val / 4) % 2) + 512 * r.val + 1 * p.val = 8192 * ((a.val / 4) % 2) + 512 * r.val + p.val
    omega
  | ⟨1, _⟩ =>
    show (k0_off1 a (BitVec.ofNat 32 (512 * r.val))) 1 + 1 * q.val = q.val
    rw [e]
    show 0 + 1 * q.val = q.val
    omega

/-- Entry `(p, q)` of slot `s` of the local staging buffer is its entry `(s, p, q)`. -/
theorem vlocSlot_emb (s : Fin 2) (p : Fin 512) (q : Fin 1024) :
    (vlocSlot s).view.emb (ix2 p q) = (ix3 (⟨s.val, s.isLt⟩ : Fin 2) p q : S2x512x1024.Idx) := by
  show (Rect.unit (s := S2x512x1024) ![s.val, 0, 0] S1x512x1024.size (slot_inb s)).emb
      (Shape.reshapeEquiv squeezes_S1x512x1024_S512x1024.numel_eq (ix2 p q)) = _
  rw [reshapeEquiv_ix2_1ab]
  funext a
  apply Fin.ext
  match a with
  | ⟨0, _⟩ => show s.val + 1 * 0 = s.val; omega
  | ⟨1, _⟩ => show 0 + 1 * p.val = p.val; omega
  | ⟨2, _⟩ => show 0 + 1 * q.val = q.val; omega

/-! ### The final contents at an entry -/

/-- On the device's own half — row `8192·y + ρ` — the final result is the device's own input block at row `ρ`,
    column `1024·y +` the entry's column, narrowed. -/
theorem outFinal_own (d : Dev nD) (k : S16384x1024.Idx) (ρ : Fin 8192) (κ : Fin 2048)
    (hrow : (k 0).val = 8192 * (yOf d).val + ρ.val) (hcol : κ.val = 1024 * (yOf d).val + (k 1).val) :
    outFinal m d k = FloatOps.truncf .bf16 (by decide)
      ((m ((d : Thread nD τ).loc main_arg0) : FVec F S8192x2048 .f32) (ix2 ρ κ)) := by
  have hρ := ρ.isLt
  have hq : (k 0).val / 8192 = (yOf d).val := by omega
  unfold outFinal outOf
  show FloatOps.truncf .bf16 _ ((if (k 0).val / 8192 = (yOf d).val then (m ((d : Thread nD τ).loc main_arg0) : FVec F S8192x2048 .f32)
      else (m ((pr d : Thread nD τ).loc main_arg0) : FVec F S8192x2048 .f32)) (ix2 _ _)) = _
  rw [if_pos hq]
  congr 2
  exact congrArg₂ ix2 (Fin.ext (by show (k 0).val % 8192 = ρ.val; omega)) (Fin.ext hcol.symm)

/-- On the other half — row `8192·y_a + ρ`, `a` the peer — it is the peer's input block at row `ρ`, column
    `1024·y +` the entry's column, narrowed. -/
theorem outFinal_peer (d a : Dev nD) (ha : pr d = a) (k : S16384x1024.Idx) (ρ : Fin 8192) (κ : Fin 2048)
    (hrow : (k 0).val = 8192 * (yOf a).val + ρ.val) (hcol : κ.val = 1024 * (yOf d).val + (k 1).val) :
    outFinal m d k = FloatOps.truncf .bf16 (by decide)
      ((m ((a : Thread nD τ).loc main_arg0) : FVec F S8192x2048 .f32) (ix2 ρ κ)) := by
  subst ha
  have hρ := ρ.isLt
  have hy := yOf_cases d
  have hyp := yOf_pr d
  have hq : ¬ (k 0).val / 8192 = (yOf d).val := by omega
  unfold outFinal outOf
  show FloatOps.truncf .bf16 _ ((if (k 0).val / 8192 = (yOf d).val then (m ((d : Thread nD τ).loc main_arg0) : FVec F S8192x2048 .f32)
      else (m ((pr d : Thread nD τ).loc main_arg0) : FVec F S8192x2048 .f32)) (ix2 _ _)) = _
  rw [if_neg hq]
  congr 2
  exact congrArg₂ ix2 (Fin.ext (by show (k 0).val % 8192 = ρ.val; omega)) (Fin.ext hcol.symm)

/-! ### The blocks tile their buffers -/

/-- An entry of the send buffer is in send block `r` exactly when its row is in `[512·r, 512·r + 512)`. -/
theorem mem_sendM (r : Fin 16) (i : S8192x1024.Idx) :
    i ∈ (sendM r).view.set ↔ 512 * r.val ≤ (i 0).val ∧ (i 0).val < 512 * r.val + 512 := by
  show i ∈ ((View.whole cc0_scratch1).slice
      (Rect.unit (s := S8192x1024) ![512 * r.val, 0] S512x1024.size (sendRect_inb r))).set ↔ _
  rw [View.set_slice_whole, Rect.mem_set_unit]
  show (∀ a : Fin 2, (![512 * r.val, 0] : Fin 2 → Nat) a ≤ (i a).val
      ∧ (i a).val < (![512 * r.val, 0] : Fin 2 → Nat) a + (![512, 1024] : Fin 2 → Nat) a) ↔ _
  rw [Fin.forall_fin_two]
  have h1 : (i 1).val < 1024 := (i 1).isLt
  constructor
  · intro h; exact h.1
  · intro h; exact ⟨h, Nat.zero_le _, by show (i 1).val < 0 + 1024; omega⟩

/-- An entry of the result buffer is in block `r` of the rows device `a` fills exactly when its row is in
    `[8192·y_a + 512·r, 8192·y_a + 512·r + 512)`. -/
theorem mem_outBlk (a : Dev nD) (r : Fin 16) (i : S16384x1024.Idx) :
    i ∈ (outBlk a r).view.set
      ↔ 8192 * (yOf a).val + 512 * r.val ≤ (i 0).val ∧ (i 0).val < 8192 * (yOf a).val + 512 * r.val + 512 := by
  show i ∈ ((View.whole main_v1).slice
      (Rect.unit (s := S16384x1024) (k0_off1 a (BitVec.ofNat 32 (512 * r.val))) S512x1024.size (k0_off1_inb a r))).set ↔ _
  rw [View.set_slice_whole, Rect.mem_set_unit, k0_off1_eq]
  show (∀ b : Fin 2, (![8192 * ((a.val / 4) % 2) + 512 * r.val, 0] : Fin 2 → Nat) b ≤ (i b).val
      ∧ (i b).val < (![8192 * ((a.val / 4) % 2) + 512 * r.val, 0] : Fin 2 → Nat) b + (![512, 1024] : Fin 2 → Nat) b)
    ↔ 8192 * ((a.val / 4) % 2) + 512 * r.val ≤ (i 0).val ∧ (i 0).val < 8192 * ((a.val / 4) % 2) + 512 * r.val + 512
  rw [Fin.forall_fin_two]
  have h1 : (i 1).val < 1024 := (i 1).isLt
  constructor
  · intro h; exact h.1
  · intro h; exact ⟨h, Nat.zero_le _, by show (i 1).val < 0 + 1024; omega⟩

/-- Every row of the send buffer lies in a block of 512 rows, -/
theorem sendM_cover (i : S8192x1024.Idx) : ∃ r : Fin 16, i ∈ (sendM r).view.set := by
  have h0 : (i 0).val < 8192 := (i 0).isLt
  exact ⟨⟨(i 0).val / 512, by omega⟩, (mem_sendM _ i).mpr
    ⟨by show 512 * ((i 0).val / 512) ≤ (i 0).val; omega, by show (i 0).val < 512 * ((i 0).val / 512) + 512; omega⟩⟩

/-- and in one only. -/
theorem sendM_disj (r r' : Fin 16) (hne : r ≠ r') (i : S8192x1024.Idx) (hi : i ∈ (sendM r).view.set)
    (hi' : i ∈ (sendM r').view.set) : False := by
  have a := (mem_sendM r i).mp hi
  have b := (mem_sendM r' i).mp hi'
  exact hne (Fin.ext (by omega))

/-- Every row of the result buffer lies in a block of 512 rows of one of the two halves, -/
theorem outBlk_cover (c : Dev nD) (i : S16384x1024.Idx) :
    (∃ r : Fin 16, i ∈ (outBlk c r).view.set) ∨ (∃ r : Fin 16, i ∈ (outBlk (pr c) r).view.set) := by
  have h0 : (i 0).val < 16384 := (i 0).isLt
  have hy := yOf_cases c
  have hyp := yOf_pr c
  by_cases hrow : (i 0).val / 8192 = (yOf c).val
  · exact .inl ⟨⟨((i 0).val % 8192) / 512, by omega⟩, (mem_outBlk _ _ i).mpr
      ⟨by show 8192 * (yOf c).val + 512 * (((i 0).val % 8192) / 512) ≤ (i 0).val; omega,
       by show (i 0).val < 8192 * (yOf c).val + 512 * (((i 0).val % 8192) / 512) + 512; omega⟩⟩
  · exact .inr ⟨⟨((i 0).val % 8192) / 512, by omega⟩, (mem_outBlk _ _ i).mpr
      ⟨by show 8192 * (yOf (pr c)).val + 512 * (((i 0).val % 8192) / 512) ≤ (i 0).val; omega,
       by show (i 0).val < 8192 * (yOf (pr c)).val + 512 * (((i 0).val % 8192) / 512) + 512; omega⟩⟩

/-- and blocks of different halves, or different blocks of one half, share no row. -/
theorem outBlk_disj (a a' : Dev nD) (r r' : Fin 16) (hne : (yOf a).val ≠ (yOf a').val ∨ r ≠ r') (i : S16384x1024.Idx)
    (hi : i ∈ (outBlk a r).view.set) (hi' : i ∈ (outBlk a' r').view.set) : False := by
  have ha := (mem_outBlk a r i).mp hi
  have hb := (mem_outBlk a' r' i).mp hi'
  have hy := (yOf a).isLt
  have hy' := (yOf a').isLt
  have hr := r.isLt
  have hr' := r'.isLt
  rcases hne with h | h
  · exact h (by omega)
  · exact h (Fin.ext (by omega))

/-- A buffer held whole is the pieces of two finite families held one by one, when the pieces are pairwise disjoint
    and cover the buffer. -/
theorem pointsTo_two_families {ℓ : Loc nD τ sig} (f : Buf (Elt F) ℓ) (KA KB : Fin 16 → Finset (Idx ℓ))
    (hcov : ∀ i, (∃ r, i ∈ KA r) ∨ (∃ r, i ∈ KB r))
    (hAA : ∀ r r', r ≠ r' → Disjoint (KA r) (KA r'))
    (hBB : ∀ r r', r ≠ r' → Disjoint (KB r) (KB r'))
    (hAB : ∀ r r', Disjoint (KA r) (KB r')) :
    ((ℓ ↦{fullShare} f : sProp 𝕄))
      ⊣⊢ iprop((bigSep Finset.univ fun r : Fin 16 => (ℓ ↦[KA r]{fullShare} f : sProp 𝕄))
          ∗ (bigSep Finset.univ fun r : Fin 16 => (ℓ ↦[KB r]{fullShare} f : sProp 𝕄))) := by
  have hc : (Finset.univ : Finset (Idx ℓ)) = Finset.univ.biUnion KA ∪ Finset.univ.biUnion KB := by
    refine Finset.ext fun i => ⟨fun _ => ?_, fun _ => Finset.mem_univ _⟩
    rcases hcov i with ⟨r, hr⟩ | ⟨r, hr⟩
    · exact Finset.mem_union_left _ (Finset.mem_biUnion.mpr ⟨r, Finset.mem_univ _, hr⟩)
    · exact Finset.mem_union_right _ (Finset.mem_biUnion.mpr ⟨r, Finset.mem_univ _, hr⟩)
  have hd : Disjoint (Finset.univ.biUnion KA) (Finset.univ.biUnion KB) :=
    (Finset.disjoint_biUnion_left _ _ _).mpr fun r _ =>
      (Finset.disjoint_biUnion_right _ _ _).mpr fun r' _ => hAB r r'
  have hU : (ℓ ↦[Finset.univ.biUnion KA ∪ Finset.univ.biUnion KB]{fullShare} f : sProp 𝕄)
      ⊣⊢ iprop((ℓ ↦[Finset.univ.biUnion KA]{fullShare} f) ∗ ℓ ↦[Finset.univ.biUnion KB]{fullShare} f) :=
    pointsTo_union hd
  rw [pointsTo_biUnion Finset.univ KA fun r _ r' _ h => hAA r r' h,
    pointsTo_biUnion Finset.univ KB fun r _ r' _ h => hBB r r' h] at hU
  rw [hc]
  exact hU

/-- The result buffer held whole is its 32 blocks held one by one: the sixteen the device fills and the sixteen its
    peer fills. -/
theorem out_split (c : Dev nD) (f : Buf (Elt F) ((c : Thread nD τ).loc main_v1)) :
    ((((c : Thread nD τ).loc main_v1) ↦{fullShare} f : sProp 𝕄))
      ⊣⊢ iprop((bigSep Finset.univ fun r : Fin 16 => pts (outBlk c r) c f)
          ∗ (bigSep Finset.univ fun r : Fin 16 => pts (outBlk (pr c) r) c f)) := by
  -- the two halves are at different coordinates of the axis, so every row lies in exactly one of the 32 blocks
  have hyne : (yOf c).val ≠ (yOf (pr c)).val := by
    have hy := yOf_cases c
    have hyp := yOf_pr c
    omega
  unfold pts
  exact pointsTo_two_families f (fun r => (outBlk c r).view.set) (fun r => (outBlk (pr c) r).view.set)
    (fun i => outBlk_cover c i)
    (fun r r' hne => Finset.disjoint_left.mpr fun i hi hi' => outBlk_disj c c r r' (.inr hne) i hi hi')
    (fun r r' hne => Finset.disjoint_left.mpr fun i hi hi' => outBlk_disj (pr c) (pr c) r r' (.inr hne) i hi hi')
    (fun r r' => Finset.disjoint_left.mpr fun i hi hi' => outBlk_disj c (pr c) r r' (.inl hyne) i hi hi')

/-- The send buffer held whole is its sixteen blocks held one by one. -/
theorem vsend_split (c : Dev nD) (f : Buf (Elt F) ((c : Thread nD τ).loc cc0_scratch1)) :
    ((((c : Thread nD τ).loc cc0_scratch1) ↦{fullShare} f : sProp 𝕄))
      ⊣⊢ (bigSep Finset.univ fun r : Fin 16 => pts (sendM r) c f) := by
  -- every row lies in exactly one block of 512 rows
  have hcov : (Finset.univ : Finset (Idx ((c : Thread nD τ).loc cc0_scratch1)))
      = Finset.univ.biUnion fun r : Fin 16 =>
          ((sendM r).view.set : Finset (Idx ((c : Thread nD τ).loc cc0_scratch1))) := by
    refine Finset.ext fun i => ⟨fun _ => ?_, fun _ => Finset.mem_univ _⟩
    obtain ⟨r, hr⟩ := sendM_cover i
    exact Finset.mem_biUnion.mpr ⟨r, Finset.mem_univ _, hr⟩
  have hdis : ∀ r ∈ (Finset.univ : Finset (Fin 16)), ∀ r' ∈ (Finset.univ : Finset (Fin 16)), r ≠ r' →
      Disjoint ((sendM r).view.set : Finset (Idx ((c : Thread nD τ).loc cc0_scratch1))) (sendM r').view.set :=
    fun r _ r' _ hne => Finset.disjoint_left.mpr fun i hi hi' => sendM_disj r r' hne i hi hi'
  have hbi : ((((c : Thread nD τ).loc cc0_scratch1) ↦[Finset.univ.biUnion fun r : Fin 16 =>
        ((sendM r).view.set : Finset (Idx ((c : Thread nD τ).loc cc0_scratch1)))]{fullShare} f : sProp 𝕄))
      = bigSep Finset.univ fun r : Fin 16 => (((c : Thread nD τ).loc cc0_scratch1) ↦[((sendM r).view.set :
          Finset (Idx ((c : Thread nD τ).loc cc0_scratch1)))]{fullShare} f : sProp 𝕄) :=
    pointsTo_biUnion _ _ hdis
  unfold pts
  rw [hcov]
  exact ⟨Entails.of_eq hbi, Entails.of_eq hbi.symm⟩

/-- An entry of the local staging buffer is in slot `s` exactly when its first coordinate is `s`. -/
theorem mem_vlocSlot (s : Fin 2) (i : S2x512x1024.Idx) : i ∈ (vlocSlot s).view.set ↔ (i 0).val = s.val := by
  show i ∈ (((View.whole cc0_scratch2).slice
      (Rect.unit (s := S2x512x1024) ![s.val, 0, 0] S1x512x1024.size (slot_inb s))).reshape S512x1024
        squeezes_S1x512x1024_S512x1024.numel_eq).set ↔ _
  rw [View.set_reshape, View.set_slice_whole, Rect.mem_set_unit]
  show (∀ a : Fin 3, (![s.val, 0, 0] : Fin 3 → Nat) a ≤ (i a).val
      ∧ (i a).val < (![s.val, 0, 0] : Fin 3 → Nat) a + (![1, 512, 1024] : Fin 3 → Nat) a) ↔ _
  have h1 : (i 1).val < 512 := (i 1).isLt
  have h2 : (i 2).val < 1024 := (i 2).isLt
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 512; omega
    | ⟨2, _⟩ => show 0 ≤ (i 2).val ∧ (i 2).val < 0 + 1024; omega

/-- An entry of the input staging buffer is in slot `s` exactly when its first coordinate is `s`. -/
theorem mem_vinSlot (s : Fin 2) (i : S2x512x2048.Idx) : i ∈ (vinSlot s).view.set ↔ (i 0).val = s.val := by
  show i ∈ (((View.whole cc0_scratch0).slice
      (Rect.unit (s := S2x512x2048) ![s.val, 0, 0] S1x512x2048.size (vslot_inb s))).reshape S512x2048
        squeezes_S1x512x2048_S512x2048.numel_eq).set ↔ _
  rw [View.set_reshape, View.set_slice_whole, Rect.mem_set_unit]
  show (∀ a : Fin 3, (![s.val, 0, 0] : Fin 3 → Nat) a ≤ (i a).val
      ∧ (i a).val < (![s.val, 0, 0] : Fin 3 → Nat) a + (![1, 512, 2048] : Fin 3 → Nat) a) ↔ _
  have h1 : (i 1).val < 512 := (i 1).isLt
  have h2 : (i 2).val < 2048 := (i 2).isLt
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 512; omega
    | ⟨2, _⟩ => show 0 ≤ (i 2).val ∧ (i 2).val < 0 + 2048; omega

/-- A buffer held whole is two disjoint pieces that cover it, held one by one. -/
theorem pointsTo_two_pieces {ℓ : Loc nD τ sig} (f : Buf (Elt F) ℓ) (A B : Finset (Idx ℓ))
    (hcov : ∀ i, i ∈ A ∨ i ∈ B) (hd : Disjoint A B) :
    ((ℓ ↦{fullShare} f : sProp 𝕄)) ⊣⊢ iprop((ℓ ↦[A]{fullShare} f) ∗ (ℓ ↦[B]{fullShare} f)) := by
  have hc : (Finset.univ : Finset (Idx ℓ)) = A ∪ B :=
    Finset.ext fun i => ⟨fun _ => Finset.mem_union.mpr (hcov i), fun _ => Finset.mem_univ _⟩
  rw [hc]
  exact pointsTo_union hd

/-- The input staging buffer held whole is its two slots held one by one. -/
theorem vin_split (c : Dev nD) (f : Buf (Elt F) ((c : Thread nD τ).loc cc0_scratch0)) :
    ((((c : Thread nD τ).loc cc0_scratch0) ↦{fullShare} f : sProp 𝕄)) ⊣⊢ iprop(pts (vinSlot 0) c f ∗ pts (vinSlot 1) c f) := by
  -- the first coordinate of an entry is 0 or 1, never both
  unfold pts
  refine pointsTo_two_pieces f (vinSlot 0).view.set (vinSlot 1).view.set (fun i => ?_)
    (Finset.disjoint_left.mpr fun i hi hi' => ?_)
  · have h0 : ((i : S2x512x2048.Idx) 0).val < 2 := ((i : S2x512x2048.Idx) 0).isLt
    rcases Nat.lt_or_ge ((i : S2x512x2048.Idx) 0).val 1 with h | h
    · exact .inl ((mem_vinSlot 0 i).mpr (by show _ = 0; omega))
    · exact .inr ((mem_vinSlot 1 i).mpr (by show _ = 1; omega))
  · have a : _ = 0 := (mem_vinSlot 0 i).mp hi
    have b : _ = 1 := (mem_vinSlot 1 i).mp hi'
    omega

/-- The local staging buffer held whole is its two slots held one by one. -/
theorem vloc_split (c : Dev nD) (f : Buf (Elt F) ((c : Thread nD τ).loc cc0_scratch2)) :
    ((((c : Thread nD τ).loc cc0_scratch2) ↦{fullShare} f : sProp 𝕄)) ⊣⊢ iprop(pts (vlocSlot 0) c f ∗ pts (vlocSlot 1) c f) := by
  -- the first coordinate of an entry is 0 or 1, never both
  unfold pts
  refine pointsTo_two_pieces f (vlocSlot 0).view.set (vlocSlot 1).view.set (fun i => ?_)
    (Finset.disjoint_left.mpr fun i hi hi' => ?_)
  · have h0 : ((i : S2x512x1024.Idx) 0).val < 2 := ((i : S2x512x1024.Idx) 0).isLt
    rcases Nat.lt_or_ge ((i : S2x512x1024.Idx) 0).val 1 with h | h
    · exact .inl ((mem_vlocSlot 0 i).mpr (by show _ = 0; omega))
    · exact .inr ((mem_vlocSlot 1 i).mpr (by show _ = 1; omega))
  · have a : _ = 0 := (mem_vlocSlot 0 i).mp hi
    have b : _ = 1 := (mem_vlocSlot 1 i).mp hi'
    omega

/-- A send block whose contents agree with the send buffer's final contents on the block IS the send payload. -/
theorem sendPay_of (c : Dev nD) (r : Fin 16) (fs : Buf (Elt F) ((sendM r).view.loc (c : Thread nD τ)))
    (h : ∀ i ∈ (sendM r).view.set, fs i = vsendFull m c i) :
    ((sendM r).view.loc (c : Thread nD τ) ↦[(sendM r).view.set]{fullShare} fs : sProp 𝕄) ⊢ sendPay m c r := by
  -- contents that agree on the block give the same assertion about the block
  unfold sendPay pts
  exact Entails.of_eq (BI.Region.is_congr h)

/-- What device `c`'s transfer of block `r` leaves on its peer is the peer's receive payload. -/
theorem recvPay_of (c : Dev nD) (r : Fin 16) (fs : Buf (Elt F) ((sendM r).view.loc (c : Thread nD τ)))
    (fd : Buf (Elt F) ((outBlk c r).view.loc (pr c : Thread nD τ)))
    (h : ∀ i ∈ (sendM r).view.set, fs i = vsendFull m c i) :
    ((outBlk c r).view.loc (pr c : Thread nD τ) ↦[(outBlk c r).view.set]{fullShare}
        ((outBlk c r).view.write (Elt F) fd ((sendM r).view.read (Elt F) fs) Finset.univ) : sProp 𝕄)
      ⊢ recvPay m (pr c) r := by
  have e : recvPay m (pr c) r = pts (outBlk c r) (pr c) (outFinal m (pr c)) := by
    unfold recvPay; rw [pr_pr]
  rw [e]
  unfold pts
  refine Entails.of_eq (BI.Region.is_congr ?_)
  intro i hi
  obtain ⟨j, rfl⟩ := View.exists_emb_of_mem_set _ hi
  obtain ⟨p, q, rfl⟩ : ∃ p q, j = ix2 p q := ⟨j 0, j 1, eq_ix2 j⟩
  have hr := r.isLt
  have hp := p.isLt
  have hq := q.isLt
  have hy := yOf_cases c
  have hyp := yOf_pr c
  -- the landed entry is the send block's entry, which is the send buffer's final entry there
  refine (View.write_emb_of_mem _ _ (Finset.mem_univ _)).trans ?_
  refine (cast_eq _ _).trans ?_
  refine (cast_eq _ _).trans ?_
  rw [h _ (View.emb_mem_set _ _), sendM_emb, outBlk_emb]
  -- both are the entry (512·r + p, 1024·(1 - y) + q) of device c's input block, narrowed
  refine Eq.trans ?_ (outFinal_peer m (pr c) c (pr_pr c) _
    (⟨512 * r.val + p.val, by omega⟩ : Fin 8192) (⟨1024 * (1 - (yOf c).val) + q.val, by omega⟩ : Fin 2048)
    (by show 8192 * (yOf c).val + 512 * r.val + p.val = 8192 * (yOf c).val + (512 * r.val + p.val); omega)
    (by show 1024 * (1 - (yOf c).val) + q.val = 1024 * (yOf (pr c)).val + q.val; rw [hyp])).symm
  rfl

/-- What the local copy of block `r` from slot `s` leaves in the device's own result buffer agrees, on the block, with
    the final contents. -/
theorem local_lands (c : Dev nD) (r : Fin 16) (s : Fin 2) (fl : Buf (Elt F) ((vlocSlot s).view.loc (c : Thread nD τ)))
    (fd : Buf (Elt F) ((outBlk c r).view.loc (c : Thread nD τ)))
    (h : ∀ i ∈ (vlocSlot s).view.set, fl i = vlocVal m c r i) :
    ∀ i ∈ (outBlk c r).view.set,
      ((outBlk c r).view.write (Elt F) fd ((vlocSlot s).view.read (Elt F) fl) Finset.univ) i = outFinal m c i := by
  intro i hi
  obtain ⟨j, rfl⟩ := View.exists_emb_of_mem_set _ hi
  obtain ⟨p, q, rfl⟩ : ∃ p q, j = ix2 p q := ⟨j 0, j 1, eq_ix2 j⟩
  have hr := r.isLt
  have hp := p.isLt
  have hq := q.isLt
  have hy := yOf_cases c
  -- the landed entry is the slot's entry, which is the staged value there
  refine (View.write_emb_of_mem _ _ (Finset.mem_univ _)).trans ?_
  refine (cast_eq _ _).trans ?_
  refine (cast_eq _ _).trans ?_
  rw [h _ (View.emb_mem_set _ _), vlocSlot_emb, outBlk_emb]
  -- both are the entry (512·r + p, 1024·y + q) of the device's own input block, narrowed
  refine Eq.trans ?_ (outFinal_own m c _
    (⟨512 * r.val + p.val, by omega⟩ : Fin 8192) (⟨1024 * (yOf c).val + q.val, by omega⟩ : Fin 2048)
    (by show 8192 * (yOf c).val + 512 * r.val + p.val = 8192 * (yOf c).val + (512 * r.val + p.val); omega)
    rfl).symm
  rfl

/-- info: 'Cert.KernelIdeal.A2A.out_split' depends on axioms: [propext, Classical.choice, Quot.sound] -/
#guard_msgs in #print axioms out_split

/-- info: 'Cert.KernelIdeal.A2A.vsend_split' depends on axioms: [propext, Classical.choice, Quot.sound] -/
#guard_msgs in #print axioms vsend_split

/-- info: 'Cert.KernelIdeal.A2A.vin_split' depends on axioms: [propext, Classical.choice, Quot.sound] -/
#guard_msgs in #print axioms vin_split

/-- info: 'Cert.KernelIdeal.A2A.vloc_split' depends on axioms: [propext, Classical.choice, Quot.sound] -/
#guard_msgs in #print axioms vloc_split

/-- info: 'Cert.KernelIdeal.A2A.sendPay_of' depends on axioms: [propext, Classical.choice, Quot.sound] -/
#guard_msgs in #print axioms sendPay_of

/-- info: 'Cert.KernelIdeal.A2A.recvPay_of' depends on axioms: [propext, Classical.choice, Quot.sound] -/
#guard_msgs in #print axioms recvPay_of

/-- info: 'Cert.KernelIdeal.A2A.local_lands' depends on axioms: [propext, Classical.choice, Quot.sound] -/
#guard_msgs in #print axioms local_lands

end Cert.KernelIdeal.A2A

end
-- ==== Proof.KI.BodyLemmas.lean ====
/-
  Pieces of the body's proof that are the same for every block: the printed conditions decided from the device's
  coordinate, the transfer of one block to the peer, and names for a block's hypotheses.
-/
import proofs.«900642_g7700000000000643_dist_a2a_v7x_xyz2x2x4_y_m8192_n1024_bf16_1_alg».proof.Proof.KI.Inv
import proofs.«900642_g7700000000000643_dist_a2a_v7x_xyz2x2x4_y_m8192_n1024_bf16_1_alg».proof.Proof.KI.Blocks

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Lean Elab Tactic in
/-- `a2a_ids r`-style naming: the proof-mode hypothesis of block `r` in family `p`. -/
def a2aId (p : String) (r : Nat) : Ident := mkIdent (Name.mkSimple s!"{p}{r}")

theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- The device's coordinate on the exchange's axis, as the kernel computes the word. -/
def yWord (c : Dev nD) : BitVec 32 := Scalar.remsi (Scalar.divsi (Dev.word c) 4#32) 2#32
/-- The two printed conditions: "the coordinate is 0", "the coordinate is 1". -/
def condA (c : Dev nD) : BitVec 1 := Scalar.cmpi .ne (Scalar.extui (Scalar.cmpi .eq (yWord c) 0#32)) 0#32
def condB (c : Dev nD) : BitVec 1 := Scalar.cmpi .ne (Scalar.extui (Scalar.cmpi .eq (yWord c) 1#32)) 0#32
theorem condA_y0 : ∀ c : Dev nD, (yOf c).val = 0 → condA c = 1#1 := by decide
theorem condB_y0 : ∀ c : Dev nD, (yOf c).val = 0 → ¬ condB c = 1#1 := by decide
theorem condA_y1 : ∀ c : Dev nD, (yOf c).val = 1 → ¬ condA c = 1#1 := by decide
theorem condB_y1 : ∀ c : Dev nD, (yOf c).val = 1 → condB c = 1#1 := by decide

theorem pts_ex {sp : Space} {s : Shape} {e : EltTy} (M : Memref sig .tc sp s e) (d : Dev nD) (f : Buf (Elt F) (M.view.loc (d : Thread nD τ))) :
    (pts (F := F) M d f) ⊢ iprop(∃ f, pts (F := F) M d f) := by
  iintro H; iexists _; iexact H

/-- The transfer of block `r` to the peer: it pays the device's own send duty with the block lent and the peer's
    receive duty with the block landed, and takes the block's receive credit off what the device owes. -/
theorem wp_send_blk (K : Dev nD × Fin 33 → ℕ) (c n : Dev nD) (hn : n = pr c) (r : Fin 16)
    {hsc : (outBlk c r : Memref sig (Dev.tc n : Thread nD τ).2.kind .hbm S512x1024 .bf16).view.ref.isScScratch = false}
    {hsrc : (sendM r).view.WordExact} {hdst : (outBlk c r).view.WordExact}
    {hsem : DmaTarget.Typed .vmem (.dma (recvS r)) (.remote (Dev.tc n : Thread nD τ) (outBlk c r) (.dma (sendS r)) hsc)}
    {α : Type} {Q : α → sProp 𝕄} {k : PUnit → Prog (TpuEff nD τ sig (Elt F) Λ₀ .tc) α}
    (fs : Buf (Elt F) ((sendM r).view.loc (c : Thread nD τ))) (fd : Buf (Elt F) ((outBlk c r).view.loc (pr c : Thread nD τ)))
    (hfs : ∀ i ∈ (sendM r).view.set, fs i = vsendFull m c i) (W : Waits sig Unit) :
    iprop(cellInv ER (sched m) (K (c, kS r)) (sendCell c r) ∗ cellInv ER (sched m) (K (pr c, kR r)) (recvCell (pr c) r)
        ∗ pts (sendM r) c fs ∗ pts (outBlk c r) (pr c) fd
        ∗ owes (c : Thread nD τ) (owedFrom c r.val) W
        ∗ dutyTok ER (sendCell c r) 0 () ∗ reached ER (sendCell c r) 0
        ∗ dutyTok ER (recvCell (pr c) r) 0 () ∗ reached ER (recvCell (pr c) r) 0)
      ⊢ iprop(((cred (tallyAt (sendCell c r) () N) ∗ owes (c : Thread nD τ) (owedFrom c (r.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sendM r) (.remote (Dev.tc n : Thread nD τ) (outBlk c r) (.dma (sendS r)) hsc) (.dma (recvS r)) hsrc hdst hsem) k) Q) := by
  subst hn
  unfold pts
  exact Rounds.wp_send_pointsTo 𝒱₀ ER (sched m) (c : Thread nD τ) none (κ₁ := K (c, kS r)) (κ₂ := K (pr c, kR r))
    (r₁ := 0) (r₂ := 0) (d₁ := ()) (d₂ := ()) (fs := fs) (fd := fd)
    (by rw [duties_send]; exact Finset.mem_singleton_self _) (by rw [duties_recv]; exact Finset.mem_singleton_self _)
    () () N rfl (amount_send m c r ()) (amount_recv m (pr c) r ()) (owedFrom c (r.val + 1)) (owedFrom_step c r) (W := W)
    (by rw [payload_send]; exact sendPay_of m c r fs hfs)
    (by rw [payload_recv]; exact recvPay_of m c r fs fd hfs)

open Lean in
/-- The transfer of block `r` applied to the goal: `dv` is the equation of the transfer's printed device with the peer,
    `hv` the fact that the block's contents are the send buffer's final contents there. Block `r`'s hypotheses are
    `Hs r` (the send block), `Hd r` (the peer's result block), `HtS r` / `HtPR r` (the two duty tokens), `HIs r` /
    `HIpr r` (the two cells' invariants), `HRs r` / `HRpr r` (round 0 reached); it leaves `HcS r`, the send credit. -/
macro "a2a_send_prem " r:num : tactic => do
  let n := r.getNat
  let id (p : String) : Ident := mkIdent (Name.mkSimple s!"{p}{n}")
  let HO := mkIdent `HO
  `(tactic| (
    isplitr
    · iexact $(id "HIs")
    isplitr
    · iexact $(id "HIpr")
    isplitl [$(id "Hs")]
    · (unfold pts sendM; iexact $(id "Hs"))
    isplitl [$(id "Hd")]
    · (unfold pts outBlk; iexact $(id "Hd"))
    isplitl [$HO]
    · iexact $HO
    isplitl [$(id "HtS")]
    · iexact $(id "HtS")
    isplitr
    · iexact $(id "HRs")
    isplitl [$(id "HtPR")]
    · iexact $(id "HtPR")
    iexact $(id "HRpr")))

open Lean Idealize.SL.ProofMode in
/-- A goal-splitting pattern `[H₁ … Hₙ]` from hypothesis names. -/
def a2aFrames (xs : Array Ident) : MacroM (TSyntax `specPat) := do
  let fs ← xs.mapM fun x => `(frameIdent| $x:ident)
  `(specPat| [$fs:frameIdent*])

open Lean Idealize.SL.ProofMode in
/-- The destructuring pattern `⟨x₁, …, xₙ⟩` from names (`none` for a dropped conjunct). -/
def a2aPat (xs : Array (Option Ident)) : MacroM (TSyntax `icasesPat) := do
  let ps ← xs.mapM fun x => match x with
    | some x => do let p ← `(icasesPat| $x:ident); `(icasesPatAlts| $p:icasesPat)
    | none => do let p ← `(icasesPat| -); `(icasesPatAlts| $p:icasesPat)
  `(icasesPat| ⟨$ps,*⟩)

open Lean in
/-- The transfer of block `r` applied to the goal: `dv` the equation of the transfer's printed device with the peer,
    `hv` the fact that the block's contents are the send buffer's final contents there; it leaves the send credit
    `HcS r` and the smaller debt. -/
macro "a2a_send " r:num dv:term:max hv:term:max : tactic => do
  let n := r.getNat
  let id (p : String) : Ident := mkIdent (Name.mkSimple s!"{p}{n}")
  let mI := mkIdent `m; let KI := mkIdent `K; let cI := mkIdent `c; let HO := mkIdent `HO
  let sp ← a2aFrames #[id "Hs", id "Hd", HO, id "HtS", id "HtPR"]
  let ip ← a2aPat #[some (id "HcS"), some HO]
  `(tactic| (
    iapply (wp_send_blk $mI $KI $cI _ ($dv $cI) $r _ _ $hv _) $$ $sp:specPat
    · a2a_send_prem $r
    iintro $ip:icasesPat))

open Lean in
/-- The closing wait on block `r`'s send cell, owing nothing: the block of the send buffer comes back (`Hs r`). -/
macro "a2a_swait " r:num : tactic => do
  let n := r.getNat
  let id (p : String) : Ident := mkIdent (Name.mkSimple s!"{p}{n}")
  let mI := mkIdent `m; let KI := mkIdent `K; let cI := mkIdent `c; let HO := mkIdent `HO; let Hpay := mkIdent `Hpay
  let sp ← a2aFrames #[id "HcS", HO, id "HaS"]
  let ip ← a2aPat #[some HO, some (id "HaS"), none, some Hpay]
  let spay ← `(specPat| $Hpay:ident)
  let outP ← `(icasesPat| $(id "Hs"):ident)
  `(tactic| (
    iapply (Rounds.wp_wait_rest_token 𝒱₀ ER (sched $mI) ($cI : Thread nD τ) none (κ := $KI ($cI, kS $r)) (sm := SemLoc.dma (sendS $r))
        (wpE_waitDma2_eq 𝒱₀ ($cI : Thread nD τ) none Set.univ) (Set.mem_univ _) () (O := owedFrom $cI ((15 : Fin 16).val + 1)) (R := 0) (m := 0) (T := ∅)
        (by rw [Nat.zero_add]; exact (expect_send $mI $cI $r).symm)) $$ $sp:specPat
    · isplitr
      · iexact $(id "HIs")
      isplitl [$(id "HcS")]
      · iexact $(id "HcS")
      isplitl [$HO]
      · iexact $HO
      isplitr
      · (rw [show owedFrom $cI ((15 : Fin 16).val + 1) = 0 from owedFrom_16 $cI, MayWait_zero]; iempintro)
      iexact $(id "HaS")
    iintro $ip:icasesPat
    ihave $outP:icasesPat := (Entails.of_eq (rest_send $mI $cI $r)) $$ $spay:specPat))

open Lean in
/-- The closing wait on block `r`'s receive cell: the peer's block of this device's result buffer, landed (`Hq r`). -/
macro "a2a_rwait " r:num : tactic => do
  let n := r.getNat
  let id (p : String) : Ident := mkIdent (Name.mkSimple s!"{p}{n}")
  let mI := mkIdent `m; let KI := mkIdent `K; let cI := mkIdent `c; let HO := mkIdent `HO; let Hpay := mkIdent `Hpay
  let sp ← a2aFrames #[id "HcR", HO, id "HaR"]
  let ip ← a2aPat #[some HO, some (id "HaR"), none, some Hpay]
  let spay ← `(specPat| $Hpay:ident)
  let outP ← `(icasesPat| $(id "Hq"):ident)
  `(tactic| (
    iapply (Rounds.wp_wait_rest_token 𝒱₀ ER (sched $mI) ($cI : Thread nD τ) none (κ := $KI ($cI, kR $r)) (sm := SemLoc.dma (recvS $r))
        (wpE_waitDma2_eq 𝒱₀ ($cI : Thread nD τ) none Set.univ) (Set.mem_univ _) () (O := owedFrom $cI ((15 : Fin 16).val + 1)) (R := 0) (m := 0) (T := ∅)
        (by rw [Nat.zero_add]; exact (expect_recv $mI $cI $r).symm)) $$ $sp:specPat
    · isplitr
      · iexact $(id "HIr")
      isplitl [$(id "HcR")]
      · iexact $(id "HcR")
      isplitl [$HO]
      · iexact $HO
      isplitr
      · (rw [show owedFrom $cI ((15 : Fin 16).val + 1) = 0 from owedFrom_16 $cI, MayWait_zero]; iempintro)
      iexact $(id "HaR")
    iintro $ip:icasesPat
    ihave $outP:icasesPat := (Entails.of_eq (rest_recv $mI $cI $r)) $$ $spay:specPat))

open Lean in
/-- Block `r`'s send and receive cells closed: no later round has a duty, so their counters at zero are the device's
    again (`HzS r`, `HzR r`). -/
macro "a2a_close " r:num : tactic => do
  let n := r.getNat
  let id (p : String) : Ident := mkIdent (Name.mkSimple s!"{p}{n}")
  let mI := mkIdent `m; let KI := mkIdent `K; let cI := mkIdent `c
  let spS ← a2aFrames #[id "HaS"]
  let spR ← a2aFrames #[id "HaR"]
  `(tactic| (
    imod (Rounds.cell_close ER (sched $mI) (Set.mem_univ ($KI ($cI, kS $r))) (fun h => h) (R := 0 + 1) (duties_later $mI (sendCell $cI $r))) $$ $spS:specPat with $(id "HzS"):ident
    · isplitr
      · iexact $(id "HIs")
      iexact $(id "HaS")
    imod (Rounds.cell_close ER (sched $mI) (Set.mem_univ ($KI ($cI, kR $r))) (fun h => h) (R := 0 + 1) (duties_later $mI (recvCell $cI $r))) $$ $spR:specPat with $(id "HzR"):ident
    · isplitr
      · iexact $(id "HIr")
      iexact $(id "HaR")))

open Lean in
/-- The sixteen hypotheses `p0 … p15` handed, in order, to a goal that is a sixteen-fold separating conjunction. -/
macro "a2a_give16 " p:str : tactic => do
  let id (n : Nat) : Ident := mkIdent (Name.mkSimple s!"{p.getString}{n}")
  let mut acc ← `(tactic| iexact $(id 15))
  for k in [0:15] do
    let n := 14 - k
    acc ← `(tactic| (isplitl [$(id n)]; (· iexact $(id n)); $acc))
  return acc

/-! ### The sixteen blocks in turn

The kernel is unrolled sixteen times; the proof says the same thing sixteen times. These tactics say it once, for a
block number, and repeat it. -/

open Lean in
/-- The sixteen trips. Each trip's local work is the executor's (the two printed conditions decided by `hA`, `hB`); at
    the transfer to the peer it stops, and the transfer is applied (`a2a_send`) with `sv`, the value lemma of the
    device's coordinate (`hy`), at the trip's block and staging slot. -/
macro "a2a_trips " sv:ident : tactic => do
  let hy := mkIdent `hy; let mI := mkIdent `m; let cI := mkIdent `c; let hA := mkIdent `hA; let hB := mkIdent `hB
  let f1 := mkIdent `f1
  let mut acc : Array (TSyntax `tactic) := #[]
  for r in [0:16] do
    let dv := mkIdent (Name.mkSimple s!"dev{r + 2}_eq")
    let rl := Syntax.mkNumLit (toString r)
    let sl := Syntax.mkNumLit (toString (r % 2))
    acc := acc.push (← `(tactic| a2a_send $rl $dv ($sv $mI $cI $rl $sl $f1 $hy)))
    acc := acc.push (← `(tactic| sl_exec_parts (disch := first | exact $hA | exact $hB)))
  `(tactic| ($acc;*))

open Lean in
/-- The closing waits: for each block, its send cell then its receive cell, the executor running the arithmetic
    between two waits. -/
macro "a2a_closing" : tactic => do
  let hA := mkIdent `hA; let hB := mkIdent `hB
  let mut acc : Array (TSyntax `tactic) := #[]
  for r in [0:16] do
    let rl := Syntax.mkNumLit (toString r)
    acc := acc.push (← `(tactic| a2a_swait $rl))
    acc := acc.push (← `(tactic| sl_exec_parts (disch := first | exact $hA | exact $hB)))
    acc := acc.push (← `(tactic| a2a_rwait $rl))
    if r < 15 then
      acc := acc.push (← `(tactic| sl_exec_parts (disch := first | exact $hA | exact $hB)))
  `(tactic| ($acc;*))

open Lean in
/-- All 32 send and receive cells closed. -/
macro "a2a_closes" : tactic => do
  let mut acc : Array (TSyntax `tactic) := #[]
  for r in [0:16] do
    acc := acc.push (← `(tactic| a2a_close $(Syntax.mkNumLit (toString r))))
  `(tactic| ($acc;*))

open Lean Idealize.SL.ProofMode in
/-- The device's own sixteen result blocks restated at the final contents, by `own_blk_final` with `lv`, the value
    lemma of the local staging slot at the device's coordinate (`hy`). -/
macro "a2a_finishes " lv:ident : tactic => do
  let hy := mkIdent `hy; let mI := mkIdent `m; let cI := mkIdent `c
  let obf := mkIdent `own_blk_final
  let mut acc : Array (TSyntax `tactic) := #[]
  for r in [0:16] do
    let h := mkIdent (Name.mkSimple s!"Hm{r}")
    let rl := Syntax.mkNumLit (toString r)
    let sl := Syntax.mkNumLit (toString (r % 2))
    let sp ← a2aFrames #[h]
    let hp ← `(icasesPat| $h:ident)
    acc := acc.push (← `(tactic| (
      ihave $hp:icasesPat := ($obf $mI $cI $rl $sl _ _ ($lv $mI $cI $rl $sl _ $hy)) $$ $sp:specPat
      · (unfold pts outBlk; iexact $h))))
  `(tactic| ($acc;*))

open Lean in
/-- `isplitl` whose left share is whole families of sixteen hypotheses (by their prefixes) and some more by name. -/
macro "a2a_isplitl " fams:str* " & " extra:ident* : tactic => do
  let mut xs : Array Ident := extra
  for f in fams do
    for n in [0:16] do
      xs := xs.push (mkIdent (Name.mkSimple s!"{f.getString}{n}"))
  `(tactic| isplitl [$xs*])

end Cert.KernelIdeal.A2A
end
-- ==== Proof.KI.Vals.lean ====
/-
  What the kernel's stores leave in the send buffer and in the local staging buffer.

  Block `r` of the input block (rows `512·r …`, all 2048 columns) is copied into a slot of the input staging buffer and
  loaded back whole. The half of it the peer keeps — columns `1024·(1 - y) …` —, narrowed, is stored as block `r` of the
  send buffer; the half the device keeps — columns `1024·y …` —, narrowed, into a slot of the local staging buffer.
  Each store leaves, on the part it writes, the whole-buffer function the schedule's payloads are stated with.
-/
import proofs.«900642_g7700000000000643_dist_a2a_v7x_xyz2x2x4_y_m8192_n1024_bf16_1_alg».proof.Proof.KI.Blocks
import proofs.«900642_g7700000000000643_dist_a2a_v7x_xyz2x2x4_y_m8192_n1024_bf16_1_alg».proof.Proof.Gen.KernelIdeal.Skeleton

noncomputable section

namespace Cert.KernelIdeal.A2A

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- The piece the `k`-th input copy writes: the whole slot, at block `k` of the input. -/
def inPiece (c : Dev nD) (k : ℕ) : View.Piece (Elt F) S512x2048 .f32 :=
  ⟨Rect.whole S512x2048, ReadAs.same.apply (View.read (Elt F) (xBlk ⟨k % 16, Nat.mod_lt _ (by decide)⟩).view (m ((c : Thread nD τ).loc main_arg0)))⟩

/-- The pieces written into a slot of the input staging buffer before the `k`-th copy: those of copies `k - 2`, `k - 4`, …,
    the latest first. -/
def vinHist (c : Dev nD) : ℕ → List (View.Piece (Elt F) S512x2048 .f32)
  | 0 => []
  | 1 => []
  | (k + 2) => inPiece m c k :: vinHist c k

/-- What the body loads from slot `s` of the input staging buffer after block `r` of the input has been copied there, over
    the copies that went into the slot before. -/
def loaded (c : Dev nD) (r : Fin 16) (s : Fin 2) : Vec F S1x512x2048 .f32 :=
  View.readAt (Elt F) vinM.view (Rect.unit (s := S2x512x2048) ![s.val, 0, 0] S1x512x2048.size (vslot_inb s)).toLoadRect
    ((vinSlot s).view.writes (Elt F) (vinSlot s).view.junk (inPiece m c r.val :: vinHist m c r.val))

example (c : Dev nD) : loaded m c 0 0
    = View.readAt (Elt F) (Memref.whole cc0_scratch0).view (Rect.unit (s := S2x512x2048) ![0, 0, 0] S1x512x2048.size inb_S2x512x2048_S1x512x2048_0_0_0).toLoadRect
        (((vinM.slice (Rect.unit (s := S2x512x2048) ![((0 : Fin 2) : ℕ), 0, 0] S1x512x2048.size (vslot_inb 0)) (fun _ => rfl)).squeeze S512x2048 squeezes_S1x512x2048_S512x2048).view.writes (Elt F)
          ((vinM.slice (Rect.unit (s := S2x512x2048) ![((0 : Fin 2) : ℕ), 0, 0] S1x512x2048.size (vslot_inb 0)) (fun _ => rfl)).squeeze S512x2048 squeezes_S1x512x2048_S512x2048).view.junk
          [⟨Rect.whole S512x2048, ReadAs.same.apply (View.read (Elt F)
            ((Memref.whole main_arg0).slice (Rect.unit (s := S8192x2048) ![0, 0] S512x2048.size inb_S8192x2048_S512x2048_0_0) (fun _ => rfl)).view
            (m ((c.tc : Thread nD τ).loc main_arg0)))⟩]) := rfl

example (c : Dev nD) : loaded m c 2 0
    = View.readAt (Elt F) (Memref.whole cc0_scratch0).view (Rect.unit (s := S2x512x2048) ![0, 0, 0] S1x512x2048.size inb_S2x512x2048_S1x512x2048_0_0_0).toLoadRect
        ((vinSlot 0).view.writes (Elt F) (vinSlot 0).view.junk
          [⟨Rect.whole S512x2048, ReadAs.same.apply (View.read (Elt F)
            ((Memref.whole main_arg0).slice (Rect.unit (s := S8192x2048) ![1024, 0] S512x2048.size inb_S8192x2048_S512x2048_1024_0) (fun _ => rfl)).view
            (m ((c.tc : Thread nD τ).loc main_arg0)))⟩,
           ⟨Rect.whole S512x2048, ReadAs.same.apply (View.read (Elt F)
            ((Memref.whole main_arg0).slice (Rect.unit (s := S8192x2048) ![0, 0] S512x2048.size inb_S8192x2048_S512x2048_0_0) (fun _ => rfl)).view
            (m ((c.tc : Thread nD τ).loc main_arg0)))⟩]) := rfl

/-! ### Where a slot's and a block's entries lie -/

/-- Entry `(p, k)` of slot `s` of the input staging buffer is its entry `(s, p, k)`. -/
theorem vinSlot_emb (s : Fin 2) (p : Fin 512) (k : Fin 2048) :
    (vinSlot s).view.emb (ix2 p k) = (ix3 (⟨s.val, s.isLt⟩ : Fin 2) p k : S2x512x2048.Idx) := by
  show (Rect.unit (s := S2x512x2048) ![s.val, 0, 0] S1x512x2048.size (vslot_inb s)).emb
      (Shape.reshapeEquiv squeezes_S1x512x2048_S512x2048.numel_eq (ix2 p k)) = _
  rw [reshapeEquiv_ix2_1ab]
  funext a
  apply Fin.ext
  match a with
  | ⟨0, _⟩ => show s.val + 1 * 0 = s.val; omega
  | ⟨1, _⟩ => show 0 + 1 * p.val = p.val; omega
  | ⟨2, _⟩ => show 0 + 1 * k.val = k.val; omega

/-- Entry `(p, k)` of block `r` of the input is entry `(512·r + p, k)` of the input block. -/
theorem xBlk_emb (r : Fin 16) (p : Fin 512) (k : Fin 2048) :
    (xBlk r).view.emb (ix2 p k)
      = (ix2 (⟨512 * r.val + p.val, by have := r.isLt; have := p.isLt; omega⟩ : Fin 8192) (⟨k.val, k.isLt⟩ : Fin 2048) : S8192x2048.Idx) := by
  funext a
  apply Fin.ext
  match a with
  | ⟨0, _⟩ => show 512 * r.val + 1 * p.val = 512 * r.val + p.val; omega
  | ⟨1, _⟩ => show 0 + 1 * k.val = k.val; omega

/-! ### The loaded value at an entry -/

/-- Entry `(0, p, k)` of the loaded value is entry `(512·r + p, k)` of the device's input block: the latest copy wrote
    the whole slot, whatever went into it before. -/
theorem loaded_apply (c : Dev nD) (r : Fin 16) (s : Fin 2) (p : Fin 512) (k : Fin 2048) :
    loaded m c r s (ix3 (0 : Fin 1) p k)
      = (m ((c : Thread nD τ).loc main_arg0) : FVec F S8192x2048 .f32)
          (ix2 (⟨512 * r.val + p.val, by have := r.isLt; have := p.isLt; omega⟩ : Fin 8192) k) := by
  -- the place read, entry (s, p, k) of the staging buffer, is entry (p, k) of the slot the copy filled whole
  have e : vinM.view.emb ((Rect.unit (s := S2x512x2048) ![s.val, 0, 0] S1x512x2048.size (vslot_inb s)).toLoadRect.idx (ix3 (0 : Fin 1) p k))
      = ((vinSlot s).view.slice (Rect.whole S512x2048)).emb (ix2 p k) := by
    show _ = (vinSlot s).view.emb ((Rect.whole S512x2048).emb (ix2 p k))
    rw [Rect.emb_whole_apply, vinSlot_emb]
    funext a
    apply Fin.ext
    match a with
    | ⟨0, _⟩ => show s.val + 1 * 0 = s.val; omega
    | ⟨1, _⟩ => show 0 + 1 * p.val = p.val; omega
    | ⟨2, _⟩ => show 0 + 1 * k.val = k.val; omega
  have hr : (⟨r.val % 16, Nat.mod_lt _ (by decide)⟩ : Fin 16) = r := Fin.ext (Nat.mod_eq_of_lt r.isLt)
  unfold loaded inPiece
  generalize vinHist m c r.val = L
  refine Eq.trans (View.readAt_apply _ _ _) ?_
  refine Eq.trans (View.read_apply _ _) ?_
  refine (cast_eq _ _).trans ?_
  -- the latest piece is written last, over whatever the earlier pieces left
  refine Eq.trans (congrFun (View.writes_cons _ _ _ _) _) ?_
  refine Eq.trans (congrArg _ e) ?_
  refine (View.write_emb_of_mem _ _ (Finset.mem_univ _)).trans ?_
  refine (cast_eq _ _).trans ?_
  -- what the copy moved there is entry (p, k) of block r of the input
  show View.read (Elt F) (xBlk ⟨r.val % 16, Nat.mod_lt _ (by decide)⟩).view (m ((c : Thread nD τ).loc main_arg0)) (ix2 p k) = _
  rw [hr]
  refine Eq.trans (View.read_apply _ _) ?_
  refine (cast_eq _ _).trans ?_
  exact congrArg (m ((c : Thread nD τ).loc main_arg0)) (xBlk_emb r p k)

/-! ### The stored payloads at an entry -/

/-- Either half of the loaded block, columns `o …`: entry `(p, q)` is entry `(0, p, o + q)` of the loaded value. -/
theorem half_apply (V : Vec F S1x512x2048 .f32) (o : ℕ) (h : S512x2048.Slices ![0, o] S512x1024) (p : Fin 512) (q : Fin 1024)
    (k : Fin 2048) (hk : k.val = o + q.val) :
    extractStridedSlice S512x1024 ![0, o] (shapeCast S512x2048 V shapeCasts_S1x512x2048_S512x2048) h (ix2 p q) = V (ix3 (0 : Fin 1) p k) := by
  rw [extractStridedSlice_apply ![0, o] _ h (ix2 p q) (ix2 p k) (fun a => by
      match a with
      | ⟨0, _⟩ => show p.val = 0 + p.val; omega
      | ⟨1, _⟩ => exact hk), shapeCast_1ab_ab_apply]

theorem pay2_apply (V : Vec F S1x512x2048 .f32) (p : Fin 512) (q : Fin 1024) :
    k0_pay2 V (ix2 p q) = FloatOps.truncf .bf16 bitsLt_bf16_f32 (V (ix3 (0 : Fin 1) p (⟨1024 + q.val, by have := q.isLt; omega⟩ : Fin 2048))) := by
  have h1 : k0_pay2 V = truncf .bf16 (extractStridedSlice S512x1024 ![0, 1024] (shapeCast S512x2048 V shapeCasts_S1x512x2048_S512x2048)
      slices_S512x2048_o0_1024_S512x1024) bitsLt_bf16_f32 := shapeCast_self _ _
  rw [h1]
  exact congrArg (FloatOps.truncf .bf16 bitsLt_bf16_f32) (half_apply V 1024 slices_S512x2048_o0_1024_S512x1024 p q _ rfl)

theorem pay5_apply (V : Vec F S1x512x2048 .f32) (p : Fin 512) (q : Fin 1024) :
    k0_pay5 V (ix2 p q) = FloatOps.truncf .bf16 bitsLt_bf16_f32 (V (ix3 (0 : Fin 1) p (⟨q.val, by have := q.isLt; omega⟩ : Fin 2048))) := by
  have h1 : k0_pay5 V = truncf .bf16 (extractStridedSlice S512x1024 ![0, 0] (shapeCast S512x2048 V shapeCasts_S1x512x2048_S512x2048)
      slices_S512x2048_o0_0_S512x1024) bitsLt_bf16_f32 := shapeCast_self _ _
  rw [h1]
  exact congrArg (FloatOps.truncf .bf16 bitsLt_bf16_f32) (half_apply V 0 slices_S512x2048_o0_0_S512x1024 p q _ (by show q.val = 0 + q.val; omega))

theorem pay3_apply (V : Vec F S1x512x2048 .f32) (u : Fin 1) (p : Fin 512) (q : Fin 1024) :
    k0_pay3 V (ix3 u p q) = FloatOps.truncf .bf16 bitsLt_bf16_f32 (V (ix3 (0 : Fin 1) p (⟨q.val, by have := q.isLt; omega⟩ : Fin 2048))) := by
  show shapeCast S1x512x1024 (truncf .bf16 (extractStridedSlice S512x1024 ![0, 0] (shapeCast S512x2048 V shapeCasts_S1x512x2048_S512x2048)
      slices_S512x2048_o0_0_S512x1024) bitsLt_bf16_f32) shapeCasts_S512x1024_S1x512x1024 (ix3 u p q) = _
  rw [shapeCast_ab_1ab_apply]
  exact congrArg (FloatOps.truncf .bf16 bitsLt_bf16_f32) (half_apply V 0 slices_S512x2048_o0_0_S512x1024 p q _ (by show q.val = 0 + q.val; omega))

theorem pay6_apply (V : Vec F S1x512x2048 .f32) (u : Fin 1) (p : Fin 512) (q : Fin 1024) :
    k0_pay6 V (ix3 u p q) = FloatOps.truncf .bf16 bitsLt_bf16_f32 (V (ix3 (0 : Fin 1) p (⟨1024 + q.val, by have := q.isLt; omega⟩ : Fin 2048))) := by
  show shapeCast S1x512x1024 (truncf .bf16 (extractStridedSlice S512x1024 ![0, 1024] (shapeCast S512x2048 V shapeCasts_S1x512x2048_S512x2048)
      slices_S512x2048_o0_1024_S512x1024) bitsLt_bf16_f32) shapeCasts_S512x1024_S1x512x1024 (ix3 u p q) = _
  rw [shapeCast_ab_1ab_apply]
  exact congrArg (FloatOps.truncf .bf16 bitsLt_bf16_f32) (half_apply V 1024 slices_S512x2048_o0_1024_S512x1024 p q _ rfl)

/-! ### What the stores leave -/

section Stores
variable (c : Dev nD) (r : Fin 16) (s : Fin 2)

/-- The send buffer's final entry `(512·r + p, q)` is the input block's entry `(512·r + p, 1024·(1 - y) + q)`, narrowed. -/
theorem vsendFull_at (p : Fin 512) (q : Fin 1024) (κ : Fin 2048) (hκ : κ.val = 1024 * (1 - (yOf c).val) + q.val) :
    vsendFull m c ((sendM r).view.emb (ix2 p q))
      = FloatOps.truncf .bf16 bitsLt_bf16_f32 ((m ((c : Thread nD τ).loc main_arg0) : FVec F S8192x2048 .f32)
          (ix2 (⟨512 * r.val + p.val, by have := r.isLt; have := p.isLt; omega⟩ : Fin 8192) κ)) := by
  rw [sendM_emb]
  exact congrArg (fun z => FloatOps.truncf .bf16 bitsLt_bf16_f32 ((m ((c : Thread nD τ).loc main_arg0) : FVec F S8192x2048 .f32) z))
    (congrArg₂ ix2 (Fin.ext rfl) (Fin.ext hκ.symm))

/-- The local staging buffer's entry `(s, p, q)` once block `r` is stored is the input block's entry `(512·r + p, 1024·y + q)`, narrowed. -/
theorem vlocVal_at (p : Fin 512) (q : Fin 1024) (κ : Fin 2048) (hκ : κ.val = 1024 * (yOf c).val + q.val) :
    vlocVal m c r ((vlocSlot s).view.emb (ix2 p q))
      = FloatOps.truncf .bf16 bitsLt_bf16_f32 ((m ((c : Thread nD τ).loc main_arg0) : FVec F S8192x2048 .f32)
          (ix2 (⟨512 * r.val + p.val, by have := r.isLt; have := p.isLt; omega⟩ : Fin 8192) κ)) := by
  rw [vlocSlot_emb]
  exact congrArg (fun z => FloatOps.truncf .bf16 bitsLt_bf16_f32 ((m ((c : Thread nD τ).loc main_arg0) : FVec F S8192x2048 .f32) z))
    (congrArg₂ ix2 (Fin.ext rfl) (Fin.ext hκ.symm))

/-- Entry `(p, q)` of a slot of the local staging buffer, as the store into the slot numbers it. -/
theorem vlocSlot_emb_access (p : Fin 512) (q : Fin 1024) :
    (vlocSlot s).view.emb (ix2 p q)
      = (vlocM.access (Rect.unit (s := S2x512x1024) ![s.val, 0, 0] S1x512x1024.size (slot_inb s))).emb (ix3 (0 : Fin 1) p q) := by
  rw [vlocSlot_emb]
  funext a
  apply Fin.ext
  match a with
  | ⟨0, _⟩ => show s.val = s.val + 1 * 0; omega
  | ⟨1, _⟩ => show p.val = 0 + 1 * p.val; omega
  | ⟨2, _⟩ => show q.val = 0 + 1 * q.val; omega

theorem send_val_y0 (f1 : Buf (Elt F) ((c : Thread nD τ).loc cc0_scratch1)) (hy : (yOf c).val = 0) :
    ∀ i ∈ (sendM r).view.set,
      (View.write (Elt F) (vsendM.access (Rect.unit (s := S8192x1024) ![512 * r.val, 0] S512x1024.size (sendRect_inb r))) f1
        (k0_pay2 (loaded m c r s)) Finset.univ) i = vsendFull m c i := by
  intro i hi
  obtain ⟨j, rfl⟩ := View.exists_emb_of_mem_set _ hi
  obtain ⟨p, q, rfl⟩ : ∃ p q, j = ix2 p q := ⟨j 0, j 1, eq_ix2 j⟩
  have hq := q.isLt
  refine (View.write_emb_of_mem _ _ (Finset.mem_univ _)).trans ?_
  refine (cast_eq _ _).trans ?_
  rw [pay2_apply, loaded_apply, vsendFull_at m c r p q (⟨1024 + q.val, by omega⟩ : Fin 2048) (by show 1024 + q.val = 1024 * (1 - (yOf c).val) + q.val; omega)]

theorem send_val_y1 (f1 : Buf (Elt F) ((c : Thread nD τ).loc cc0_scratch1)) (hy : (yOf c).val = 1) :
    ∀ i ∈ (sendM r).view.set,
      (View.write (Elt F) (vsendM.access (Rect.unit (s := S8192x1024) ![512 * r.val, 0] S512x1024.size (sendRect_inb r))) f1
        (k0_pay5 (loaded m c r s)) Finset.univ) i = vsendFull m c i := by
  intro i hi
  obtain ⟨j, rfl⟩ := View.exists_emb_of_mem_set _ hi
  obtain ⟨p, q, rfl⟩ : ∃ p q, j = ix2 p q := ⟨j 0, j 1, eq_ix2 j⟩
  have hq := q.isLt
  refine (View.write_emb_of_mem _ _ (Finset.mem_univ _)).trans ?_
  refine (cast_eq _ _).trans ?_
  rw [pay5_apply, loaded_apply, vsendFull_at m c r p q (⟨q.val, by omega⟩ : Fin 2048) (by show q.val = 1024 * (1 - (yOf c).val) + q.val; omega)]

theorem loc_val_y0 (f2 : Buf (Elt F) ((c : Thread nD τ).loc cc0_scratch2)) (hy : (yOf c).val = 0) :
    ∀ i ∈ (vlocSlot s).view.set,
      (View.write (Elt F) (vlocM.access (Rect.unit (s := S2x512x1024) ![s.val, 0, 0] S1x512x1024.size (slot_inb s))) f2
        (k0_pay3 (loaded m c r s)) Finset.univ) i = vlocVal m c r i := by
  intro i hi
  obtain ⟨j, rfl⟩ := View.exists_emb_of_mem_set _ hi
  obtain ⟨p, q, rfl⟩ : ∃ p q, j = ix2 p q := ⟨j 0, j 1, eq_ix2 j⟩
  have hq := q.isLt
  refine Eq.trans (congrArg (View.write (Elt F) (vlocM.access (Rect.unit (s := S2x512x1024) ![s.val, 0, 0] S1x512x1024.size (slot_inb s))) f2
    (k0_pay3 (loaded m c r s)) Finset.univ) (vlocSlot_emb_access s p q)) ?_
  refine (View.write_emb_of_mem _ _ (Finset.mem_univ _)).trans ?_
  refine (cast_eq _ _).trans ?_
  rw [pay3_apply, loaded_apply, vlocVal_at m c r s p q (⟨q.val, by omega⟩ : Fin 2048) (by show q.val = 1024 * (yOf c).val + q.val; omega)]

theorem loc_val_y1 (f2 : Buf (Elt F) ((c : Thread nD τ).loc cc0_scratch2)) (hy : (yOf c).val = 1) :
    ∀ i ∈ (vlocSlot s).view.set,
      (View.write (Elt F) (vlocM.access (Rect.unit (s := S2x512x1024) ![s.val, 0, 0] S1x512x1024.size (slot_inb s))) f2
        (k0_pay6 (loaded m c r s)) Finset.univ) i = vlocVal m c r i := by
  intro i hi
  obtain ⟨j, rfl⟩ := View.exists_emb_of_mem_set _ hi
  obtain ⟨p, q, rfl⟩ : ∃ p q, j = ix2 p q := ⟨j 0, j 1, eq_ix2 j⟩
  have hq := q.isLt
  refine Eq.trans (congrArg (View.write (Elt F) (vlocM.access (Rect.unit (s := S2x512x1024) ![s.val, 0, 0] S1x512x1024.size (slot_inb s))) f2
    (k0_pay6 (loaded m c r s)) Finset.univ) (vlocSlot_emb_access s p q)) ?_
  refine (View.write_emb_of_mem _ _ (Finset.mem_univ _)).trans ?_
  refine (cast_eq _ _).trans ?_
  rw [pay6_apply, loaded_apply, vlocVal_at m c r s p q (⟨1024 + q.val, by omega⟩ : Fin 2048) (by show 1024 + q.val = 1024 * (yOf c).val + q.val; omega)]

end Stores

/-- info: 'Cert.KernelIdeal.A2A.send_val_y0' depends on axioms: [propext, Classical.choice, Quot.sound] -/
#guard_msgs in #print axioms send_val_y0
/-- info: 'Cert.KernelIdeal.A2A.send_val_y1' depends on axioms: [propext, Classical.choice, Quot.sound] -/
#guard_msgs in #print axioms send_val_y1
/-- info: 'Cert.KernelIdeal.A2A.loc_val_y0' depends on axioms: [propext, Classical.choice, Quot.sound] -/
#guard_msgs in #print axioms loc_val_y0
/-- info: 'Cert.KernelIdeal.A2A.loc_val_y1' depends on axioms: [propext, Classical.choice, Quot.sound] -/
#guard_msgs in #print axioms loc_val_y1

/-! ### Finishing: the device's own result block after its local copy, and the staging buffers put back together -/

section Finishing

example (c : Dev nD) (fl : Buf (Elt F) ((vlocSlot 0).view.loc (c : Thread nD τ))) :
    (outBlk c 0).view.writes (Elt F) (m ((c : Thread nD τ).loc main_v1))
        [⟨Rect.whole S512x1024, ReadAs.same.apply (View.read (Elt F) (vlocSlot 0).view fl)⟩]
      = (outM.slice (Rect.unit (s := S16384x1024) (k0_off1 c (BitVec.ofNat 32 (512 * ((0 : Fin 16) : ℕ)))) S512x1024.size (k0_off1_inb c 0)) (fun _ => rfl)).view.writes
          (Elt F) (m ((c.tc : Thread nD τ).loc main_v1))
          [⟨Rect.whole S512x1024, ReadAs.same.apply (View.read (Elt F)
            (((Memref.whole cc0_scratch2).slice (Rect.unit (s := S2x512x1024) ![0, 0, 0] S1x512x1024.size inb_S2x512x1024_S1x512x1024_0_0_0) (fun _ => rfl)).squeeze
              S512x1024 squeezes_S1x512x1024_S512x1024).view fl)⟩] := rfl

/-- The device's own result block `r`, after the one write that its local copy from slot `s` makes over whatever the block
    held, holds the final contents — when the slot held the staged value. -/
theorem own_blk_final (c : Dev nD) (r : Fin 16) (s : Fin 2) (fd : Buf (Elt F) ((outBlk c r).view.loc (c : Thread nD τ)))
    (fl : Buf (Elt F) ((vlocSlot s).view.loc (c : Thread nD τ))) (h : ∀ i ∈ (vlocSlot s).view.set, fl i = vlocVal m c r i) :
    (pts (outBlk c r) c ((outBlk c r).view.writes (Elt F) fd
        [⟨Rect.whole S512x1024, ReadAs.same.apply (View.read (Elt F) (vlocSlot s).view fl)⟩]) : sProp 𝕄)
      ⊢ pts (outBlk c r) c (outFinal m c) := by
  unfold pts
  refine Entails.of_eq (BI.Region.is_congr ?_)
  intro i hi
  obtain ⟨j, rfl⟩ := View.exists_emb_of_mem_set _ hi
  -- a write through the whole rectangle of the block is a write through the block: entry j takes the payload's entry j
  have e : (outBlk c r).view.emb j = ((outBlk c r).view.slice (Rect.whole S512x1024)).emb j :=
    (congrArg (outBlk c r).view.emb (Rect.emb_whole_apply S512x1024 j)).symm
  refine Eq.trans (congrArg (((outBlk c r).view.slice (Rect.whole S512x1024)).write (Elt F) fd
    (ReadAs.same.apply (View.read (Elt F) (vlocSlot s).view fl)) Finset.univ) e) ?_
  refine (View.write_emb_of_mem _ _ (Finset.mem_univ _)).trans ?_
  refine Eq.trans ?_ (local_lands m c r s fl fd h _ hi)
  exact (View.write_emb_of_mem (v := (outBlk c r).view) fd ((vlocSlot s).view.read (Elt F) fl) (Finset.mem_univ j)).symm

/-- The input staging buffer's two slots, each at whatever it holds, are the buffer at some contents. -/
theorem vin_join (c : Dev nD) (fa : Buf (Elt F) ((vinSlot 0).view.loc (c : Thread nD τ))) (fb : Buf (Elt F) ((vinSlot 1).view.loc (c : Thread nD τ))) :
    (iprop(pts (vinSlot 0) c fa ∗ pts (vinSlot 1) c fb) : sProp 𝕄)
      ⊢ iprop(∃ f : Buf (Elt F) ((c : Thread nD τ).loc cc0_scratch0), ((c : Thread nD τ).loc cc0_scratch0) ↦{fullShare} f) := by
  -- the contents that are the second slot's on the second slot and the first slot's elsewhere
  classical
  let g : Buf (Elt F) ((c : Thread nD τ).loc cc0_scratch0) := fun i => if i ∈ (vinSlot 1).view.set then fb i else fa i
  have ha : (pts (vinSlot 0) c fa : sProp 𝕄) = pts (vinSlot 0) c g := by
    unfold pts
    refine BI.Region.is_congr fun i hi => ?_
    have hn : i ∉ (vinSlot 1).view.set := fun h1 => by
      have a : _ = 0 := (mem_vinSlot 0 i).mp hi
      have b : _ = 1 := (mem_vinSlot 1 i).mp h1
      omega
    exact (if_neg hn).symm
  have hb : (pts (vinSlot 1) c fb : sProp 𝕄) = pts (vinSlot 1) c g := by
    unfold pts
    exact BI.Region.is_congr fun i hi => (if_pos hi).symm
  rw [ha, hb]
  iintro H
  iexists g
  iapply (vin_split c g).2
  iexact H

/-- The local staging buffer's two slots, each at whatever it holds, are the buffer at some contents. -/
theorem vloc_join (c : Dev nD) (fa : Buf (Elt F) ((vlocSlot 0).view.loc (c : Thread nD τ))) (fb : Buf (Elt F) ((vlocSlot 1).view.loc (c : Thread nD τ))) :
    (iprop(pts (vlocSlot 0) c fa ∗ pts (vlocSlot 1) c fb) : sProp 𝕄)
      ⊢ iprop(∃ f : Buf (Elt F) ((c : Thread nD τ).loc cc0_scratch2), ((c : Thread nD τ).loc cc0_scratch2) ↦{fullShare} f) := by
  classical
  let g : Buf (Elt F) ((c : Thread nD τ).loc cc0_scratch2) := fun i => if i ∈ (vlocSlot 1).view.set then fb i else fa i
  have ha : (pts (vlocSlot 0) c fa : sProp 𝕄) = pts (vlocSlot 0) c g := by
    unfold pts
    refine BI.Region.is_congr fun i hi => ?_
    have hn : i ∉ (vlocSlot 1).view.set := fun h1 => by
      have a : _ = 0 := (mem_vlocSlot 0 i).mp hi
      have b : _ = 1 := (mem_vlocSlot 1 i).mp h1
      omega
    exact (if_neg hn).symm
  have hb : (pts (vlocSlot 1) c fb : sProp 𝕄) = pts (vlocSlot 1) c g := by
    unfold pts
    exact BI.Region.is_congr fun i hi => (if_pos hi).symm
  rw [ha, hb]
  iintro H
  iexists g
  iapply (vloc_split c g).2
  iexact H

end Finishing

/-- info: 'Cert.KernelIdeal.A2A.own_blk_final' depends on axioms: [propext, Classical.choice, Quot.sound] -/
#guard_msgs in #print axioms own_blk_final
/-- info: 'Cert.KernelIdeal.A2A.vin_join' depends on axioms: [propext, Classical.choice, Quot.sound] -/
#guard_msgs in #print axioms vin_join
/-- info: 'Cert.KernelIdeal.A2A.vloc_join' depends on axioms: [propext, Classical.choice, Quot.sound] -/
#guard_msgs in #print axioms vloc_join

end Cert.KernelIdeal.A2A

end
-- ==== Proof.KI.BodyY0.lean ====
/-
  The body of the exchange on one device, at a symbolic device whose coordinate on the exchange's axis is 0: the entry handshake with the peer, then sixteen trips —
  fetch a block of 512 rows of the input into one of two staging slots, narrow its two halves into the send buffer and
  the local staging buffer, transfer the send block to the peer's result buffer, copy the local block into the device's
  own result buffer — and the closing waits.
-/
import proofs.«900642_g7700000000000643_dist_a2a_v7x_xyz2x2x4_y_m8192_n1024_bf16_1_alg».proof.Proof.KI.BodyLemmas
import proofs.«900642_g7700000000000643_dist_a2a_v7x_xyz2x2x4_y_m8192_n1024_bf16_1_alg».proof.Proof.KI.Vals

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxHeartbeats 16000000 in
/-- The body on a device whose coordinate on the exchange's axis is 0. -/
theorem sound_body_y0 (K : Dev nD × Fin 33 → ℕ) (c : Dev nD) (hy : (yOf c).val = 0) (Kt : PUnit → sProp 𝕄) :
    iprop(bodyPre m K c ∗ (bodyPost m c -∗ Kt ⟨⟩))
      ⊢ wp frame (wpE (defs₀ (F := F)) 𝒱₀ c none) Set.univ (bodyAt0 (F := F) t0_0) Kt := by
  unfold bodyPre ghost invs marks linear creds scratch xPts localSems
  simp only [bigSep_fin16]
  iintro ⟨⟨⟨⟨#HIb, ⟨#HIs0, #HIs1, #HIs2, #HIs3, #HIs4, #HIs5, #HIs6, #HIs7, #HIs8, #HIs9, #HIs10, #HIs11, #HIs12, #HIs13, #HIs14, #HIs15⟩, ⟨#HIr0, #HIr1, #HIr2, #HIr3, #HIr4, #HIr5, #HIr6, #HIr7, #HIr8, #HIr9, #HIr10, #HIr11, #HIr12, #HIr13, #HIr14, #HIr15⟩, #HIpb, ⟨#HIpr0, #HIpr1, #HIpr2, #HIpr3, #HIpr4, #HIpr5, #HIpr6, #HIpr7, #HIpr8, #HIpr9, #HIpr10, #HIpr11, #HIpr12, #HIpr13, #HIpr14, #HIpr15⟩⟩, ⟨#HRpb, ⟨#HRpr0, #HRpr1, #HRpr2, #HRpr3, #HRpr4, #HRpr5, #HRpr6, #HRpr7, #HRpr8, #HRpr9, #HRpr10, #HRpr11, #HRpr12, #HRpr13, #HRpr14, #HRpr15⟩, ⟨#HRs0, #HRs1, #HRs2, #HRs3, #HRs4, #HRs5, #HRs6, #HRs7, #HRs8, #HRs9, #HRs10, #HRs11, #HRs12, #HRs13, #HRs14, #HRs15⟩⟩,
      ⟨HaB, ⟨HaS0, HaS1, HaS2, HaS3, HaS4, HaS5, HaS6, HaS7, HaS8, HaS9, HaS10, HaS11, HaS12, HaS13, HaS14, HaS15⟩, ⟨HaR0, HaR1, HaR2, HaR3, HaR4, HaR5, HaR6, HaR7, HaR8, HaR9, HaR10, HaR11, HaR12, HaR13, HaR14, HaR15⟩, HtPB, ⟨HtPR0, HtPR1, HtPR2, HtPR3, HtPR4, HtPR5, HtPR6, HtPR7, HtPR8, HtPR9, HtPR10, HtPR11, HtPR12, HtPR13, HtPR14, HtPR15⟩, ⟨HtS0, HtS1, HtS2, HtS3, HtS4, HtS5, HtS6, HtS7, HtS8, HtS9, HtS10, HtS11, HtS12, HtS13, HtS14, HtS15⟩⟩⟩,
    ⟨HcB, ⟨HcR0, HcR1, HcR2, HcR3, HcR4, HcR5, HcR6, HcR7, HcR8, HcR9, HcR10, HcR11, HcR12, HcR13, HcR14, HcR15⟩⟩, #Hlev, ⟨Hin0, Hin1, Hl0, Hl1⟩, ⟨⟨%f0, Hvin⟩, ⟨%f1, Hvs⟩, ⟨%f2, Hvl⟩⟩, Hx, Hout, Ho⟩, Hk⟩
  unfold Dat.owesAt Pipeline.owesWithin
  icases Ho with ⟨%W, %hW, HO⟩
  rw [show (dats m 0 c).owed t0_0.castSucc = O₀ c from rfl]
  -- the buffers as the memrefs' views, each in the pieces its transfers move
  ihave Hx := (Entails.of_eq (show ((((c : Thread nD τ).loc main_arg0) ↦{fullShare} m ((c : Thread nD τ).loc main_arg0) : sProp 𝕄))
      = ((xM).view.loc (c : Thread nD τ) ↦{fullShare} m ((c : Thread nD τ).loc main_arg0)) from rfl)) $$ Hx
  ihave Hvin2 := (vin_split (F := F) c f0).1 $$ Hvin
  icases Hvin2 with ⟨Hvin0, Hvin1⟩
  ihave Hvl2 := (vloc_split (F := F) c f2).1 $$ Hvl
  icases Hvl2 with ⟨Hvl0, Hvl1⟩
  have hvs := (vsend_split (F := F) c f1).1
  rw [bigSep_fin16] at hvs
  ihave Hvs2 := hvs $$ Hvs
  icases Hvs2 with ⟨Hs0, Hs1, Hs2, Hs3, Hs4, Hs5, Hs6, Hs7, Hs8, Hs9, Hs10, Hs11, Hs12, Hs13, Hs14, Hs15⟩
  have hos := (out_split (F := F) c (m ((c : Thread nD τ).loc main_v1))).1
  rw [bigSep_fin16] at hos
  ihave Hb := hos $$ Hout
  icases Hb with ⟨⟨Hm0, Hm1, Hm2, Hm3, Hm4, Hm5, Hm6, Hm7, Hm8, Hm9, Hm10, Hm11, Hm12, Hm13, Hm14, Hm15⟩, Hpeer⟩
  unfold pts vinSlot vlocSlot sendM outBlk
  sl_exec_parts
  -- the entry signal to the peer: its barrier cell's one duty, paid with the half of this device's result buffer the peer fills
  rw [show (⟨k0_dev1 (c : Thread nD τ).1, k0_dev1_lt (c : Thread nD τ).1⟩ : Dev nD) = pr c from dev1_eq c]
  iapply (Rounds.wp_signal 𝒱₀ ER (sched m) (c : Thread nD τ) none (dst := (pr c : Thread nD τ)) (κ := K (pr c, kB))
      (d := ()) (by rw [duties_bar]; exact Finset.mem_singleton_self _) ((amount_bar m (pr c) ()).trans (by decide)) () (owedFrom c 0) rfl)
    $$ [HO HtPB Hpeer]
  · isplitr; · iexact HIpb
    isplitl [HO]; · iexact HO
    isplitl [HtPB]; · iexact HtPB
    isplitl [Hpeer]
    · rw [payload_bar]; unfold barPay; rw [pr_pr]
      have hmono : (bigSep Finset.univ fun r : Fin 16 => pts (outBlk (pr c) r) c (m ((c : Thread nD τ).loc main_v1)) : sProp 𝕄)
          ⊢ bigSep Finset.univ fun r : Fin 16 => iprop(∃ f, pts (outBlk (pr c) r) c f) :=
        bigSep_mono (fun r _ => pts_ex _ _ _)
      iapply hmono
      unfold pts outBlk
      iexact Hpeer
    · iexact HRpb
  iintro HO
  sl_exec_parts
  -- the wait for the peer's entry signal: the half of the PEER's result buffer this device fills comes with it
  iapply (Rounds.wp_wait_rest_token 𝒱₀ ER (sched m) (c : Thread nD τ) none (κ := K (c, kB))
      (wpE_semWait_eq 𝒱₀ (c : Thread nD τ) none Set.univ) (Set.mem_univ _) () (O := owedFrom c 0) (W := W) (R := 0) (m := 0) (T := ∅)
      (by rw [expect_bar]; decide)) $$ [HcB HO HaB]
  · isplitr; · iexact HIb
    isplitl [HcB]; · iexact HcB
    isplitl [HO]; · iexact HO
    isplitr; · iapply (mayWait_owed (F := F) c (.reg barS) (fun r h => by cases h) 0); iexact Hlev
    iexact HaB
  iintro ⟨HO, HaB, -, Hpay⟩
  have hrb := rest_bar m c
  unfold barPay at hrb
  rw [bigSep_fin16] at hrb
  ihave Hp := (Entails.of_eq hrb) $$ Hpay
  icases Hp with ⟨⟨%g0, Hd0⟩, ⟨%g1, Hd1⟩, ⟨%g2, Hd2⟩, ⟨%g3, Hd3⟩, ⟨%g4, Hd4⟩, ⟨%g5, Hd5⟩, ⟨%g6, Hd6⟩, ⟨%g7, Hd7⟩, ⟨%g8, Hd8⟩, ⟨%g9, Hd9⟩, ⟨%g10, Hd10⟩, ⟨%g11, Hd11⟩, ⟨%g12, Hd12⟩, ⟨%g13, Hd13⟩, ⟨%g14, Hd14⟩, ⟨%g15, Hd15⟩⟩
  have hmwI0 : ∀ k : ℕ, ((levAts L lv : sProp 𝕄) ⊢ MayWait (c : Thread nD τ) (.dma inS0) () (owedFrom c k)) :=
    fun k => mayWait_owed (F := F) c _ (by decide) k
  have hmwI1 : ∀ k : ℕ, ((levAts L lv : sProp 𝕄) ⊢ MayWait (c : Thread nD τ) (.dma inS1) () (owedFrom c k)) :=
    fun k => mayWait_owed (F := F) c _ (by decide) k
  have hmwL0 : ∀ k : ℕ, ((levAts L lv : sProp 𝕄) ⊢ MayWait (c : Thread nD τ) (.dma locS0) () (owedFrom c k)) :=
    fun k => mayWait_owed (F := F) c _ (by decide) k
  have hmwL1 : ∀ k : ℕ, ((levAts L lv : sProp 𝕄) ⊢ MayWait (c : Thread nD τ) (.dma locS1) () (owedFrom c k)) :=
    fun k => mayWait_owed (F := F) c _ (by decide) k
  -- the device's coordinate is 0: the first printed condition holds, the other fails
  have hA := condA_y0 c hy
  have hB := condB_y0 c hy
  sl_exec_parts (disch := first | exact hA | exact hB)
  a2a_trips send_val_y0
  a2a_closing
  -- every block's credit was paid at its transfer: nothing is owed
  rw [show owedFrom c ((15 : Fin 16).val + 1) = 0 from owedFrom_16 c]
  a2a_closes
  a2a_finishes loc_val_y0
  -- the return, and what the device hands back
  sl_exec_parts (disch := first | exact hA | exact hB)
  sl_step
  iapply Hk
  unfold bodyPost Φ₁ scratch xPts semsBack localSems Dat.owesAt Pipeline.owesWithin
  rw [show (dats m 0 c).owed t0_0.succ = 0 from rfl]
  have hjs := (vsend_split (F := F) c (vsendFull m c)).2
  rw [bigSep_fin16] at hjs
  have hjo := (out_split (F := F) c (outFinal m c)).2
  simp only [bigSep_fin16] at hjo
  simp only [bigSep_fin16]
  unfold sendPay recvPay
  isplitr [HO]
  · -- the three scratch buffers, whole again
    a2a_isplitl "Hs" & Hvin0 Hvin1 Hvl0 Hvl1
    · isplitl [Hvin0 Hvin1]
      · iapply (vin_join (F := F) c _ _)
        isplitl [Hvin0]
        · (unfold pts vinSlot; iexact Hvin0)
        (unfold pts vinSlot; iexact Hvin1)
      isplitr [Hvl0 Hvl1]
      · iexists (vsendFull m c)
        iapply hjs
        a2a_give16 "Hs"
      · iapply (vloc_join (F := F) c _ _)
        isplitl [Hvl0]
        · (unfold pts vlocSlot; iexact Hvl0)
        (unfold pts vlocSlot; iexact Hvl1)
    -- the input block, untouched
    isplitl [Hx]
    · iexact Hx
    -- the result buffer: the sixteen blocks the device filled and the sixteen its peer filled, all at the final contents
    a2a_isplitl "Hm" "Hq" &
    · iapply hjo
      a2a_isplitl "Hm" &
      · a2a_give16 "Hm"
      a2a_give16 "Hq"
    -- the 36 semaphores at zero
    isplitl [Hin0 Hin1 Hl0 Hl1]
    · isplitl [Hin0]
      · iexact Hin0
      isplitl [Hin1]
      · iexact Hin1
      isplitl [Hl0]
      · iexact Hl0
      iexact Hl1
    a2a_isplitl "HzS" &
    · a2a_give16 "HzS"
    a2a_give16 "HzR"
  · -- nothing owed, whatever was waited on
    iexists _
    isplitr
    swap
    · iexact HO
    · ipureintro; exact fun _ _ => Or.inl trivial

end Cert.KernelIdeal.A2A
end
-- ==== Proof.KI.BodyY1.lean ====
/-
  The body of the exchange on one device, at a symbolic device whose coordinate on the exchange's axis is 1: the entry handshake with the peer, then sixteen trips —
  fetch a block of 512 rows of the input into one of two staging slots, narrow its two halves into the send buffer and
  the local staging buffer, transfer the send block to the peer's result buffer, copy the local block into the device's
  own result buffer — and the closing waits.
-/
import proofs.«900642_g7700000000000643_dist_a2a_v7x_xyz2x2x4_y_m8192_n1024_bf16_1_alg».proof.Proof.KI.BodyLemmas
import proofs.«900642_g7700000000000643_dist_a2a_v7x_xyz2x2x4_y_m8192_n1024_bf16_1_alg».proof.Proof.KI.Vals

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxHeartbeats 16000000 in
/-- The body on a device whose coordinate on the exchange's axis is 1. -/
theorem sound_body_y1 (K : Dev nD × Fin 33 → ℕ) (c : Dev nD) (hy : (yOf c).val = 1) (Kt : PUnit → sProp 𝕄) :
    iprop(bodyPre m K c ∗ (bodyPost m c -∗ Kt ⟨⟩))
      ⊢ wp frame (wpE (defs₀ (F := F)) 𝒱₀ c none) Set.univ (bodyAt0 (F := F) t0_0) Kt := by
  unfold bodyPre ghost invs marks linear creds scratch xPts localSems
  simp only [bigSep_fin16]
  iintro ⟨⟨⟨⟨#HIb, ⟨#HIs0, #HIs1, #HIs2, #HIs3, #HIs4, #HIs5, #HIs6, #HIs7, #HIs8, #HIs9, #HIs10, #HIs11, #HIs12, #HIs13, #HIs14, #HIs15⟩, ⟨#HIr0, #HIr1, #HIr2, #HIr3, #HIr4, #HIr5, #HIr6, #HIr7, #HIr8, #HIr9, #HIr10, #HIr11, #HIr12, #HIr13, #HIr14, #HIr15⟩, #HIpb, ⟨#HIpr0, #HIpr1, #HIpr2, #HIpr3, #HIpr4, #HIpr5, #HIpr6, #HIpr7, #HIpr8, #HIpr9, #HIpr10, #HIpr11, #HIpr12, #HIpr13, #HIpr14, #HIpr15⟩⟩, ⟨#HRpb, ⟨#HRpr0, #HRpr1, #HRpr2, #HRpr3, #HRpr4, #HRpr5, #HRpr6, #HRpr7, #HRpr8, #HRpr9, #HRpr10, #HRpr11, #HRpr12, #HRpr13, #HRpr14, #HRpr15⟩, ⟨#HRs0, #HRs1, #HRs2, #HRs3, #HRs4, #HRs5, #HRs6, #HRs7, #HRs8, #HRs9, #HRs10, #HRs11, #HRs12, #HRs13, #HRs14, #HRs15⟩⟩,
      ⟨HaB, ⟨HaS0, HaS1, HaS2, HaS3, HaS4, HaS5, HaS6, HaS7, HaS8, HaS9, HaS10, HaS11, HaS12, HaS13, HaS14, HaS15⟩, ⟨HaR0, HaR1, HaR2, HaR3, HaR4, HaR5, HaR6, HaR7, HaR8, HaR9, HaR10, HaR11, HaR12, HaR13, HaR14, HaR15⟩, HtPB, ⟨HtPR0, HtPR1, HtPR2, HtPR3, HtPR4, HtPR5, HtPR6, HtPR7, HtPR8, HtPR9, HtPR10, HtPR11, HtPR12, HtPR13, HtPR14, HtPR15⟩, ⟨HtS0, HtS1, HtS2, HtS3, HtS4, HtS5, HtS6, HtS7, HtS8, HtS9, HtS10, HtS11, HtS12, HtS13, HtS14, HtS15⟩⟩⟩,
    ⟨HcB, ⟨HcR0, HcR1, HcR2, HcR3, HcR4, HcR5, HcR6, HcR7, HcR8, HcR9, HcR10, HcR11, HcR12, HcR13, HcR14, HcR15⟩⟩, #Hlev, ⟨Hin0, Hin1, Hl0, Hl1⟩, ⟨⟨%f0, Hvin⟩, ⟨%f1, Hvs⟩, ⟨%f2, Hvl⟩⟩, Hx, Hout, Ho⟩, Hk⟩
  unfold Dat.owesAt Pipeline.owesWithin
  icases Ho with ⟨%W, %hW, HO⟩
  rw [show (dats m 0 c).owed t0_0.castSucc = O₀ c from rfl]
  -- the buffers as the memrefs' views, each in the pieces its transfers move
  ihave Hx := (Entails.of_eq (show ((((c : Thread nD τ).loc main_arg0) ↦{fullShare} m ((c : Thread nD τ).loc main_arg0) : sProp 𝕄))
      = ((xM).view.loc (c : Thread nD τ) ↦{fullShare} m ((c : Thread nD τ).loc main_arg0)) from rfl)) $$ Hx
  ihave Hvin2 := (vin_split (F := F) c f0).1 $$ Hvin
  icases Hvin2 with ⟨Hvin0, Hvin1⟩
  ihave Hvl2 := (vloc_split (F := F) c f2).1 $$ Hvl
  icases Hvl2 with ⟨Hvl0, Hvl1⟩
  have hvs := (vsend_split (F := F) c f1).1
  rw [bigSep_fin16] at hvs
  ihave Hvs2 := hvs $$ Hvs
  icases Hvs2 with ⟨Hs0, Hs1, Hs2, Hs3, Hs4, Hs5, Hs6, Hs7, Hs8, Hs9, Hs10, Hs11, Hs12, Hs13, Hs14, Hs15⟩
  have hos := (out_split (F := F) c (m ((c : Thread nD τ).loc main_v1))).1
  rw [bigSep_fin16] at hos
  ihave Hb := hos $$ Hout
  icases Hb with ⟨⟨Hm0, Hm1, Hm2, Hm3, Hm4, Hm5, Hm6, Hm7, Hm8, Hm9, Hm10, Hm11, Hm12, Hm13, Hm14, Hm15⟩, Hpeer⟩
  unfold pts vinSlot vlocSlot sendM outBlk
  sl_exec_parts
  -- the entry signal to the peer: its barrier cell's one duty, paid with the half of this device's result buffer the peer fills
  rw [show (⟨k0_dev1 (c : Thread nD τ).1, k0_dev1_lt (c : Thread nD τ).1⟩ : Dev nD) = pr c from dev1_eq c]
  iapply (Rounds.wp_signal 𝒱₀ ER (sched m) (c : Thread nD τ) none (dst := (pr c : Thread nD τ)) (κ := K (pr c, kB))
      (d := ()) (by rw [duties_bar]; exact Finset.mem_singleton_self _) ((amount_bar m (pr c) ()).trans (by decide)) () (owedFrom c 0) rfl)
    $$ [HO HtPB Hpeer]
  · isplitr; · iexact HIpb
    isplitl [HO]; · iexact HO
    isplitl [HtPB]; · iexact HtPB
    isplitl [Hpeer]
    · rw [payload_bar]; unfold barPay; rw [pr_pr]
      have hmono : (bigSep Finset.univ fun r : Fin 16 => pts (outBlk (pr c) r) c (m ((c : Thread nD τ).loc main_v1)) : sProp 𝕄)
          ⊢ bigSep Finset.univ fun r : Fin 16 => iprop(∃ f, pts (outBlk (pr c) r) c f) :=
        bigSep_mono (fun r _ => pts_ex _ _ _)
      iapply hmono
      unfold pts outBlk
      iexact Hpeer
    · iexact HRpb
  iintro HO
  sl_exec_parts
  -- the wait for the peer's entry signal: the half of the PEER's result buffer this device fills comes with it
  iapply (Rounds.wp_wait_rest_token 𝒱₀ ER (sched m) (c : Thread nD τ) none (κ := K (c, kB))
      (wpE_semWait_eq 𝒱₀ (c : Thread nD τ) none Set.univ) (Set.mem_univ _) () (O := owedFrom c 0) (W := W) (R := 0) (m := 0) (T := ∅)
      (by rw [expect_bar]; decide)) $$ [HcB HO HaB]
  · isplitr; · iexact HIb
    isplitl [HcB]; · iexact HcB
    isplitl [HO]; · iexact HO
    isplitr; · iapply (mayWait_owed (F := F) c (.reg barS) (fun r h => by cases h) 0); iexact Hlev
    iexact HaB
  iintro ⟨HO, HaB, -, Hpay⟩
  have hrb := rest_bar m c
  unfold barPay at hrb
  rw [bigSep_fin16] at hrb
  ihave Hp := (Entails.of_eq hrb) $$ Hpay
  icases Hp with ⟨⟨%g0, Hd0⟩, ⟨%g1, Hd1⟩, ⟨%g2, Hd2⟩, ⟨%g3, Hd3⟩, ⟨%g4, Hd4⟩, ⟨%g5, Hd5⟩, ⟨%g6, Hd6⟩, ⟨%g7, Hd7⟩, ⟨%g8, Hd8⟩, ⟨%g9, Hd9⟩, ⟨%g10, Hd10⟩, ⟨%g11, Hd11⟩, ⟨%g12, Hd12⟩, ⟨%g13, Hd13⟩, ⟨%g14, Hd14⟩, ⟨%g15, Hd15⟩⟩
  have hmwI0 : ∀ k : ℕ, ((levAts L lv : sProp 𝕄) ⊢ MayWait (c : Thread nD τ) (.dma inS0) () (owedFrom c k)) :=
    fun k => mayWait_owed (F := F) c _ (by decide) k
  have hmwI1 : ∀ k : ℕ, ((levAts L lv : sProp 𝕄) ⊢ MayWait (c : Thread nD τ) (.dma inS1) () (owedFrom c k)) :=
    fun k => mayWait_owed (F := F) c _ (by decide) k
  have hmwL0 : ∀ k : ℕ, ((levAts L lv : sProp 𝕄) ⊢ MayWait (c : Thread nD τ) (.dma locS0) () (owedFrom c k)) :=
    fun k => mayWait_owed (F := F) c _ (by decide) k
  have hmwL1 : ∀ k : ℕ, ((levAts L lv : sProp 𝕄) ⊢ MayWait (c : Thread nD τ) (.dma locS1) () (owedFrom c k)) :=
    fun k => mayWait_owed (F := F) c _ (by decide) k
  -- the device's coordinate is 1: the second printed condition holds, the other fails
  have hA := condA_y1 c hy
  have hB := condB_y1 c hy
  sl_exec_parts (disch := first | exact hA | exact hB)
  a2a_trips send_val_y1
  a2a_closing
  -- every block's credit was paid at its transfer: nothing is owed
  rw [show owedFrom c ((15 : Fin 16).val + 1) = 0 from owedFrom_16 c]
  a2a_closes
  a2a_finishes loc_val_y1
  -- the return, and what the device hands back
  sl_exec_parts (disch := first | exact hA | exact hB)
  sl_step
  iapply Hk
  unfold bodyPost Φ₁ scratch xPts semsBack localSems Dat.owesAt Pipeline.owesWithin
  rw [show (dats m 0 c).owed t0_0.succ = 0 from rfl]
  have hjs := (vsend_split (F := F) c (vsendFull m c)).2
  rw [bigSep_fin16] at hjs
  have hjo := (out_split (F := F) c (outFinal m c)).2
  simp only [bigSep_fin16] at hjo
  simp only [bigSep_fin16]
  unfold sendPay recvPay
  isplitr [HO]
  · -- the three scratch buffers, whole again
    a2a_isplitl "Hs" & Hvin0 Hvin1 Hvl0 Hvl1
    · isplitl [Hvin0 Hvin1]
      · iapply (vin_join (F := F) c _ _)
        isplitl [Hvin0]
        · (unfold pts vinSlot; iexact Hvin0)
        (unfold pts vinSlot; iexact Hvin1)
      isplitr [Hvl0 Hvl1]
      · iexists (vsendFull m c)
        iapply hjs
        a2a_give16 "Hs"
      · iapply (vloc_join (F := F) c _ _)
        isplitl [Hvl0]
        · (unfold pts vlocSlot; iexact Hvl0)
        (unfold pts vlocSlot; iexact Hvl1)
    -- the input block, untouched
    isplitl [Hx]
    · iexact Hx
    -- the result buffer: the sixteen blocks the device filled and the sixteen its peer filled, all at the final contents
    a2a_isplitl "Hm" "Hq" &
    · iapply hjo
      a2a_isplitl "Hm" &
      · a2a_give16 "Hm"
      a2a_give16 "Hq"
    -- the 36 semaphores at zero
    isplitl [Hin0 Hin1 Hl0 Hl1]
    · isplitl [Hin0]
      · iexact Hin0
      isplitl [Hin1]
      · iexact Hin1
      isplitl [Hl0]
      · iexact Hl0
      iexact Hl1
    a2a_isplitl "HzS" &
    · a2a_give16 "HzS"
    a2a_give16 "HzR"
  · -- nothing owed, whatever was waited on
    iexists _
    isplitr
    swap
    · iexact HO
    · ipureintro; exact fun _ _ => Or.inl trivial

end Cert.KernelIdeal.A2A
end
-- ==== Proof.KI.Body.lean ====
/-
  The body of the exchange on one device, at a symbolic device: by the device's coordinate on the exchange's axis, which
  decides which half of each fetched block goes to the peer and which stays.
-/
import proofs.«900642_g7700000000000643_dist_a2a_v7x_xyz2x2x4_y_m8192_n1024_bf16_1_alg».proof.Proof.KI.BodyY0
import proofs.«900642_g7700000000000643_dist_a2a_v7x_xyz2x2x4_y_m8192_n1024_bf16_1_alg».proof.Proof.KI.BodyY1

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- From the ghost state opened at its names, the scratch buffers, the input block and the result buffer as launched,
    and what the device owes, the body runs to its return and hands back the buffers with the result at its final
    contents, the own semaphores at zero, nothing owed. -/
theorem sound_body (K : Dev nD × Fin 33 → ℕ) (c : Dev nD) (Kt : PUnit → sProp 𝕄) :
    iprop(bodyPre m K c ∗ (bodyPost m c -∗ Kt ⟨⟩))
      ⊢ wp frame (wpE (defs₀ (F := F)) 𝒱₀ c none) Set.univ (bodyAt0 (F := F) t0_0) Kt := by
  rcases yOf_cases c with hy | hy
  · exact sound_body_y0 m K c hy Kt
  · exact sound_body_y1 m K c hy Kt

/-- info: 'Cert.KernelIdeal.A2A.sound_body' depends on axioms: [propext, Classical.choice, Quot.sound] -/
#guard_msgs in #print axioms sound_body

end Cert.KernelIdeal.A2A

end
-- ==== Proof.Ref.lean ====
/-
  The one-device reference: its frame, its result as a function of its argument array, and the index equation that
  makes each device's result buffer its block of that result.
-/
import proofs.«900642_g7700000000000643_dist_a2a_v7x_xyz2x2x4_y_m8192_n1024_bf16_1_alg».proof.Defs
import proofs.«900642_g7700000000000643_dist_a2a_v7x_xyz2x2x4_y_m8192_n1024_bf16_1_alg».proof.Proof.Gen.ReferenceIdeal
import proofs.«900642_g7700000000000643_dist_a2a_v7x_xyz2x2x4_y_m8192_n1024_bf16_1_alg».proof.Proof.Gen.ReferenceIdeal.Run
import proofs.«900642_g7700000000000643_dist_a2a_v7x_xyz2x2x4_y_m8192_n1024_bf16_1_alg».proof.Proof.Gen.ReferenceIdeal.Read
import proofs.«900642_g7700000000000643_dist_a2a_v7x_xyz2x2x4_y_m8192_n1024_bf16_1_alg».proof.Proof.Gen.Pre_finite_inputs_ReferenceIdeal
import proofs.«900642_g7700000000000643_dist_a2a_v7x_xyz2x2x4_y_m8192_n1024_bf16_1_alg».proof.Proof.KI.Spec
import Idealize.ShloMosaic.Lib.Layout
import Idealize.ShloMosaic.Lib.ValueIdx

noncomputable section

namespace Cert.ReferenceIdeal.RefValue

open Idealize.ShloMosaic Idealize.ShloMosaic.TcCoe Idealize.SL.Sem

/-- The reference's result as a function of its argument: the array itself, entry by entry (narrowing is the identity
    on the extended reals). -/
def refOut (X : FVec Ideal Cert.ReferenceIdeal.S16384x2048 .f32) : FVec Ideal Cert.ReferenceIdeal.S16384x2048 .bf16 := fun i => X i

/-- The reference runs to the end from any memory and leaves `refOut` of its argument in its result, the argument unchanged. -/
theorem ref_run [Cert.ReferenceIdeal.Facts] (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v0)
          = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) := by
  -- the reference's run, read on its one device: the result is the argument narrowed entry by entry, and
  -- narrowing is the identity on the extended reals
  refine (θ_run _ _ _).mono ?_ (Cert.ReferenceIdeal.Value.run (F := Ideal) m' g')
  intro r h
  refine ⟨(h 0).1.trans ?_, (h 0).2⟩
  funext i
  rfl

/-- The reference runs to the end from any memory and leaves its argument unchanged: the same run, the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-! ### Where a device's blocks lie

  The argument is cut along its rows by the middle mesh axis and the result along its columns by the same axis; the
  other dimension of each is whole. So a device at coordinate `y` on that axis holds block `(y, 0)` of the argument and
  block `(0, y)` of the result. Sixteen devices: each of the four equations is checked device by device. -/

theorem argBlock_rows (c : Dev Cert.KernelIdeal.nD) :
    ((Layout.meshBlock [2, 2, 4] ![[1], []] c) 0).val = (Cert.KernelIdeal.A2A.yOf c).val := by revert c; decide
theorem argBlock_cols (c : Dev Cert.KernelIdeal.nD) :
    ((Layout.meshBlock [2, 2, 4] ![[1], []] c) 1).val = 0 := by revert c; decide
theorem resBlock_rows (c : Dev Cert.KernelIdeal.nD) :
    ((Layout.meshBlock [2, 2, 4] ![[], [1]] c) 0).val = 0 := by revert c; decide
theorem resBlock_cols (c : Dev Cert.KernelIdeal.nD) :
    ((Layout.meshBlock [2, 2, 4] ![[], [1]] c) 1).val = (Cert.KernelIdeal.A2A.yOf c).val := by revert c; decide

/-- Entry `(r, l)` of the argument block of a device at coordinate `y'` is entry `(8192·y' + r, l)` of the whole array
    (`k` is any index of the whole array with those two coordinates). -/
theorem argBlock_at (X : FVec Ideal Cert.ReferenceIdeal.S16384x2048 .f32) (c' : Dev Cert.KernelIdeal.nD)
    (r : Fin 8192) (l : Fin 2048) (k : Cert.ReferenceIdeal.S16384x2048.Idx)
    (h0 : (k 0).val = 8192 * (Cert.KernelIdeal.A2A.yOf c').val + r.val) (h1 : (k 1).val = l.val) :
    (Layout.blockN ⟨2, ![8192, 2048]⟩ ⟨2, ![16384, 2048]⟩ (Layout.meshBlock [2, 2, 4] ![[1], []] c') X) (ValueIdx.ix2 r l)
      = X k := by
  rw [Layout.blockN_apply]
  congr 1
  funext b
  apply Fin.ext
  rw [Layout.TilesN.idx_val]
  match b with
  | ⟨0, _⟩ =>
    -- rows: `y'` blocks of 8192 rows down, then `r`
    show ((Layout.meshBlock [2, 2, 4] ![[1], []] c') 0).val * 8192 + r.val = (k 0).val
    rw [argBlock_rows c', h0]; omega
  | ⟨1, _⟩ =>
    -- columns: the block spans them all
    show ((Layout.meshBlock [2, 2, 4] ![[1], []] c') 1).val * 2048 + l.val = (k 1).val
    rw [argBlock_cols c', h1]; omega

/-- Each device's final result buffer (`A2A.outFinal`) is its block of the reference's result, when each device's
    input block is its block of the reference's argument. -/
theorem value (m : (ℓ : Loc Cert.KernelIdeal.nD Cert.KernelIdeal.τ Cert.KernelIdeal.sig) → Buf (Elt Ideal) ℓ)
    (X : FVec Ideal Cert.ReferenceIdeal.S16384x2048 .f32)
    (hagree : ∀ c : Dev Cert.KernelIdeal.nD,
      m ((c.tc : Thread Cert.KernelIdeal.nD Cert.KernelIdeal.τ).loc Cert.KernelIdeal.main_arg0)
        = Layout.blockN ⟨2, ![8192, 2048]⟩ ⟨2, ![16384, 2048]⟩ (Layout.meshBlock [2, 2, 4] ![[1], []] c) X)
    (c : Dev Cert.KernelIdeal.nD) :
    Cert.KernelIdeal.A2A.outFinal (F := Ideal) m c
      = Layout.blockN ⟨2, ![16384, 1024]⟩ ⟨2, ![16384, 2048]⟩ (Layout.meshBlock [2, 2, 4] ![[], [1]] c) (refOut X) := by
  funext i
  have hi0 : (i 0).val < 16384 := (i 0).isLt
  have hi1 : (i 1).val < 1024 := (i 1).isLt
  have hy := Cert.KernelIdeal.A2A.yOf_cases c
  have hyp := Cert.KernelIdeal.A2A.yOf_pr c
  -- entry `i` of the device's result block is entry `(i₀, 1024·y + i₁)` of the whole result
  have k0 : ((Layout.TilesN.idx (S := ⟨2, ![16384, 1024]⟩) (T := ⟨2, ![16384, 2048]⟩) (by decide)
      (Layout.meshBlock [2, 2, 4] ![[], [1]] c) i) 0).val = (i 0).val := by
    rw [Layout.TilesN.idx_val]
    show ((Layout.meshBlock [2, 2, 4] ![[], [1]] c) 0).val * 16384 + (i 0).val = (i 0).val
    rw [resBlock_rows c]; omega
  have k1 : ((Layout.TilesN.idx (S := ⟨2, ![16384, 1024]⟩) (T := ⟨2, ![16384, 2048]⟩) (by decide)
      (Layout.meshBlock [2, 2, 4] ![[], [1]] c) i) 1).val = 1024 * (Cert.KernelIdeal.A2A.yOf c).val + (i 1).val := by
    rw [Layout.TilesN.idx_val]
    show ((Layout.meshBlock [2, 2, 4] ![[], [1]] c) 1).val * 1024 + (i 1).val
      = 1024 * (Cert.KernelIdeal.A2A.yOf c).val + (i 1).val
    rw [resBlock_cols c]; omega
  rw [Layout.blockN_apply]
  -- the exchange's result at `i`, narrowing being the identity: the entry of the block that holds row `i₀`
  show (if (i 0).val / 8192 = (Cert.KernelIdeal.A2A.yOf c).val
        then m ((c.tc : Thread Cert.KernelIdeal.nD Cert.KernelIdeal.τ).loc Cert.KernelIdeal.main_arg0)
        else m (((Cert.KernelIdeal.A2A.pr c).tc : Thread Cert.KernelIdeal.nD Cert.KernelIdeal.τ).loc Cert.KernelIdeal.main_arg0))
      (ValueIdx.ix2 _ _) = X _
  rw [hagree c, hagree (Cert.KernelIdeal.A2A.pr c)]
  by_cases hrow : (i 0).val / 8192 = (Cert.KernelIdeal.A2A.yOf c).val
  · -- row `i₀` is in the device's own block: `i₀ = 8192·y + i₀ mod 8192`
    rw [if_pos hrow]
    refine argBlock_at X c _ _ _ ?_ ?_
    · rw [k0]; show (i 0).val = 8192 * (Cert.KernelIdeal.A2A.yOf c).val + (i 0).val % 8192; omega
    · rw [k1]
  · -- row `i₀` is in the partner's block, whose coordinate is `1 - y`: `i₀ = 8192·(1 - y) + i₀ mod 8192`
    rw [if_neg hrow]
    refine argBlock_at X (Cert.KernelIdeal.A2A.pr c) _ _ _ ?_ ?_
    · rw [k0, hyp]; show (i 0).val = 8192 * (1 - (Cert.KernelIdeal.A2A.yOf c).val) + (i 0).val % 8192; omega
    · rw [k1]

/-- info: 'Cert.ReferenceIdeal.RefValue.ref_run' depends on axioms: [propext, Classical.choice, Quot.sound] -/
#guard_msgs in #print axioms ref_run

/-- info: 'Cert.ReferenceIdeal.RefValue.frame_ri' depends on axioms: [propext, Classical.choice, Quot.sound] -/
#guard_msgs in #print axioms frame_ri

/-- info: 'Cert.ReferenceIdeal.RefValue.value' depends on axioms: [propext, Classical.choice, Quot.sound] -/
#guard_msgs in #print axioms value

end Cert.ReferenceIdeal.RefValue

end
-- ==== Proof.lean ====
/-
  The certificate's claim, assembled from its five parts.

  * `frame_Kernel`, `frame_KernelIdeal`: on the sixteen devices the program runs to the end with every device's input
    block unchanged. Both are the launch theorem's run (`Proof/K/Launch.lean`, `Proof/KI/Launch.lean`: from each
    device's body, `Proof/K/Body.lean` and `Proof/KI/Body.lean`, to the run of the whole mesh, each result buffer at
    the exchange's final contents `outFinal` and each input block as launched) with the result forgotten; the word-level
    program at the word instance, the idealized one at the ideal instance.
  * `frame_ReferenceIdeal`: the one-device reference runs to the end with its argument unchanged (`Proof/Ref.lean`).
  * `preserves_Kernel_KernelIdeal`: the idealization rewrote no operation; nothing to prove.
  * `algebraic_KernelIdeal_ReferenceIdeal`: at the ideal instance the reference's result is its argument entry by entry
    (`Proof/Ref.lean`, `ref_run`), and a device's `outFinal` is its block of that array when the devices' input blocks
    are their blocks of the argument (`Proof/Ref.lean`, `value`); the kernel's run supplies `outFinal`.
-/
import proofs.«900642_g7700000000000643_dist_a2a_v7x_xyz2x2x4_y_m8192_n1024_bf16_1_alg».proof.Defs
import proofs.«900642_g7700000000000643_dist_a2a_v7x_xyz2x2x4_y_m8192_n1024_bf16_1_alg».proof.Proof.Gen.Kernel
import proofs.«900642_g7700000000000643_dist_a2a_v7x_xyz2x2x4_y_m8192_n1024_bf16_1_alg».proof.Proof.Gen.Kernel.Skeleton
import proofs.«900642_g7700000000000643_dist_a2a_v7x_xyz2x2x4_y_m8192_n1024_bf16_1_alg».proof.Proof.Gen.Kernel.Launch
import proofs.«900642_g7700000000000643_dist_a2a_v7x_xyz2x2x4_y_m8192_n1024_bf16_1_alg».proof.Proof.Gen.Kernel.Points
import proofs.«900642_g7700000000000643_dist_a2a_v7x_xyz2x2x4_y_m8192_n1024_bf16_1_alg».proof.Proof.Gen.Kernel.Frame
import proofs.«900642_g7700000000000643_dist_a2a_v7x_xyz2x2x4_y_m8192_n1024_bf16_1_alg».proof.Proof.Gen.KernelIdeal
import proofs.«900642_g7700000000000643_dist_a2a_v7x_xyz2x2x4_y_m8192_n1024_bf16_1_alg».proof.Proof.Gen.KernelIdeal.Skeleton
import proofs.«900642_g7700000000000643_dist_a2a_v7x_xyz2x2x4_y_m8192_n1024_bf16_1_alg».proof.Proof.Gen.KernelIdeal.Launch
import proofs.«900642_g7700000000000643_dist_a2a_v7x_xyz2x2x4_y_m8192_n1024_bf16_1_alg».proof.Proof.Gen.KernelIdeal.Points
import proofs.«900642_g7700000000000643_dist_a2a_v7x_xyz2x2x4_y_m8192_n1024_bf16_1_alg».proof.Proof.Gen.KernelIdeal.Frame
import proofs.«900642_g7700000000000643_dist_a2a_v7x_xyz2x2x4_y_m8192_n1024_bf16_1_alg».proof.Proof.Gen.ReferenceIdeal
import proofs.«900642_g7700000000000643_dist_a2a_v7x_xyz2x2x4_y_m8192_n1024_bf16_1_alg».proof.Proof.Gen.Pre_finite_inputs_Kernel
import proofs.«900642_g7700000000000643_dist_a2a_v7x_xyz2x2x4_y_m8192_n1024_bf16_1_alg».proof.Proof.Gen.Pre_finite_inputs_ReferenceIdeal
import Idealize.ShloMosaic.Adequacy
import Idealize.ShloMosaic.Init
import proofs.«900642_g7700000000000643_dist_a2a_v7x_xyz2x2x4_y_m8192_n1024_bf16_1_alg».proof.Proof.KI.Launch
import proofs.«900642_g7700000000000643_dist_a2a_v7x_xyz2x2x4_y_m8192_n1024_bf16_1_alg».proof.Proof.KI.Body
import proofs.«900642_g7700000000000643_dist_a2a_v7x_xyz2x2x4_y_m8192_n1024_bf16_1_alg».proof.Proof.K.Launch
import proofs.«900642_g7700000000000643_dist_a2a_v7x_xyz2x2x4_y_m8192_n1024_bf16_1_alg».proof.Proof.K.Body
import proofs.«900642_g7700000000000643_dist_a2a_v7x_xyz2x2x4_y_m8192_n1024_bf16_1_alg».proof.Proof.Ref

noncomputable section

namespace Cert.Proof

open Idealize.ShloMosaic Idealize.SL.Sem

/-- The idealized program on the sixteen devices runs to the end, each device's result buffer at the exchange's
    final contents and its input block unchanged. -/
theorem run_ki (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (Cert.KernelIdeal.A2A.QC m) :=
  Cert.KernelIdeal.A2A.run_main m g fun c =>
    Cert.KernelIdeal.A2A.body_obligation_of m (fun K c Kt => Cert.KernelIdeal.A2A.sound_body m K c Kt) c

theorem frame_ki : Cert.frame_KernelIdeal :=
  fun m g _ => (θ_run _ _ _).mono (fun _ h c => (h c).2) (run_ki m g)

/-- The same of the program as printed, at the word level. -/
theorem run_k (m : (ℓ : Loc Cert.Kernel.nD Cert.Kernel.τ Cert.Kernel.sig) → Buf (Elt Bits) ℓ)
    (g : Dev Cert.Kernel.nD → PrngReg) :
    θ_run (Cert.Kernel.defs (F := Bits)) (onTc (τ := Cert.Kernel.τ) (Cert.Kernel.main (F := Bits)))
      ⟨m, fun _ => 0, g⟩ (Cert.Kernel.A2A.QC m) :=
  Cert.Kernel.A2A.run_main m g fun c =>
    Cert.Kernel.A2A.body_obligation_of m (fun K c Kt => Cert.Kernel.A2A.sound_body m K c Kt) c

theorem frame_k : Cert.frame_Kernel :=
  fun m g _ => (θ_run _ _ _).mono (fun _ h c => (h c).2) (run_k m g)

/-- At the ideal instance each device's result is its block of the reference's result: the reference's result is its
    argument entry by entry, and the exchange's final contents are that block of it. -/
theorem alg : Cert.algebraic_KernelIdeal_ReferenceIdeal := by
  intro m g m' g' _ hagree
  refine ⟨Cert.ReferenceIdeal.RefValue.refOut
      (m' (((0 : Dev Cert.ReferenceIdeal.nD).tc : Thread Cert.ReferenceIdeal.nD Cert.ReferenceIdeal.τ).loc Cert.ReferenceIdeal.main_arg0)),
    ?_, Cert.ReferenceIdeal.RefValue.ref_run m' g'⟩
  refine (θ_run _ _ _).mono ?_ (run_ki m g)
  intro r h c
  exact ⟨(h c).1.trans (Cert.ReferenceIdeal.RefValue.value m _ hagree c), (h c).2⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.ReferenceIdeal.RefValue.frame_ri, trivial, alg⟩

end Cert.Proof

end
